-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x16x28x28 : Shape := ⟨5, ![8, 256, 16, 28, 28]⟩
abbrev S256x16 : Shape := ⟨2, ![256, 16]⟩
abbrev S1x16 : Shape := ⟨2, ![1, 16]⟩
abbrev S16x256 : Shape := ⟨2, ![16, 256]⟩
abbrev S1x256 : Shape := ⟨2, ![1, 256]⟩
abbrev S8x16 : Shape := ⟨2, ![8, 16]⟩
abbrev S8x1 : Shape := ⟨2, ![8, 1]⟩
abbrev S16x8 : Shape := ⟨2, ![16, 8]⟩
abbrev S16x1 : Shape := ⟨2, ![16, 1]⟩
abbrev S_ : Shape := ⟨0, ![]⟩

class Facts : Prop where
  bcast_S_S8x256x16x28x28 : S_.BroadcastsInDim S8x256x16x28x28 (![] : Fin 0 → Fin S8x256x16x28x28.rank)
  reducesTo_S8x256x16x28x28_S_d0_1_2_3_4 : S8x256x16x28x28.ReducesTo [0, 1, 2, 3, 4] S_
  h_S_ : 0 < S_.numel
  bcast_S_S256x16 : S_.BroadcastsInDim S256x16 (![] : Fin 0 → Fin S256x16.rank)
  reducesTo_S256x16_S_d0_1 : S256x16.ReducesTo [0, 1] S_
  bcast_S_S1x16 : S_.BroadcastsInDim S1x16 (![] : Fin 0 → Fin S1x16.rank)
  reducesTo_S1x16_S_d0_1 : S1x16.ReducesTo [0, 1] S_
  bcast_S_S16x256 : S_.BroadcastsInDim S16x256 (![] : Fin 0 → Fin S16x256.rank)
  reducesTo_S16x256_S_d0_1 : S16x256.ReducesTo [0, 1] S_
  bcast_S_S1x256 : S_.BroadcastsInDim S1x256 (![] : Fin 0 → Fin S1x256.rank)
  reducesTo_S1x256_S_d0_1 : S1x256.ReducesTo [0, 1] S_
  bcast_S_S8x16 : S_.BroadcastsInDim S8x16 (![] : Fin 0 → Fin S8x16.rank)
  reducesTo_S8x16_S_d0_1 : S8x16.ReducesTo [0, 1] S_
  bcast_S_S8x1 : S_.BroadcastsInDim S8x1 (![] : Fin 0 → Fin S8x1.rank)
  reducesTo_S8x1_S_d0_1 : S8x1.ReducesTo [0, 1] S_
  bcast_S_S16x8 : S_.BroadcastsInDim S16x8 (![] : Fin 0 → Fin S16x8.rank)
  reducesTo_S16x8_S_d0_1 : S16x8.ReducesTo [0, 1] S_
  bcast_S_S16x1 : S_.BroadcastsInDim S16x1 (![] : Fin 0 → Fin S16x1.rank)
  reducesTo_S16x1_S_d0_1 : S16x1.ReducesTo [0, 1] S_

variable [Facts]

def fn_part2 {F : FTy → Type} [FloatOps F] (main_arg7 : FVec F S16x8 .f32) (main_arg8 : FVec F S16x1 .f32) (main_v33 : IVec S_ 1) : IVec S_ 1 :=
  let main_v34 : FVec F S16x8 .f32 := Host.absf main_arg7
  let main_cst_12 : FVec F S_ .f32 := constant S_ .f32 0x7F800000#32
  let main_v35 : FVec F S16x8 .f32 := broadcastInDim S16x8 ![] bcast_S_S16x8 main_cst_12
  let main_v36 : IVec S16x8 1 := cmpf .olt main_v34 main_v35
  let main_c_13 : IVec S_ 1 := constantI S_ 1 1#1
  let main_v37 : IVec S_ 1 := (fun x v => Host.reduce IntOp.andi x v reducesTo_S16x8_S_d0_1 h_S_) main_v36 main_c_13
  let main_v38 : IVec S_ 1 := andi main_v33 main_v37
  let main_v39 : FVec F S16x1 .f32 := Host.absf main_arg8
  let main_cst_14 : FVec F S_ .f32 := constant S_ .f32 0x7F800000#32
  let main_v40 : FVec F S16x1 .f32 := broadcastInDim S16x1 ![] bcast_S_S16x1 main_cst_14
  let main_v41 : IVec S16x1 1 := cmpf .olt main_v39 main_v40
  let main_c_15 : IVec S_ 1 := constantI S_ 1 1#1
  let main_v42 : IVec S_ 1 := (fun x v => Host.reduce IntOp.andi x v reducesTo_S16x1_S_d0_1 h_S_) main_v41 main_c_15
  let main_v43 : IVec S_ 1 := andi main_v38 main_v42
  main_v43

def fn_part1 {F : FTy → Type} [FloatOps F] (main_arg4 : FVec F S1x256 .f32) (main_arg5 : FVec F S8x16 .f32) (main_arg6 : FVec F S8x1 .f32) (main_arg7 : FVec F S16x8 .f32) (main_arg8 : FVec F S16x1 .f32) (main_v13 : IVec S_ 1) (main_v16 : IVec S16x256 1) : IVec S_ 1 :=
  let main_c_5 : IVec S_ 1 := constantI S_ 1 1#1
  let main_v17 : IVec S_ 1 := (fun x v => Host.reduce IntOp.andi x v reducesTo_S16x256_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S8x16 .f32 := Host.absf main_arg5
  let main_cst_8 : FVec F S_ .f32 := constant S_ .f32 0x7F800000#32
  let main_v25 : FVec F S8x16 .f32 := broadcastInDim S8x16 ![] bcast_S_S8x16 main_cst_8
  let main_v26 : IVec S8x16 1 := cmpf .olt main_v24 main_v25
  let main_c_9 : IVec S_ 1 := constantI S_ 1 1#1
  let main_v27 : IVec S_ 1 := (fun x v => Host.reduce IntOp.andi x v reducesTo_S8x16_S_d0_1 h_S_) main_v26 main_c_9
  let main_v28 : IVec S_ 1 := andi main_v23 main_v27
  let main_v29 : FVec F S8x1 .f32 := Host.absf main_arg6
  let main_cst_10 : FVec F S_ .f32 := constant S_ .f32 0x7F800000#32
  let main_v30 : FVec F S8x1 .f32 := broadcastInDim S8x1 ![] bcast_S_S8x1 main_cst_10
  let main_v31 : IVec S8x1 1 := cmpf .olt main_v29 main_v30
  let main_c_11 : IVec S_ 1 := constantI S_ 1 1#1
  let main_v32 : IVec S_ 1 := (fun x v => Host.reduce IntOp.andi x v reducesTo_S8x1_S_d0_1 h_S_) main_v31 main_c_11
  let main_v33 : IVec S_ 1 := andi main_v28 main_v32
  fn_part2 (F := F) main_arg7 main_arg8 main_v33

def fn {F : FTy → Type} [FloatOps F] (main_arg0 : FVec F S8x256x16x28x28 .f32) (main_arg1 : FVec F S256x16 .f32) (main_arg2 : FVec F S1x16 .f32) (main_arg3 : FVec F S16x256 .f32) (main_arg4 : FVec F S1x256 .f32) (main_arg5 : FVec F S8x16 .f32) (main_arg6 : FVec F S8x1 .f32) (main_arg7 : FVec F S16x8 .f32) (main_arg8 : FVec F S16x1 .f32) : IVec S_ 1 :=
  let main_v0 : FVec F S8x256x16x28x28 .f32 := Host.absf main_arg0
  let main_cst : FVec F S_ .f32 := constant S_ .f32 0x7F800000#32
  let main_v1 : FVec F S8x256x16x28x28 .f32 := broadcastInDim S8x256x16x28x28 ![] bcast_S_S8x256x16x28x28 main_cst
  let main_v2 : IVec S8x256x16x28x28 1 := cmpf .olt main_v0 main_v1
  let main_c : IVec S_ 1 := constantI S_ 1 1#1
  let main_v3 : IVec S_ 1 := (fun x v => Host.reduce IntOp.andi x v reducesTo_S8x256x16x28x28_S_d0_1_2_3_4 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S16x256 .f32 := Host.absf main_arg3
  let main_cst_4 : FVec F S_ .f32 := constant S_ .f32 0x7F800000#32
  let main_v15 : FVec F S16x256 .f32 := broadcastInDim S16x256 ![] bcast_S_S16x256 main_cst_4
  let main_v16 : IVec S16x256 1 := cmpf .olt main_v14 main_v15
  fn_part1 (F := F) main_arg4 main_arg5 main_arg6 main_arg7 main_arg8 main_v13 main_v16
-- ==== Kernel.lean ====
abbrev S8x256x16x28x28 : Shape := ⟨5, ![8, 256, 16, 28, 28]⟩
abbrev S256x16 : Shape := ⟨2, ![256, 16]⟩
abbrev S1x16 : Shape := ⟨2, ![1, 16]⟩
abbrev S16x256 : Shape := ⟨2, ![16, 256]⟩
abbrev S1x256 : Shape := ⟨2, ![1, 256]⟩
abbrev S8x16 : Shape := ⟨2, ![8, 16]⟩
abbrev S8x1 : Shape := ⟨2, ![8, 1]⟩
abbrev S16x8 : Shape := ⟨2, ![16, 8]⟩
abbrev S16x1 : Shape := ⟨2, ![16, 1]⟩
abbrev S32768x784 : Shape := ⟨2, ![32768, 784]⟩
abbrev S32768x1 : Shape := ⟨2, ![32768, 1]⟩
abbrev S2048x784 : Shape := ⟨2, ![2048, 784]⟩
abbrev S2048x1 : Shape := ⟨2, ![2048, 1]⟩
abbrev S128x784 : Shape := ⟨2, ![128, 784]⟩
abbrev S128 : Shape := ⟨1, ![128]⟩
abbrev S128x1 : Shape := ⟨2, ![128, 1]⟩
abbrev S2048x16 : Shape := ⟨2, ![2048, 16]⟩
abbrev S1x8 : Shape := ⟨2, ![1, 8]⟩
abbrev S8x1x16 : Shape := ⟨3, ![8, 1, 16]⟩
abbrev S1x1x16 : Shape := ⟨3, ![1, 1, 16]⟩
abbrev S16x16 : Shape := ⟨2, ![16, 16]⟩
abbrev S16 : Shape := ⟨1, ![16]⟩
abbrev S256 : Shape := ⟨1, ![256]⟩
abbrev S256x1 : Shape := ⟨2, ![256, 1]⟩

abbrev nBuf : Space → Nat
  | .hbm => 22
  | .vmem => 20
  | .smem => 0
  | _ => 0

abbrev bufTy : (tb : Table) → Fin (tcTables nBuf tb) → BufTy
  | .hbm, ⟨0, _⟩ => ⟨S8x256x16x28x28, .f32⟩
  | .hbm, ⟨1, _⟩ => ⟨S256x16, .f32⟩
  | .hbm, ⟨2, _⟩ => ⟨S1x16, .f32⟩
  | .hbm, ⟨3, _⟩ => ⟨S16x256, .f32⟩
  | .hbm, ⟨4, _⟩ => ⟨S1x256, .f32⟩
  | .hbm, ⟨5, _⟩ => ⟨S8x16, .f32⟩
  | .hbm, ⟨6, _⟩ => ⟨S8x1, .f32⟩
  | .hbm, ⟨7, _⟩ => ⟨S16x8, .f32⟩
  | .hbm, ⟨8, _⟩ => ⟨S16x1, .f32⟩
  | .hbm, ⟨9, _⟩ => ⟨S32768x784, .f32⟩
  | .hbm, ⟨10, _⟩ => ⟨S32768x1, .f32⟩
  | .hbm, ⟨11, _⟩ => ⟨S32768x1, .f32⟩
  | .hbm, ⟨12, _⟩ => ⟨S2048x16, .f32⟩
  | .hbm, ⟨13, _⟩ => ⟨S2048x16, .f32⟩
  | .hbm, ⟨14, _⟩ => ⟨S16x8, .f32⟩
  | .hbm, ⟨15, _⟩ => ⟨S8x16, .f32⟩
  | .hbm, ⟨16, _⟩ => ⟨S16x8, .f32⟩
  | .hbm, ⟨17, _⟩ => ⟨S1x8, .f32⟩
  | .hbm, ⟨18, _⟩ => ⟨S8x16, .f32⟩
  | .hbm, ⟨19, _⟩ => ⟨S1x16, .f32⟩
  | .hbm, ⟨20, _⟩ => ⟨S8x1x16, .f32⟩
  | .hbm, ⟨21, _⟩ => ⟨S8x16, .f32⟩
  | .local _ .vmem, ⟨0, _⟩ => ⟨S2048x784, .f32⟩
  | .local _ .vmem, ⟨1, _⟩ => ⟨S2048x784, .f32⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S256x16, .f32⟩
  | .local _ .vmem, ⟨7, _⟩ => ⟨S256x16, .f32⟩
  | .local _ .vmem, ⟨8, _⟩ => ⟨S256x16, .f32⟩
  | .local _ .vmem, ⟨9, _⟩ => ⟨S256x16, .f32⟩
  | .local _ .vmem, ⟨10, _⟩ => ⟨S256x16, .f32⟩
  | .local _ .vmem, ⟨11, _⟩ => ⟨S1x16, .f32⟩
  | .local _ .vmem, ⟨12, _⟩ => ⟨S16x256, .f32⟩
  | .local _ .vmem, ⟨13, _⟩ => ⟨S1x256, .f32⟩
  | .local _ .vmem, ⟨14, _⟩ => ⟨S16x8, .f32⟩
  | .local _ .vmem, ⟨15, _⟩ => ⟨S1x8, .f32⟩
  | .local _ .vmem, ⟨16, _⟩ => ⟨S8x16, .f32⟩
  | .local _ .vmem, ⟨17, _⟩ => ⟨S1x16, .f32⟩
  | .local _ .vmem, ⟨18, _⟩ => ⟨S1x1x16, .f32⟩
  | .local _ .vmem, ⟨19, _⟩ => ⟨S1x1x16, .f32⟩
  | _, _ => ⟨S8x256x16x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1x1x16 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  shapeCasts_S8x256x16x28x28_S32768x784 : S8x256x16x28x28.ShapeCasts S32768x784
  inb_S2048x784_S128x784_0_0 : ∀ a, (![0, 0] : Fin 2 → Nat) a + S128x784.size a ≤ S2048x784.size a
  h_S128x784 : 0 < S128x784.numel
  shapeCasts_S128x784_S128x784 : S128x784.ShapeCasts S128x784
  reduces_S128x784_S128 : S128x784.Reduces [1] S128
  shapeCasts_S128_S128x1 : S128.ShapeCasts S128x1
  inb_S2048x1_S128x1_0_0 : ∀ a, (![0, 0] : Fin 2 → Nat) a + S128x1.size a ≤ S2048x1.size a
  h_S128x1 : 0 < S128x1.numel
  inb_S2048x784_S128x784_128_0 : ∀ a, (![128, 0] : Fin 2 → Nat) a + S128x784.size a ≤ S2048x784.size a
  inb_S2048x1_S128x1_128_0 : ∀ a, (![128, 0] : Fin 2 → Nat) a + S128x1.size a ≤ S2048x1.size a
  inb_S2048x784_S128x784_256_0 : ∀ a, (![256, 0] : Fin 2 → Nat) a + S128x784.size a ≤ S2048x784.size a
  inb_S2048x1_S128x1_256_0 : ∀ a, (![256, 0] : Fin 2 → Nat) a + S128x1.size a ≤ S2048x1.size a
  inb_S2048x784_S128x784_384_0 : ∀ a, (![384, 0] : Fin 2 → Nat) a + S128x784.size a ≤ S2048x784.size a
  inb_S2048x1_S128x1_384_0 : ∀ a, (![384, 0] : Fin 2 → Nat) a + S128x1.size a ≤ S2048x1.size a
  inb_S2048x784_S128x784_512_0 : ∀ a, (![512, 0] : Fin 2 → Nat) a + S128x784.size a ≤ S2048x784.size a
  inb_S2048x1_S128x1_512_0 : ∀ a, (![512, 0] : Fin 2 → Nat) a + S128x1.size a ≤ S2048x1.size a
  inb_S2048x784_S128x784_640_0 : ∀ a, (![640, 0] : Fin 2 → Nat) a + S128x784.size a ≤ S2048x784.size a
  inb_S2048x1_S128x1_640_0 : ∀ a, (![640, 0] : Fin 2 → Nat) a + S128x1.size a ≤ S2048x1.size a
  inb_S2048x784_S128x784_768_0 : ∀ a, (![768, 0] : Fin 2 → Nat) a + S128x784.size a ≤ S2048x784.size a
  inb_S2048x1_S128x1_768_0 : ∀ a, (![768, 0] : Fin 2 → Nat) a + S128x1.size a ≤ S2048x1.size a
  inb_S2048x784_S128x784_896_0 : ∀ a, (![896, 0] : Fin 2 → Nat) a + S128x784.size a ≤ S2048x784.size a
  inb_S2048x1_S128x1_896_0 : ∀ a, (![896, 0] : Fin 2 → Nat) a + S128x1.size a ≤ S2048x1.size a
  inb_S2048x784_S128x784_1024_0 : ∀ a, (![1024, 0] : Fin 2 → Nat) a + S128x784.size a ≤ S2048x784.size a
  inb_S2048x1_S128x1_1024_0 : ∀ a, (![1024, 0] : Fin 2 → Nat) a + S128x1.size a ≤ S2048x1.size a
  inb_S2048x784_S128x784_1152_0 : ∀ a, (![1152, 0] : Fin 2 → Nat) a + S128x784.size a ≤ S2048x784.size a
  inb_S2048x1_S128x1_1152_0 : ∀ a, (![1152, 0] : Fin 2 → Nat) a + S128x1.size a ≤ S2048x1.size a
  inb_S2048x784_S128x784_1280_0 : ∀ a, (![1280, 0] : Fin 2 → Nat) a + S128x784.size a ≤ S2048x784.size a
  inb_S2048x1_S128x1_1280_0 : ∀ a, (![1280, 0] : Fin 2 → Nat) a + S128x1.size a ≤ S2048x1.size a
  inb_S2048x784_S128x784_1408_0 : ∀ a, (![1408, 0] : Fin 2 → Nat) a + S128x784.size a ≤ S2048x784.size a
  inb_S2048x1_S128x1_1408_0 : ∀ a, (![1408, 0] : Fin 2 → Nat) a + S128x1.size a ≤ S2048x1.size a
  inb_S2048x784_S128x784_1536_0 : ∀ a, (![1536, 0] : Fin 2 → Nat) a + S128x784.size a ≤ S2048x784.size a
  inb_S2048x1_S128x1_1536_0 : ∀ a, (![1536, 0] : Fin 2 → Nat) a + S128x1.size a ≤ S2048x1.size a
  inb_S2048x784_S128x784_1664_0 : ∀ a, (![1664, 0] : Fin 2 → Nat) a + S128x784.size a ≤ S2048x784.size a
  inb_S2048x1_S128x1_1664_0 : ∀ a, (![1664, 0] : Fin 2 → Nat) a + S128x1.size a ≤ S2048x1.size a
  inb_S2048x784_S128x784_1792_0 : ∀ a, (![1792, 0] : Fin 2 → Nat) a + S128x784.size a ≤ S2048x784.size a
  inb_S2048x1_S128x1_1792_0 : ∀ a, (![1792, 0] : Fin 2 → Nat) a + S128x1.size a ≤ S2048x1.size a
  inb_S2048x784_S128x784_1920_0 : ∀ a, (![1920, 0] : Fin 2 → Nat) a + S128x784.size a ≤ S2048x784.size a
  inb_S2048x1_S128x1_1920_0 : ∀ a, (![1920, 0] : Fin 2 → Nat) a + S128x1.size a ≤ S2048x1.size a
  shapeCasts_S32768x1_S2048x16 : S32768x1.ShapeCasts S2048x16
  transposes_S8x16_S16x8_1_0 : S8x16.Transposes [1, 0] S16x8
  transposes_S16x8_S8x16_1_0 : S16x8.Transposes [1, 0] S8x16
  transposes_S8x1_S1x8_1_0 : S8x1.Transposes [1, 0] S1x8
  transposes_S16x1_S1x16_1_0 : S16x1.Transposes [1, 0] S1x16
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S1x16_S1x16_0_0 : ∀ a, (![0, 0] : Fin 2 → Nat) a + S1x16.size a ≤ S1x16.size a
  h_S1x16 : 0 < S1x16.numel
  reduces_S16x16_S16 : S16x16.Reduces [0] S16
  shapeCasts_S16_S1x16 : S16.ShapeCasts S1x16
  reduces_S256x16_S256 : S256x16.Reduces [1] S256
  shapeCasts_S256_S256x1 : S256.ShapeCasts S256x1
  inb_S16x256_S16x256_0_0 : ∀ a, (![0, 0] : Fin 2 → Nat) a + S16x256.size a ≤ S16x256.size a
  h_S16x256 : 0 < S16x256.numel
  inb_S1x256_S1x256_0_0 : ∀ a, (![0, 0] : Fin 2 → Nat) a + S1x256.size a ≤ S1x256.size a
  h_S1x256 : 0 < S1x256.numel
  transposes_S256x16_p1_0_S16x256 : S256x16.Transposes [1, 0] S16x256
  broadcasts_S1x256_S16x256 : S1x256.Broadcasts S16x256
  reduces_S16x256_S16 : S16x256.Reduces [1] S16
  shapeCasts_S16_S16x1 : S16.ShapeCasts S16x1
  transposes_S16x1_p1_0_S1x16 : S16x1.Transposes [1, 0] S1x16
  inb_S16x8_S16x8_0_0 : ∀ a, (![0, 0] : Fin 2 → Nat) a + S16x8.size a ≤ S16x8.size a
  h_S16x8 : 0 < S16x8.numel
  shapeCasts_S16x8_S16x8 : S16x8.ShapeCasts S16x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S8x16_S8x16_0_0 : ∀ a, (![0, 0] : Fin 2 → Nat) a + S8x16.size a ≤ S8x16.size a
  h_S8x16 : 0 < S8x16.numel
  shapeCasts_S8x16_S8x16 : S8x16.ShapeCasts S8x16
  shapeCasts_S1x16_S1x16 : S1x16.ShapeCasts S1x16
  shapeCasts_S1x16_S1x1x16 : S1x16.ShapeCasts S1x1x16
  inb_S1x1x16_S1x1x16_0_0_0 : ∀ a, (![0, 0, 0] : Fin 3 → Nat) a + S1x1x16.size a ≤ S1x1x16.size a
  h_S1x1x16 : 0 < S1x1x16.numel
  shapeCasts_S8x1x16_S8x16 : S8x1x16.ShapeCasts S8x16
  dot_S256x16_S256x16_S16x16_0_0_1_1_n_n_wf : DotDims.WF S256x16 S256x16 S16x16 [0] [0] [1] [1] [] []
  dot_S256x1_S256x16_S1x16_0_0_1_1_n_n_wf : DotDims.WF S256x1 S256x16 S1x16 [0] [0] [1] [1] [] []
  dot_S1x16_S16x256_S1x256_1_0_0_1_n_n_wf : DotDims.WF S1x16 S16x256 S1x256 [1] [0] [0] [1] [] []
  dot_S1x256_S256x16_S1x16_1_0_0_1_n_n_wf : DotDims.WF S1x256 S256x16 S1x16 [1] [0] [0] [1] [] []
  dot_S1x16_S16x8_S1x8_1_0_0_1_n_n_wf : DotDims.WF S1x16 S16x8 S1x8 [1] [0] [0] [1] [] []
  dot_S1x8_S8x16_S1x16_1_0_0_1_n_n_wf : DotDims.WF S1x8 S8x16 S1x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S32768x784.size a
  hwx0_0 : ∀ i : grid0.Coords, EltTy.bits .f32 = 32 ∨ (Rect.block (s := S32768x784) S2048x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S32768x1.size a
  hwx0_1 : ∀ i : grid0.Coords, EltTy.bits .f32 = 32 ∨ (Rect.block (s := S32768x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S32768x1.size a
  hwx0_2 : ∀ i : grid0.Coords, EltTy.bits .f32 = 32 ∨ (Rect.block (s := S32768x1) S2048x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x16.size a ≤ S2048x16.size a
  hwx1_0 : ∀ i : grid1.Coords, EltTy.bits .f32 = 32 ∨ (Rect.block (s := S2048x16) S256x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x16.size a ≤ S2048x16.size a
  hwx1_1 : ∀ i : grid1.Coords, EltTy.bits .f32 = 32 ∨ (Rect.block (s := S2048x16) S256x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x16.size a ≤ S256x16.size a
  hwx1_2 : ∀ i : grid1.Coords, EltTy.bits .f32 = 32 ∨ (Rect.block (s := S256x16) S256x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x256.size a ≤ S16x256.size a
  hwx1_4 : ∀ i : grid1.Coords, EltTy.bits .f32 = 32 ∨ (Rect.block (s := S16x256) S16x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x8.size a ≤ S16x8.size a
  hwx1_6 : ∀ i : grid1.Coords, EltTy.bits .f32 = 32 ∨ (Rect.block (s := S16x8) S16x8.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x8.size a ≤ S1x8.size a
  hwx1_7 : ∀ i : grid1.Coords, EltTy.bits .f32 = 32 ∨ (Rect.block (s := S1x8) S1x8.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S8x16.size a ≤ S8x16.size a
  hwx1_8 : ∀ i : grid1.Coords, EltTy.bits .f32 = 32 ∨ (Rect.block (s := S8x16) S8x16.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x16.size a ≤ S1x16.size a
  hwx1_9 : ∀ i : grid1.Coords, EltTy.bits .f32 = 32 ∨ (Rect.block (s := S1x16) S1x16.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x1x16.size a ≤ S8x1x16.size a
  hwx1_10 : ∀ i : grid1.Coords, EltTy.bits .f32 = 32 ∨ (Rect.block (s := S8x1x16) S1x1x16.size (cc1_transform_10 i) (hinb1_10 i)).WholeWords (EltTy.packing .f32)

variable [Facts₀]

def dot_S256x16_S256x16_S16x16_0_0_1_1_n_n : DotDims S256x16 S256x16 S16x16 where
  lhsContracting := [0]
  rhsContracting := [0]
  lhsNonContracting := [1]
  rhsNonContracting := [1]
  lhsBatch := []
  rhsBatch := []
  wf := dot_S256x16_S256x16_S16x16_0_0_1_1_n_n_wf
def dot_S256x1_S256x16_S1x16_0_0_1_1_n_n : DotDims S256x1 S256x16 S1x16 where
  lhsContracting := [0]
  rhsContracting := [0]
  lhsNonContracting := [1]
  rhsNonContracting := [1]
  lhsBatch := []
  rhsBatch := []
  wf := dot_S256x1_S256x16_S1x16_0_0_1_1_n_n_wf
def dot_S1x16_S16x256_S1x256_1_0_0_1_n_n : DotDims S1x16 S16x256 S1x256 where
  lhsContracting := [1]
  rhsContracting := [0]
  lhsNonContracting := [0]
  rhsNonContracting := [1]
  lhsBatch := []
  rhsBatch := []
  wf := dot_S1x16_S16x256_S1x256_1_0_0_1_n_n_wf
def dot_S1x256_S256x16_S1x16_1_0_0_1_n_n : DotDims S1x256 S256x16 S1x16 where
  lhsContracting := [1]
  rhsContracting := [0]
  lhsNonContracting := [0]
  rhsNonContracting := [1]
  lhsBatch := []
  rhsBatch := []
  wf := dot_S1x256_S256x16_S1x16_1_0_0_1_n_n_wf
def dot_S1x16_S16x8_S1x8_1_0_0_1_n_n : DotDims S1x16 S16x8 S1x8 where
  lhsContracting := [1]
  rhsContracting := [0]
  lhsNonContracting := [0]
  rhsNonContracting := [1]
  lhsBatch := []
  rhsBatch := []
  wf := dot_S1x16_S16x8_S1x8_1_0_0_1_n_n_wf
def dot_S1x8_S8x16_S1x16_1_0_0_1_n_n : DotDims S1x8 S8x16 S1x16 where
  lhsContracting := [1]
  rhsContracting := [0]
  lhsNonContracting := [0]
  rhsNonContracting := [1]
  lhsBatch := []
  rhsBatch := []
  wf := dot_S1x8_S8x16_S1x16_1_0_0_1_n_n_wf

abbrev win0_0 : Pipeline.Window sig grid0 :=
  Pipeline.Window.ofSpec (Memref.whole main_v0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S2048x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S256x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S256x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S256x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S16x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S16x8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S1x8.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S8x16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v9) S1x16.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v10) S1x1x16.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S8x256x16x28x28 : Shape := ⟨5, ![8, 256, 16, 28, 28]⟩
abbrev S256x16 : Shape := ⟨2, ![256, 16]⟩
abbrev S1x16 : Shape := ⟨2, ![1, 16]⟩
abbrev S16x256 : Shape := ⟨2, ![16, 256]⟩
abbrev S1x256 : Shape := ⟨2, ![1, 256]⟩
abbrev S8x16 : Shape := ⟨2, ![8, 16]⟩
abbrev S8x1 : Shape := ⟨2, ![8, 1]⟩
abbrev S16x8 : Shape := ⟨2, ![16, 8]⟩
abbrev S16x1 : Shape := ⟨2, ![16, 1]⟩
abbrev S32768x784 : Shape := ⟨2, ![32768, 784]⟩
abbrev S32768x1 : Shape := ⟨2, ![32768, 1]⟩
abbrev S512x784 : Shape := ⟨2, ![512, 784]⟩
abbrev S512x1 : Shape := ⟨2, ![512, 1]⟩
abbrev S512 : Shape := ⟨1, ![512]⟩
abbrev S8x256x16 : Shape := ⟨3, ![8, 256, 16]⟩
abbrev S1x8 : Shape := ⟨2, ![1, 8]⟩
abbrev S1x256x16 : Shape := ⟨3, ![1, 256, 16]⟩
abbrev S256 : Shape := ⟨1, ![256]⟩
abbrev S16x16 : Shape := ⟨2, ![16, 16]⟩
abbrev S8x256 : Shape := ⟨2, ![8, 256]⟩
abbrev S256x1 : Shape := ⟨2, ![256, 1]⟩
abbrev S16 : Shape := ⟨1, ![16]⟩

abbrev nBuf : Space → Nat
  | .hbm => 19
  | .vmem => 17
  | .smem => 0
  | _ => 0

abbrev bufTy : (tb : Table) → Fin (tcTables nBuf tb) → BufTy
  | .hbm, ⟨0, _⟩ => ⟨S8x256x16x28x28, .f32⟩
  | .hbm, ⟨1, _⟩ => ⟨S256x16, .f32⟩
  | .hbm, ⟨2, _⟩ => ⟨S1x16, .f32⟩
  | .hbm, ⟨3, _⟩ => ⟨S16x256, .f32⟩
  | .hbm, ⟨4, _⟩ => ⟨S1x256, .f32⟩
  | .hbm, ⟨5, _⟩ => ⟨S8x16, .f32⟩
  | .hbm, ⟨6, _⟩ => ⟨S8x1, .f32⟩
  | .hbm, ⟨7, _⟩ => ⟨S16x8, .f32⟩
  | .hbm, ⟨8, _⟩ => ⟨S16x1, .f32⟩
  | .hbm, ⟨9, _⟩ => ⟨S32768x784, .f32⟩
  | .hbm, ⟨10, _⟩ => ⟨S32768x1, .f32⟩
  | .hbm, ⟨11, _⟩ => ⟨S32768x1, .f32⟩
  | .hbm, ⟨12, _⟩ => ⟨S8x256x16, .f32⟩
  | .hbm, ⟨13, _⟩ => ⟨S8x256x16, .f32⟩
  | .hbm, ⟨14, _⟩ => ⟨S16x8, .f32⟩
  | .hbm, ⟨15, _⟩ => ⟨S1x8, .f32⟩
  | .hbm, ⟨16, _⟩ => ⟨S8x16, .f32⟩
  | .hbm, ⟨17, _⟩ => ⟨S1x16, .f32⟩
  | .hbm, ⟨18, _⟩ => ⟨S8x16, .f32⟩
  | .local _ .vmem, ⟨0, _⟩ => ⟨S512x784, .f32⟩
  | .local _ .vmem, ⟨1, _⟩ => ⟨S512x784, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S8x256x16, .f32⟩
  | .local _ .vmem, ⟨7, _⟩ => ⟨S8x256x16, .f32⟩
  | .local _ .vmem, ⟨8, _⟩ => ⟨S256x16, .f32⟩
  | .local _ .vmem, ⟨9, _⟩ => ⟨S1x16, .f32⟩
  | .local _ .vmem, ⟨10, _⟩ => ⟨S16x256, .f32⟩
  | .local _ .vmem, ⟨11, _⟩ => ⟨S1x256, .f32⟩
  | .local _ .vmem, ⟨12, _⟩ => ⟨S16x8, .f32⟩
  | .local _ .vmem, ⟨13, _⟩ => ⟨S1x8, .f32⟩
  | .local _ .vmem, ⟨14, _⟩ => ⟨S8x16, .f32⟩
  | .local _ .vmem, ⟨15, _⟩ => ⟨S1x16, .f32⟩
  | .local _ .vmem, ⟨16, _⟩ => ⟨S8x16, .f32⟩
  | _, _ => ⟨S8x256x16x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

abbrev stage1_0 : Fin 1 → Memref sig .tc .vmem S8x256x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x256x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S16x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S16x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S8x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S8x16 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

class Facts₀ : Prop where
  shapeCasts_S8x256x16x28x28_S32768x784 : S8x256x16x28x28.ShapeCasts S32768x784
  inb_S512x784_S512x784_0_0 : ∀ a, (![0, 0] : Fin 2 → Nat) a + S512x784.size a ≤ S512x784.size a
  h_S512x784 : 0 < S512x784.numel
  shapeCasts_S512x784_S512x784 : S512x784.ShapeCasts S512x784
  reduces_S512x784_S512 : S512x784.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S32768x1_S8x256x16 : S32768x1.ShapeCasts S8x256x16
  transposes_S8x16_S16x8_1_0 : S8x16.Transposes [1, 0] S16x8
  transposes_S8x1_S1x8_1_0 : S8x1.Transposes [1, 0] S1x8
  transposes_S16x8_S8x16_1_0 : S16x8.Transposes [1, 0] S8x16
  transposes_S16x1_S1x16_1_0 : S16x1.Transposes [1, 0] S1x16
  inb_S8x256x16_S1x256x16_0_0_0 : ∀ a, (![0, 0, 0] : Fin 3 → Nat) a + S1x256x16.size a ≤ S8x256x16.size a
  h_S1x256x16 : 0 < S1x256x16.numel
  shapeCasts_S1x256x16_S256x16 : S1x256x16.ShapeCasts S256x16
  transposes_S256x16_p1_0_S16x256 : S256x16.Transposes [1, 0] S16x256
  reduces_S16x256_S256 : S16x256.Reduces [0] S256
  shapeCasts_S256_S1x256 : S256.ShapeCasts S1x256
  inb_S8x256x16_S1x256x16_1_0_0 : ∀ a, (![1, 0, 0] : Fin 3 → Nat) a + S1x256x16.size a ≤ S8x256x16.size a
  inb_S8x256x16_S1x256x16_2_0_0 : ∀ a, (![2, 0, 0] : Fin 3 → Nat) a + S1x256x16.size a ≤ S8x256x16.size a
  inb_S8x256x16_S1x256x16_3_0_0 : ∀ a, (![3, 0, 0] : Fin 3 → Nat) a + S1x256x16.size a ≤ S8x256x16.size a
  inb_S8x256x16_S1x256x16_4_0_0 : ∀ a, (![4, 0, 0] : Fin 3 → Nat) a + S1x256x16.size a ≤ S8x256x16.size a
  inb_S8x256x16_S1x256x16_5_0_0 : ∀ a, (![5, 0, 0] : Fin 3 → Nat) a + S1x256x16.size a ≤ S8x256x16.size a
  inb_S8x256x16_S1x256x16_6_0_0 : ∀ a, (![6, 0, 0] : Fin 3 → Nat) a + S1x256x16.size a ≤ S8x256x16.size a
  inb_S8x256x16_S1x256x16_7_0_0 : ∀ a, (![7, 0, 0] : Fin 3 → Nat) a + S1x256x16.size a ≤ S8x256x16.size a
  concatenates_S1x256_S1x256_S1x256_S1x256_S1x256_S1x256_S1x256_S1x256_S1x256_S1x256_S1x256_S1x256_S1x256_S1x256_S1x256_S1x256_S16x256_d0 : Shape.Concatenates [S1x256, S1x256, S1x256, S1x256, S1x256, S1x256, S1x256, S1x256, S1x256, S1x256, S1x256, S1x256, S1x256, S1x256, S1x256, S1x256] S16x256 0
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  broadcasts_S1x16_S16x16 : S1x16.Broadcasts S16x16
  inb_S16x256_S16x256_0_0 : ∀ a, (![0, 0] : Fin 2 → Nat) a + S16x256.size a ≤ S16x256.size a
  h_S16x256 : 0 < S16x256.numel
  inb_S1x256_S1x256_0_0 : ∀ a, (![0, 0] : Fin 2 → Nat) a + S1x256.size a ≤ S1x256.size a
  h_S1x256 : 0 < S1x256.numel
  broadcasts_S1x256_S16x256 : S1x256.Broadcasts S16x256
  slices_S16x256_o0_0_S8x256 : S16x256.Slices ![0, 0] S8x256
  slices_S16x256_o8_0_S8x256 : S16x256.Slices ![8, 0] S8x256
  slices_S8x256_o0_0_S1x256 : S8x256.Slices ![0, 0] S1x256
  slices_S8x256_o1_0_S1x256 : S8x256.Slices ![1, 0] S1x256
  slices_S8x256_o2_0_S1x256 : S8x256.Slices ![2, 0] S1x256
  slices_S8x256_o3_0_S1x256 : S8x256.Slices ![3, 0] S1x256
  slices_S8x256_o4_0_S1x256 : S8x256.Slices ![4, 0] S1x256
  slices_S8x256_o5_0_S1x256 : S8x256.Slices ![5, 0] S1x256
  slices_S8x256_o6_0_S1x256 : S8x256.Slices ![6, 0] S1x256
  slices_S8x256_o7_0_S1x256 : S8x256.Slices ![7, 0] S1x256
  transposes_S1x256_p1_0_S256x1 : S1x256.Transposes [1, 0] S256x1
  broadcasts_S256x1_S256x16 : S256x1.Broadcasts S256x16
  reduces_S256x16_S16 : S256x16.Reduces [0] S16
  shapeCasts_S16_S1x16 : S16.ShapeCasts S1x16
  concatenates_S1x16_S1x16_S1x16_S1x16_S1x16_S1x16_S1x16_S1x16_S1x16_S1x16_S1x16_S1x16_S1x16_S1x16_S1x16_S1x16_S16x16_d0 : Shape.Concatenates [S1x16, S1x16, S1x16, S1x16, S1x16, S1x16, S1x16, S1x16, S1x16, S1x16, S1x16, S1x16, S1x16, S1x16, S1x16, S1x16] S16x16 0
  inb_S16x8_S16x8_0_0 : ∀ a, (![0, 0] : Fin 2 → Nat) a + S16x8.size a ≤ S16x8.size a
  h_S16x8 : 0 < S16x8.numel
  shapeCasts_S16x8_S16x8 : S16x8.ShapeCasts S16x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S16x8 : S1x8.Broadcasts S16x8
  inb_S8x16_S8x16_0_0 : ∀ a, (![0, 0] : Fin 2 → Nat) a + S8x16.size a ≤ S8x16.size a
  h_S8x16 : 0 < S8x16.numel
  shapeCasts_S8x16_S8x16 : S8x16.ShapeCasts S8x16
  shapeCasts_S1x16_S1x16 : S1x16.ShapeCasts S1x16
  slices_S16x16_o0_0_S8x16 : S16x16.Slices ![0, 0] S8x16
  slices_S16x16_o8_0_S8x16 : S16x16.Slices ![8, 0] S8x16
  dot_S16x256_S256x16_S16x16_1_0_0_1_n_n_wf : DotDims.WF S16x256 S256x16 S16x16 [1] [0] [0] [1] [] []
  dot_S16x16_S16x256_S16x256_1_0_0_1_n_n_wf : DotDims.WF S16x16 S16x256 S16x256 [1] [0] [0] [1] [] []
  dot_S1x256_S256x16_S1x16_1_0_0_1_n_n_wf : DotDims.WF S1x256 S256x16 S1x16 [1] [0] [0] [1] [] []
  dot_S16x16_S16x8_S16x8_1_0_0_1_n_n_wf : DotDims.WF S16x16 S16x8 S16x8 [1] [0] [0] [1] [] []
  dot_S16x8_S8x16_S16x16_1_0_0_1_n_n_wf : DotDims.WF S16x8 S8x16 S16x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S32768x784.size a
  hwx0_0 : ∀ i : grid0.Coords, EltTy.bits .f32 = 32 ∨ (Rect.block (s := S32768x784) S512x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S32768x1.size a
  hwx0_1 : ∀ i : grid0.Coords, EltTy.bits .f32 = 32 ∨ (Rect.block (s := S32768x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S32768x1.size a
  hwx0_2 : ∀ i : grid0.Coords, EltTy.bits .f32 = 32 ∨ (Rect.block (s := S32768x1) S512x1.size (cc0_transform_2 i) (hinb0_2 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole
  hstage1_7 : ∀ j, (stage1_7 j).IsWhole
  hstage1_8 : ∀ j, (stage1_8 j).IsWhole
  hstage1_9 : ∀ j, (stage1_9 j).IsWhole
  hstage1_10 : ∀ j, (stage1_10 j).IsWhole

variable [Facts₀]

def dot_S16x256_S256x16_S16x16_1_0_0_1_n_n : DotDims S16x256 S256x16 S16x16 where
  lhsContracting := [1]
  rhsContracting := [0]
  lhsNonContracting := [0]
  rhsNonContracting := [1]
  lhsBatch := []
  rhsBatch := []
  wf := dot_S16x256_S256x16_S16x16_1_0_0_1_n_n_wf
def dot_S16x16_S16x256_S16x256_1_0_0_1_n_n : DotDims S16x16 S16x256 S16x256 where
  lhsContracting := [1]
  rhsContracting := [0]
  lhsNonContracting := [0]
  rhsNonContracting := [1]
  lhsBatch := []
  rhsBatch := []
  wf := dot_S16x16_S16x256_S16x256_1_0_0_1_n_n_wf
def dot_S1x256_S256x16_S1x16_1_0_0_1_n_n : DotDims S1x256 S256x16 S1x16 where
  lhsContracting := [1]
  rhsContracting := [0]
  lhsNonContracting := [0]
  rhsNonContracting := [1]
  lhsBatch := []
  rhsBatch := []
  wf := dot_S1x256_S256x16_S1x16_1_0_0_1_n_n_wf
def dot_S16x16_S16x8_S16x8_1_0_0_1_n_n : DotDims S16x16 S16x8 S16x8 where
  lhsContracting := [1]
  rhsContracting := [0]
  lhsNonContracting := [0]
  rhsNonContracting := [1]
  lhsBatch := []
  rhsBatch := []
  wf := dot_S16x16_S16x8_S16x8_1_0_0_1_n_n_wf
def dot_S16x8_S8x16_S16x16_1_0_0_1_n_n : DotDims S16x8 S8x16 S16x16 where
  lhsContracting := [1]
  rhsContracting := [0]
  lhsNonContracting := [0]
  rhsNonContracting := [1]
  lhsBatch := []
  rhsBatch := []
  wf := dot_S16x8_S8x16_S16x16_1_0_0_1_n_n_wf

abbrev win0_0 : Pipeline.Window sig grid0 :=
  Pipeline.Window.ofSpec (Memref.whole main_v0) S512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S512x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.whole (Memref.whole main_v2) false false (stage1_0 0) (sem1_0 0) (Memref.isWhole_whole _) (hstage1_0 0)

abbrev win1_1 : Pipeline.Window sig grid1 :=
  Pipeline.Window.whole (Memref.whole main_v3) false false (stage1_1 0) (sem1_1 0) (Memref.isWhole_whole _) (hstage1_1 0)

abbrev win1_2 : Pipeline.Window sig grid1 :=
  Pipeline.Window.whole (Memref.whole main_arg1) false false (stage1_2 0) (sem1_2 0) (Memref.isWhole_whole _) (hstage1_2 0)

abbrev win1_3 : Pipeline.Window sig grid1 :=
  Pipeline.Window.whole (Memref.whole main_arg2) false false (stage1_3 0) (sem1_3 0) (Memref.isWhole_whole _) (hstage1_3 0)

abbrev win1_4 : Pipeline.Window sig grid1 :=
  Pipeline.Window.whole (Memref.whole main_arg3) false false (stage1_4 0) (sem1_4 0) (Memref.isWhole_whole _) (hstage1_4 0)

abbrev win1_5 : Pipeline.Window sig grid1 :=
  Pipeline.Window.whole (Memref.whole main_arg4) false false (stage1_5 0) (sem1_5 0) (Memref.isWhole_whole _) (hstage1_5 0)

abbrev win1_6 : Pipeline.Window sig grid1 :=
  Pipeline.Window.whole (Memref.whole main_v4) false false (stage1_6 0) (sem1_6 0) (Memref.isWhole_whole _) (hstage1_6 0)

abbrev win1_7 : Pipeline.Window sig grid1 :=
  Pipeline.Window.whole (Memref.whole main_v5) false false (stage1_7 0) (sem1_7 0) (Memref.isWhole_whole _) (hstage1_7 0)

abbrev win1_8 : Pipeline.Window sig grid1 :=
  Pipeline.Window.whole (Memref.whole main_v6) false false (stage1_8 0) (sem1_8 0) (Memref.isWhole_whole _) (hstage1_8 0)

abbrev win1_9 : Pipeline.Window sig grid1 :=
  Pipeline.Window.whole (Memref.whole main_v7) false false (stage1_9 0) (sem1_9 0) (Memref.isWhole_whole _) (hstage1_9 0)

abbrev win1_10 : Pipeline.Window sig grid1 :=
  Pipeline.Window.whole (Memref.whole main_v8) true false (stage1_10 0) (sem1_10 0) (Memref.isWhole_whole _) (hstage1_10 0)

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== Proof.Spec.lean ====
/-
  The two channel gates as mathematics, free of either program.

  From the input viewed as 32768 rows of 784 entries (row (b·256 + c)·16 + t is the H×W plane of batch b, channel c,
  frame t) take each row's sum and each row's maximum. Per batch b, with S c t and M c t those sums and maxima:

    gate 1   avg path : (Σ_t S c t)/(T·H·W) through the shared two-layer perceptron (w1, b1, relu, w2, b2)
             max path : max_t M c t through the same perceptron
             scale c  = logistic (avg path + max path)
    gate 2   avg path : (Σ_c scale c · S c t)/(C·H·W) through the second perceptron (u1, c1, relu, u2, c2)
             max path : max_c (M c t · scale c) through the same
             result t = logistic (avg path + max path)

  The two programs spell this differently. One folds gate 1's average pool INTO the first matrix product
  (Σ_t Σ_c S c t · w1 c j, scaled afterwards) and adds each bias once, doubled; the other pools first, stacks the
  average rows over the maximum rows, runs each perceptron once on the stack and adds the two halves, so each bias is added
  twice. `gateR_eq_gateK` is that the two spellings are one value when the sums and the first weights are real
  numbers: the pool moves across the product by distributivity, which on the extended reals needs finite terms;
  the bias law β + β = 2·β and the regrouping of the sums need nothing.

  The constants 1/(T·H·W), 1/(C·H·W), 2, 0 and -∞ are the binary32 words both programs carry; the same word stands
  on both sides, so none is ever evaluated except where a law needs its value.
-/
import Idealize.ShloMosaic.PureOps.Ideal
import Idealize.ShloMosaic.PureOps.Ideal.Laws
import Idealize.ShloMosaic.Lib.ValueIdx

noncomputable section

namespace Cert.Gate

open Idealize.ShloMosaic Idealize.ShloMosaic.ValueIdx

/-- 1/(16·28·28) as both programs carry it. -/
abbrev invTHW : EReal := Ideal.ofBits .f32 0x38A72F05#32
/-- 1/(256·28·28) as both programs carry it. -/
abbrev invCHW : EReal := Ideal.ofBits .f32 0x36A72F05#32
/-- The word of 2. -/
abbrev two : EReal := Ideal.ofBits .f32 0x40000000#32
/-- The word of 0 (the relu's floor). -/
abbrev zero : EReal := Ideal.ofBits .f32 0x00000000#32
/-- The word of -∞ (where every maximum starts). -/
abbrev negInf : EReal := Ideal.ofBits .f32 0xFF800000#32

/-- The sum of row `n` of the input viewed as 32768 × 784. -/
def rowSum (X : (⟨2, ![32768, 784]⟩ : Shape).Idx → EReal) (n : Fin 32768) : EReal :=
  ∑ k : Fin 784, X (ix2 n k)

/-- The maximum of row `n`, folded from -∞. -/
def rowMax (X : (⟨2, ![32768, 784]⟩ : Shape).Idx → EReal) (n : Fin 32768) : EReal :=
  (Finset.univ : Finset (Fin 784)).fold max negInf (fun k => X (ix2 n k))

/-- The [8, 256, 16, 28, 28] input viewed as 32768 rows of 784 entries (row-major: nothing moves). -/
def flat (x : (⟨5, ![8, 256, 16, 28, 28]⟩ : Shape).Idx → EReal) : (⟨2, ![32768, 784]⟩ : Shape).Idx → EReal :=
  shapeCast ⟨2, ![32768, 784]⟩ x (by decide)

/-- Row (b·256 + c)·16 + t of the 32768 rows. -/
def row (b : Fin 8) (c : Fin 256) (t : Fin 16) : Fin 32768 :=
  ⟨(b.val * 256 + c.val) * 16 + t.val, by have := b.isLt; have := c.isLt; have := t.isLt; omega⟩

/-- The per-(batch, channel, frame) sums over the H×W plane. -/
def sums (X : (⟨2, ![32768, 784]⟩ : Shape).Idx → EReal) (b : Fin 8) (c : Fin 256) (t : Fin 16) : EReal := rowSum X (row b c t)
/-- The per-(batch, channel, frame) maxima over the H×W plane. -/
def maxes (X : (⟨2, ![32768, 784]⟩ : Shape).Idx → EReal) (b : Fin 8) (c : Fin 256) (t : Fin 16) : EReal := rowMax X (row b c t)

/-! ## Finite sums of real numbers inside the extended reals -/

/-- The coercion of a finite sum of real numbers is the sum of the coercions: the extended reals add two real
    numbers as the real numbers do, and the empty sum is 0 on both sides. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The plane sums of a real-valued input are real numbers. -/
theorem sums_real (x : (⟨5, ![8, 256, 16, 28, 28]⟩ : Shape).Idx → EReal) (hx : ∀ i, ∃ r : ℝ, x i = (r : EReal))
    (b : Fin 8) (c : Fin 256) (t : Fin 16) : ∃ r : ℝ, sums (flat x) b c t = (r : EReal) := by
  unfold sums rowSum
  choose r hr using hx
  refine ⟨∑ k : Fin 784, r (Shape.reshapeEquiv (by decide) (ix2 (row b c t) k)), ?_⟩
  rw [coe_sum]
  exact Finset.sum_congr rfl fun k _ => hr _

/-! ## The laws the two spellings differ by -/

/-- A binary32-style word whose exponent field is not all ones denotes a real number (a zero, a subnormal or a
    normal): only the all-ones exponent gives an infinity or junk. -/
theorem ieee_real (e m : Nat) {w : Nat} (v : BitVec w) (h : (v.extractLsb' m e).toNat ≠ 2 ^ e - 1) :
    ∃ r : ℝ, Ideal.ieee e m v = (r : EReal) := by
  unfold Ideal.ieee
  simp only [if_neg h]
  split_ifs <;> exact ⟨_, rfl⟩

/-- The word of 1/(16·28·28) denotes some real number; its value is never needed. -/
theorem invTHW_real : ∃ r : ℝ, invTHW = (r : EReal) :=
  ieee_real 8 23 (0x38A72F05#32 : BitVec 32) (by decide)

/-- The word 0x40000000 is the real number 2: exponent field 128, empty fraction, so 2^23 · 2^(128-127-23). -/
theorem two_eq : two = ((2 : ℝ) : EReal) := by
  show Ideal.ofBits .f32 0x40000000#32 = _
  simp [Ideal.ofBits, Ideal.ieee]
  rw [← EReal.coe_mul]
  exact congrArg _ (by norm_num : (8388608 : ℝ) * (2 ^ 22)⁻¹ = 2)

/-- Doubling: 2·β = β + β at every extended real (both sides are ±∞ at ±∞). -/
theorem two_mul_eq (β : EReal) : two * β = β + β := by
  rw [two_eq]
  induction β using EReal.rec with
  | bot => rw [EReal.coe_mul_bot_of_pos (by norm_num)]; rfl
  | coe r => rw [← EReal.coe_mul, ← EReal.coe_add, two_mul]
  | top => rw [EReal.coe_mul_top_of_pos (by norm_num)]; rfl

/-- The bias law: a bias added to each half is the bias added once, doubled. Only commutativity and associativity
    of the extended reals' addition, and the doubling law. -/
theorem bias_law (A B β : EReal) : (A + β) + (B + β) = (A + B) + two * β := by
  rw [two_mul_eq, add_add_add_comm]

/-- The pool moves across the product, over the real numbers: Σ_c ((Σ_t s c t)·k)·w c = (Σ_t Σ_c s c t·w c)·k. -/
theorem pool_move_real {C T : Type} [Fintype C] [Fintype T] (s : C → T → ℝ) (w : C → ℝ) (k : ℝ) :
    ∑ c, ((∑ t, s c t) * k) * w c = (∑ t, ∑ c, s c t * w c) * k := by
  rw [Finset.sum_comm, Finset.sum_mul]
  refine Finset.sum_congr rfl fun c _ => ?_
  rw [← Finset.sum_mul]; ring

/-- The same law on the extended reals when every term and the scale are real numbers: distributivity fails on
    the extended reals in general (∞ - ∞), so the coercions are pushed out and the law is the real one. -/
theorem pool_move {C T : Type} [Fintype C] [Fintype T] (s : C → T → EReal) (w : C → EReal) (κ : EReal)
    (hs : ∀ c t, ∃ r : ℝ, s c t = (r : EReal)) (hw : ∀ c, ∃ r : ℝ, w c = (r : EReal))
    (hκ : ∃ r : ℝ, κ = (r : EReal)) :
    ∑ c, ((∑ t, s c t) * κ) * w c = (∑ t, ∑ c, s c t * w c) * κ := by
  choose s' hs' using hs
  choose w' hw' using hw
  obtain ⟨k, rfl⟩ := hκ
  have h := congrArg (fun r : ℝ => (r : EReal)) (pool_move_real s' w' k)
  simp only [coe_sum, EReal.coe_mul] at h
  simpa only [hs', hw'] using h

/-- The two perceptrons' weights, in the orientation the products use them: gate 1 maps 256 channels to 16 and back,
    gate 2 maps 16 frames to 8 and back. -/
structure Weights where
  w1 : Fin 256 → Fin 16 → EReal
  b1 : Fin 16 → EReal
  w2 : Fin 16 → Fin 256 → EReal
  b2 : Fin 256 → EReal
  u1 : Fin 16 → Fin 8 → EReal
  c1 : Fin 8 → EReal
  u2 : Fin 8 → Fin 16 → EReal
  c2 : Fin 16 → EReal

/-- The weights read off the eight weight arrays as the programs receive them: gate 2's arrive transposed
    ([8, 16], [8, 1], [16, 8], [16, 1]) and both programs transpose them back before use. -/
def weights (w1 : (⟨2, ![256, 16]⟩ : Shape).Idx → EReal) (b1 : (⟨2, ![1, 16]⟩ : Shape).Idx → EReal)
    (w2 : (⟨2, ![16, 256]⟩ : Shape).Idx → EReal) (b2 : (⟨2, ![1, 256]⟩ : Shape).Idx → EReal)
    (w1t : (⟨2, ![8, 16]⟩ : Shape).Idx → EReal) (b1t : (⟨2, ![8, 1]⟩ : Shape).Idx → EReal)
    (w2t : (⟨2, ![16, 8]⟩ : Shape).Idx → EReal) (b2t : (⟨2, ![16, 1]⟩ : Shape).Idx → EReal) : Weights where
  w1 c j := w1 (ix2 c j)
  b1 j := b1 (ix2 0 j)
  w2 j c := w2 (ix2 j c)
  b2 c := b2 (ix2 0 c)
  u1 t j := w1t (ix2 j t)
  c1 j := b1t (ix2 j 0)
  u2 j t := w2t (ix2 t j)
  c2 t := b2t (ix2 t 0)

/-! ## One batch, the pool folded into the first product, each bias added once and doubled -/

section PerBatch
variable (P : Weights) (S M : Fin 256 → Fin 16 → EReal)

/-- Gate 1's average path before the bias: Σ_t Σ_c S c t · w1 c j, then scaled. -/
def avgIn1 (j : Fin 16) : EReal := (∑ t : Fin 16, ∑ c : Fin 256, S c t * P.w1 c j) * invTHW
/-- A channel's maximum over the frames. -/
def chanMax (c : Fin 256) : EReal := (Finset.univ : Finset (Fin 16)).fold max negInf (fun t => M c t)
/-- Gate 1's maximum path before the bias. -/
def maxIn1 (j : Fin 16) : EReal := ∑ c : Fin 256, chanMax M c * P.w1 c j
/-- Gate 1's hidden layers. -/
def hidAvg1 (j : Fin 16) : EReal := max (avgIn1 P S j + P.b1 j) zero
def hidMax1 (j : Fin 16) : EReal := max (maxIn1 P M j + P.b1 j) zero
/-- Gate 1's output before the logistic. -/
def pre1 (c : Fin 256) : EReal :=
  ((∑ j : Fin 16, hidAvg1 P S j * P.w2 j c) + ∑ j : Fin 16, hidMax1 P M j * P.w2 j c) + two * P.b2 c
/-- The channel scale. -/
def scale (c : Fin 256) : EReal := Ideal.logistic (pre1 P S M c)
/-- Gate 2's pools of the rescaled input. -/
def poolAvg2 (t : Fin 16) : EReal := (∑ c : Fin 256, scale P S M c * S c t) * invCHW
def poolMax2 (t : Fin 16) : EReal := (Finset.univ : Finset (Fin 256)).fold max negInf (fun c => M c t * scale P S M c)
/-- Gate 2's hidden layers. -/
def hidAvg2 (j : Fin 8) : EReal := max ((∑ t : Fin 16, poolAvg2 P S M t * P.u1 t j) + P.c1 j) zero
def hidMax2 (j : Fin 8) : EReal := max ((∑ t : Fin 16, poolMax2 P S M t * P.u1 t j) + P.c1 j) zero
/-- Gate 2's output before the logistic. -/
def pre2 (t : Fin 16) : EReal :=
  ((∑ j : Fin 8, hidAvg2 P S M j * P.u2 j t) + ∑ j : Fin 8, hidMax2 P S M j * P.u2 j t) + two * P.c2 t
/-- The temporal gate of one batch. -/
def gateK (t : Fin 16) : EReal := Ideal.logistic (pre2 P S M t)

end PerBatch

/-! ## All batches at once: pool first, stack the average rows over the maximum rows, add the halves -/

section Stacked
variable (P : Weights) (S M : Fin 8 → Fin 256 → Fin 16 → EReal)

/-- Row `b` of the upper half of a 16-row stack. -/
def lo (b : Fin 8) : Fin 16 := ⟨b.val, by have := b.isLt; omega⟩
/-- Row `b` of the lower half. -/
def hi (b : Fin 8) : Fin 16 := ⟨b.val + 8, by have := b.isLt; omega⟩

/-- Eight rows stacked over eight rows. -/
def stack {n : Nat} (up dn : Fin 8 → Fin n → EReal) (r : Fin 16) (i : Fin n) : EReal :=
  if h : r.val < 8 then up ⟨r.val, h⟩ i else dn ⟨r.val - 8, by have := r.isLt; omega⟩ i

/-- Gate 1's pooled rows: the averages over the maxima. -/
def pooled1 : Fin 16 → Fin 256 → EReal :=
  stack (fun b c => (∑ t : Fin 16, S b c t) * invTHW) (fun b c => (Finset.univ : Finset (Fin 16)).fold max negInf (fun t => M b c t))
def hid1 (r : Fin 16) (j : Fin 16) : EReal := max ((∑ c : Fin 256, pooled1 S M r c * P.w1 c j) + P.b1 j) zero
def out1 (r : Fin 16) (c : Fin 256) : EReal := (∑ j : Fin 16, hid1 P S M r j * P.w2 j c) + P.b2 c
def scaleR (b : Fin 8) (c : Fin 256) : EReal := Ideal.logistic (out1 P S M (lo b) c + out1 P S M (hi b) c)
/-- Gate 2's pooled rows. -/
def pooled2 : Fin 16 → Fin 16 → EReal :=
  stack (fun b t => (∑ c : Fin 256, scaleR P S M b c * S b c t) * invCHW)
    (fun b t => (Finset.univ : Finset (Fin 256)).fold max negInf (fun c => M b c t * scaleR P S M b c))
def hid2 (r : Fin 16) (j : Fin 8) : EReal := max ((∑ t : Fin 16, pooled2 P S M r t * P.u1 t j) + P.c1 j) zero
def out2 (r : Fin 16) (t : Fin 16) : EReal := (∑ j : Fin 8, hid2 P S M r j * P.u2 j t) + P.c2 t
/-- The temporal gate, all batches. -/
def gateR (b : Fin 8) (t : Fin 16) : EReal := Ideal.logistic (out2 P S M (lo b) t + out2 P S M (hi b) t)

/-- The upper half of a stack is its first block of rows. -/
theorem stack_lo {n : Nat} (up dn : Fin 8 → Fin n → EReal) (b : Fin 8) : stack up dn (lo b) = up b := by
  funext i
  have h : (lo b).val < 8 := b.isLt
  unfold stack
  rw [dif_pos h]
  rfl

/-- The lower half of a stack is its second block of rows. -/
theorem stack_hi {n : Nat} (up dn : Fin 8 → Fin n → EReal) (b : Fin 8) : stack up dn (hi b) = dn b := by
  funext i
  have h : ¬ (hi b).val < 8 := by show ¬ b.val + 8 < 8; omega
  unfold stack
  rw [dif_neg h]
  congr 1

/-- Gate 1's hidden layer at an average row: the pool crosses the first product. -/
theorem hid1_lo (hS : ∀ b c t, ∃ r : ℝ, S b c t = (r : EReal)) (hw : ∀ c j, ∃ r : ℝ, P.w1 c j = (r : EReal))
    (b : Fin 8) (j : Fin 16) : hid1 P S M (lo b) j = hidAvg1 P (S b) j := by
  unfold hid1 hidAvg1 avgIn1 pooled1
  rw [stack_lo]
  exact congrArg (fun z => max (z + P.b1 j) zero)
    (pool_move (S b) (fun c => P.w1 c j) invTHW (hS b) (fun c => hw c j) invTHW_real)

/-- Gate 1's hidden layer at a maximum row: nothing to move. -/
theorem hid1_hi (b : Fin 8) (j : Fin 16) : hid1 P S M (hi b) j = hidMax1 P (M b) j := by
  unfold hid1 hidMax1 maxIn1 pooled1
  rw [stack_hi]
  rfl

/-- Gate 1's two output rows of a batch add up to the once-doubled-bias spelling. -/
theorem out1_add (hS : ∀ b c t, ∃ r : ℝ, S b c t = (r : EReal)) (hw : ∀ c j, ∃ r : ℝ, P.w1 c j = (r : EReal))
    (b : Fin 8) (c : Fin 256) : out1 P S M (lo b) c + out1 P S M (hi b) c = pre1 P (S b) (M b) c := by
  unfold out1 pre1
  simp only [hid1_lo P S M hS hw, hid1_hi P S M]
  exact bias_law _ _ _

/-- The channel scales agree. -/
theorem scaleR_eq (hS : ∀ b c t, ∃ r : ℝ, S b c t = (r : EReal)) (hw : ∀ c j, ∃ r : ℝ, P.w1 c j = (r : EReal))
    (b : Fin 8) (c : Fin 256) : scaleR P S M b c = scale P (S b) (M b) c := by
  unfold scaleR scale
  rw [out1_add P S M hS hw]

/-- Gate 2's hidden layer at an average row. -/
theorem hid2_lo (hS : ∀ b c t, ∃ r : ℝ, S b c t = (r : EReal)) (hw : ∀ c j, ∃ r : ℝ, P.w1 c j = (r : EReal))
    (b : Fin 8) (j : Fin 8) : hid2 P S M (lo b) j = hidAvg2 P (S b) (M b) j := by
  unfold hid2 hidAvg2 poolAvg2 pooled2
  rw [stack_lo]
  simp only [scaleR_eq P S M hS hw]

/-- Gate 2's hidden layer at a maximum row. -/
theorem hid2_hi (hS : ∀ b c t, ∃ r : ℝ, S b c t = (r : EReal)) (hw : ∀ c j, ∃ r : ℝ, P.w1 c j = (r : EReal))
    (b : Fin 8) (j : Fin 8) : hid2 P S M (hi b) j = hidMax2 P (S b) (M b) j := by
  unfold hid2 hidMax2 poolMax2 pooled2
  rw [stack_hi]
  simp only [scaleR_eq P S M hS hw]

/-- Gate 2's two output rows of a batch add up to the once-doubled-bias spelling. -/
theorem out2_add (hS : ∀ b c t, ∃ r : ℝ, S b c t = (r : EReal)) (hw : ∀ c j, ∃ r : ℝ, P.w1 c j = (r : EReal))
    (b : Fin 8) (t : Fin 16) : out2 P S M (lo b) t + out2 P S M (hi b) t = pre2 P (S b) (M b) t := by
  unfold out2 pre2
  simp only [hid2_lo P S M hS hw, hid2_hi P S M hS hw]
  exact bias_law _ _ _

/-- The two spellings are one value when the plane sums and gate 1's first weights are real numbers. -/
theorem gateR_eq_gateK (hS : ∀ b c t, ∃ r : ℝ, S b c t = (r : EReal)) (hw : ∀ c j, ∃ r : ℝ, P.w1 c j = (r : EReal))
    (b : Fin 8) (t : Fin 16) : gateR P S M b t = gateK P (S b) (M b) t := by
  unfold gateR gateK
  rw [out2_add P S M hS hw]

end Stacked

/-! ## The result as one function of the argument arrays -/

/-- The [8, 16] result: batch `i 0`'s temporal gate at frame `i 1`, of the input's plane sums and maxima. -/
def result (X : (⟨2, ![32768, 784]⟩ : Shape).Idx → EReal)
    (w1 : (⟨2, ![256, 16]⟩ : Shape).Idx → EReal) (b1 : (⟨2, ![1, 16]⟩ : Shape).Idx → EReal)
    (w2 : (⟨2, ![16, 256]⟩ : Shape).Idx → EReal) (b2 : (⟨2, ![1, 256]⟩ : Shape).Idx → EReal)
    (w1t : (⟨2, ![8, 16]⟩ : Shape).Idx → EReal) (b1t : (⟨2, ![8, 1]⟩ : Shape).Idx → EReal)
    (w2t : (⟨2, ![16, 8]⟩ : Shape).Idx → EReal) (b2t : (⟨2, ![16, 1]⟩ : Shape).Idx → EReal) :
    (⟨2, ![8, 16]⟩ : Shape).Idx → EReal :=
  fun i => gateK (weights w1 b1 w2 b2 w1t b1t w2t b2t) (sums X (i 0)) (maxes X (i 0)) (i 1)

end Cert.Gate

end
-- ==== Proof.Finite.lean ====
/-
  Finite inputs are real numbers. The precondition is the conjunction, array by array, of "every entry's absolute value is
  below +∞"; on the extended reals |x| < +∞ says x is neither infinity, so x is a real number. Only the input array and
  gate 1's first weight array are needed: the one law of the bridge that needs finiteness moves the average pool across the
  product with those weights.
-/
import proofs.«158407_g2000003629944382_pallasbulk_706_9_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Idealize.ShloMosaic.ValueIdx Cert.Pre_finite_inputs

variable (a0 : FVec Ideal S8x256x16x28x28 .f32) (a1 : FVec Ideal S256x16 .f32) (a2 : FVec Ideal S1x16 .f32)
  (a3 : FVec Ideal S16x256 .f32) (a4 : FVec Ideal S1x256 .f32) (a5 : FVec Ideal S8x16 .f32) (a6 : FVec Ideal S8x1 .f32)
  (a7 : FVec Ideal S16x8 .f32) (a8 : FVec Ideal S16x1 .f32)

/-- The bit pattern 0x7F800000 denotes +∞ on the extended reals. -/
theorem ofBits_inf : Ideal.ofBits .f32 0x7F800000#32 = (⊤ : EReal) := by
  simp [Ideal.ofBits, Ideal.ieee]

/-- On the extended reals |x| = max x (-x); if it is strictly below +∞ then x is neither +∞ (where max ⊤ ⊥ = ⊤) nor
    -∞ (where max ⊥ ⊤ = ⊤), so x is a real number. -/
theorem real_of_abs_lt_top (x : EReal) (e : max x (-x) < (⊤ : EReal)) : ∃ r : ℝ, x = (r : EReal) := by
  induction x using EReal.rec with
  | bot => exact absurd e (by simp)
  | coe r => exact ⟨r, rfl⟩
  | top => exact absurd e (by simp)

/-- The same, read off the comparison word: the ordered "less than" of |x| against the pattern of +∞ answers 1 exactly
    when |x| < +∞. -/
theorem real_of_cmp (x : Ideal .f32)
    (e : FloatOps.cmpf (F := Ideal) .olt (FloatOps.hostAbsf x) (FloatOps.ofBits .f32 0x7F800000#32) = 1#1) :
    ∃ r : ℝ, x = (r : EReal) := by
  refine real_of_abs_lt_top x ?_
  have e' : Ideal.cmp .olt (max x (-x)) (Ideal.ofBits .f32 0x7F800000#32) = 1#1 := e
  rw [ofBits_inf] at e'
  by_contra hn
  simp [Ideal.cmp, hn] at e'

/-- The result shape of an all-reduction has exactly one index. -/
local instance : Subsingleton S_.Idx := ⟨fun a b => funext fun d => d.elim0⟩

/-- An all-reduction by "and" of the array of words "|x| < +∞", over any shape, that answers 1 had a 1 at every index;
    so every entry of x is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) (i : s.Idx) : ∃ r : ℝ, x i = (r : EReal) :=
  real_of_cmp (x i) (Host.reduce_andi_all _ _ hr hu _ e i)

/-- A conjunction of two one-bit words that is 1 has both words 1. -/
theorem and_ix0 (p q : IVec S_ 1) (e : andi p q ValueIdx.ix0 = 1#1) : p ValueIdx.ix0 = 1#1 ∧ q ValueIdx.ix0 = 1#1 :=
  IntOp.andi_eq_one.1 e

/-- The precondition is a left-nested conjunction of nine all-reductions; peeling the seven outer conjuncts leaves the
    conjunction of the input array's and the first weight array's. -/
theorem inner (h : Cert.Pre_finite_inputs.fn (F := Ideal) a0 a1 a2 a3 a4 a5 a6 a7 a8 = fun _ => 1#1) :
    Host.reduce IntOp.andi
        (cmpf .olt (Host.absf a0) (broadcastInDim S8x256x16x28x28 ![] Facts.bcast_S_S8x256x16x28x28
          (constant (F := Ideal) S_ .f32 0x7F800000#32)))
        (constantI S_ 1 1#1) Facts.reducesTo_S8x256x16x28x28_S_d0_1_2_3_4 Facts.h_S_ ValueIdx.ix0 = 1#1
    ∧ Host.reduce IntOp.andi
        (cmpf .olt (Host.absf a1) (broadcastInDim S256x16 ![] Facts.bcast_S_S256x16
          (constant (F := Ideal) S_ .f32 0x7F800000#32)))
        (constantI S_ 1 1#1) Facts.reducesTo_S256x16_S_d0_1 Facts.h_S_ ValueIdx.ix0 = 1#1 := by
  have h0 := congrFun h ValueIdx.ix0
  dsimp only [fn, fn_part1, fn_part2] at h0
  exact and_ix0 _ _ (and_ix0 _ _ (and_ix0 _ _ (and_ix0 _ _ (and_ix0 _ _ (and_ix0 _ _ (and_ix0 _ _
    (and_ix0 _ _ h0).1).1).1).1).1).1).1

/-- Under the precondition every entry of the input array is a real number. -/
theorem real_x (h : Cert.Pre_finite_inputs.fn (F := Ideal) a0 a1 a2 a3 a4 a5 a6 a7 a8 = fun _ => 1#1) :
    ∀ i, ∃ r : ℝ, a0 i = (r : EReal) :=
  fun i => real_of_all a0 _ _ _ (inner a0 a1 a2 a3 a4 a5 a6 a7 a8 h).1 i

/-- Under the precondition every entry of gate 1's first weight array is a real number. -/
theorem real_w1 (h : Cert.Pre_finite_inputs.fn (F := Ideal) a0 a1 a2 a3 a4 a5 a6 a7 a8 = fun _ => 1#1) :
    ∀ i, ∃ r : ℝ, a1 i = (r : EReal) :=
  fun i => real_of_all a1 _ _ _ (inner a0 a1 a2 a3 a4 a5 a6 a7 a8 h).2 i

end Cert.Finite

end
-- ==== Proof.KRegion0.lean ====
/-
  The first region of the kernel's program, read as values: over the input viewed as 32768 rows of 784 entries it leaves,
  in its two [32768, 1] output arrays, each row's sum and each row's maximum. A grid point handles 2048 rows in
  sixteen chunks of 128 rows; chunk by chunk the stored column is the lane sum (the lane maximum) of the chunk, so at
  row r of the block the buffer holds the sum (the maximum) of that row, and the sixteen blocks tile the array.
-/
import proofs.«158407_g2000003629944382_pallasbulk_706_9_alg».proof.Proof.Gen.KernelIdeal.Frame
import proofs.«158407_g2000003629944382_pallasbulk_706_9_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pools

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- A [128] vector cast to a [128, 1] column reads, at row p, the vector at p. -/
theorem column_apply {α : Type} (v : S128.Idx → α) (h : S128.ShapeCasts S128x1) (p : Fin 128) (q : Fin 1) :
    shapeCast S128x1 v h (ix2 p q) = v (ix1 p) :=
  shapeCast_apply v h _ _ (by
    have hq : q.val = 0 := by omega
    rw [Shape.rowMajor_val_two, Shape.rowMajor_val_one]
    show p.val = p.val * 1 + q.val
    omega)

/-- The lane sum of a [128, 784] chunk, stored as a column. -/
def sumCol (v : Vec Ideal S128x784 .f32) : Vec Ideal S128x1 .f32 :=
  shapeCast S128x1 (multiReduction (F := Ideal) .add [1] S128 (shapeCast S128x784 v shapeCasts_S128x784_S128x784)
    0x00000000#32 reduces_S128x784_S128 (.inl rfl) rfl) shapeCasts_S128_S128x1

/-- The lane maximum of a [128, 784] chunk, folded from -∞, stored as a column. -/
def maxCol (v : Vec Ideal S128x784 .f32) : Vec Ideal S128x1 .f32 :=
  shapeCast S128x1 (multiReduction (F := Ideal) .maximumf [1] S128 (shapeCast S128x784 v shapeCasts_S128x784_S128x784)
    0xFF800000#32 reduces_S128x784_S128 (.inl rfl) rfl) shapeCasts_S128_S128x1

/-- Row p of the [128] result with lane k put back is entry (p, k) of the chunk. -/
theorem lift_eq (p : Fin 128) (k : Fin 784) :
    reduces_S128x784_S128.lift (ix1 p) k = ix2 p k := by
  funext a; apply Fin.ext
  match a with
  | ⟨0, _⟩ => rfl
  | ⟨1, _⟩ => rfl

/-- The sum column at row p is the sum of the chunk's row p. -/
theorem sumCol_apply (v : Vec Ideal S128x784 .f32) (p : Fin 128) (q : Fin 1) :
    sumCol v (ix2 p q) = ∑ k : Fin 784, v (ix2 p k) := by
  unfold sumCol
  refine (column_apply _ _ p q).trans ?_
  refine (Ideal.multiReduction_add_single _ _ _ _ _ (ix1 p)).trans ?_
  rw [shapeCast_self]
  exact Finset.sum_congr rfl fun k _ => congrArg v (lift_eq p k)

/-- The maximum column at row p is the maximum of the chunk's row p, folded from -∞. -/
theorem maxCol_apply (v : Vec Ideal S128x784 .f32) (p : Fin 128) (q : Fin 1) :
    maxCol v (ix2 p q) = (Finset.univ : Finset (Fin 784)).fold max (Ideal.ofBits .f32 0xFF800000#32) (fun k => v (ix2 p k)) := by
  unfold maxCol
  refine (column_apply _ _ p q).trans ?_
  refine (Ideal.multiReduction_maximumf_single _ _ _ _ _ (ix1 p)).trans ?_
  rw [shapeCast_self]
  have e : (v ∘ reduces_S128x784_S128.lift (ix1 p)) = fun k => v (ix2 p k) := funext fun k => congrArg v (lift_eq p k)
  rw [e]
  rfl

/-! The sixteen stored sum columns are one function of their chunk under sixteen names, and so are the sixteen
    maximum columns: each name unfolds to the same operations. Chunk n is rows 128 n … 128 n + 127 of the block. -/
theorem sum_chunk15 (v : Vec Ideal S128x784 .f32) : k0_pay7 (F := Ideal) v = sumCol v := rfl
theorem sum_chunk14 (v : Vec Ideal S128x784 .f32) : k0_pay4 (F := Ideal) v = sumCol v := rfl
theorem sum_chunk13 (v : Vec Ideal S128x784 .f32) : k0_pay1 (F := Ideal) (k0_pay48 v) = sumCol v := rfl
theorem sum_chunk12 (v : Vec Ideal S128x784 .f32) : k0_pay46 (F := Ideal) v = sumCol v := rfl
theorem sum_chunk11 (v : Vec Ideal S128x784 .f32) : k0_pay43 (F := Ideal) v = sumCol v := rfl
theorem sum_chunk10 (v : Vec Ideal S128x784 .f32) : k0_pay40 (F := Ideal) v = sumCol v := rfl
theorem sum_chunk9 (v : Vec Ideal S128x784 .f32) : k0_pay37 (F := Ideal) v = sumCol v := rfl
theorem sum_chunk8 (v : Vec Ideal S128x784 .f32) : k0_pay34 (F := Ideal) v = sumCol v := rfl
theorem sum_chunk7 (v : Vec Ideal S128x784 .f32) : k0_pay31 (F := Ideal) v = sumCol v := rfl
theorem sum_chunk6 (v : Vec Ideal S128x784 .f32) : k0_pay28 (F := Ideal) v = sumCol v := rfl
theorem sum_chunk5 (v : Vec Ideal S128x784 .f32) : k0_pay25 (F := Ideal) v = sumCol v := rfl
theorem sum_chunk4 (v : Vec Ideal S128x784 .f32) : k0_pay22 (F := Ideal) v = sumCol v := rfl
theorem sum_chunk3 (v : Vec Ideal S128x784 .f32) : k0_pay19 (F := Ideal) (k0_pay18 v) = sumCol v := rfl
theorem sum_chunk2 (v : Vec Ideal S128x784 .f32) : k0_pay16 (F := Ideal) v = sumCol v := rfl
theorem sum_chunk1 (v : Vec Ideal S128x784 .f32) : k0_pay13 (F := Ideal) v = sumCol v := rfl
theorem sum_chunk0 (v : Vec Ideal S128x784 .f32) : k0_pay10 (F := Ideal) v = sumCol v := rfl
theorem max_chunk15 (v : Vec Ideal S128x784 .f32) : k0_pay8 (F := Ideal) v = maxCol v := rfl
theorem max_chunk14 (v : Vec Ideal S128x784 .f32) : k0_pay5 (F := Ideal) v = maxCol v := rfl
theorem max_chunk13 (v : Vec Ideal S128x784 .f32) : k0_pay2 (F := Ideal) (k0_pay48 v) = maxCol v := rfl
theorem max_chunk12 (v : Vec Ideal S128x784 .f32) : k0_pay47 (F := Ideal) v = maxCol v := rfl
theorem max_chunk11 (v : Vec Ideal S128x784 .f32) : k0_pay44 (F := Ideal) v = maxCol v := rfl
theorem max_chunk10 (v : Vec Ideal S128x784 .f32) : k0_pay41 (F := Ideal) v = maxCol v := rfl
theorem max_chunk9 (v : Vec Ideal S128x784 .f32) : k0_pay38 (F := Ideal) v = maxCol v := rfl
theorem max_chunk8 (v : Vec Ideal S128x784 .f32) : k0_pay35 (F := Ideal) v = maxCol v := rfl
theorem max_chunk7 (v : Vec Ideal S128x784 .f32) : k0_pay32 (F := Ideal) v = maxCol v := rfl
theorem max_chunk6 (v : Vec Ideal S128x784 .f32) : k0_pay29 (F := Ideal) (k0_pay27 v) = maxCol v := rfl
theorem max_chunk5 (v : Vec Ideal S128x784 .f32) : k0_pay26 (F := Ideal) v = maxCol v := rfl
theorem max_chunk4 (v : Vec Ideal S128x784 .f32) : k0_pay23 (F := Ideal) v = maxCol v := rfl
theorem max_chunk3 (v : Vec Ideal S128x784 .f32) : k0_pay20 (F := Ideal) (k0_pay18 v) = maxCol v := rfl
theorem max_chunk2 (v : Vec Ideal S128x784 .f32) : k0_pay17 (F := Ideal) v = maxCol v := rfl
theorem max_chunk1 (v : Vec Ideal S128x784 .f32) : k0_pay14 (F := Ideal) v = maxCol v := rfl
theorem max_chunk0 (v : Vec Ideal S128x784 .f32) : k0_pay11 (F := Ideal) v = maxCol v := rfl

/-- Each row's sum, over a [2048, 784] block. -/
def blockSums (x : Vec Ideal S2048x784 .f32) : Vec Ideal S2048x1 .f32 :=
  fun y => ∑ k : Fin 784, x (ix2 (y 0) k)

/-- Each row's maximum folded from -∞, over a [2048, 784] block. -/
def blockMaxes (x : Vec Ideal S2048x784 .f32) : Vec Ideal S2048x1 .f32 :=
  fun y => (Finset.univ : Finset (Fin 784)).fold max (Ideal.ofBits .f32 0xFF800000#32) (fun k => x (ix2 (y 0) k))

/-- Entry (p, k) of the 128 rows loaded from row o on is entry (o + p, k) of the block, and o + p is the row of the
    block under row p of the 128-row column stored from row o on. -/
theorem chunk_idx (o : Nat)
    (inbK : ∀ a, (![o, 0] : Fin 2 → Nat) a + S128x784.size a ≤ S2048x784.size a)
    (inb1 : ∀ a, (![o, 0] : Fin 2 → Nat) a + S128x1.size a ≤ S2048x1.size a)
    (p : Fin 128) (q : Fin 1) (k : Fin 784) :
    (Rect.unit (s := S2048x784) ![o, 0] S128x784.size inbK).idx (ix2 p k)
      = ix2 ((Rect.unit (s := S2048x1) ![o, 0] S128x1.size inb1).emb (ix2 p q) 0) k := by
  funext a; apply Fin.ext
  match a with
  | ⟨0, _⟩ => rfl
  | ⟨1, _⟩ => show 0 + 1 * k.val = k.val; omega

/-- The sum column of the chunk loaded from row o on is the block's row sums under the column's rectangle. -/
theorem sum_piece (x : Vec Ideal S2048x784 .f32) (o : Nat)
    (inbK : ∀ a, (![o, 0] : Fin 2 → Nat) a + S128x784.size a ≤ S2048x784.size a)
    (inb1 : ∀ a, (![o, 0] : Fin 2 → Nat) a + S128x1.size a ≤ S2048x1.size a)
    (j : S128x1.Idx) :
    sumCol (View.ld x (Rect.unit (s := S2048x784) ![o, 0] S128x784.size inbK)) j
      = blockSums x ((Rect.unit (s := S2048x1) ![o, 0] S128x1.size inb1).emb j) := by
  obtain ⟨p, q, rfl⟩ : ∃ (p : Fin 128) (q : Fin 1), j = ix2 p q := ⟨j 0, j 1, eq_ix2 j⟩
  refine (sumCol_apply _ p q).trans ?_
  exact Finset.sum_congr rfl fun k _ => congrArg x (chunk_idx o inbK inb1 p q k)

/-- The maximum column of the chunk loaded from row o on is the block's row maxima under the column's rectangle. -/
theorem max_piece (x : Vec Ideal S2048x784 .f32) (o : Nat)
    (inbK : ∀ a, (![o, 0] : Fin 2 → Nat) a + S128x784.size a ≤ S2048x784.size a)
    (inb1 : ∀ a, (![o, 0] : Fin 2 → Nat) a + S128x1.size a ≤ S2048x1.size a)
    (j : S128x1.Idx) :
    maxCol (View.ld x (Rect.unit (s := S2048x784) ![o, 0] S128x784.size inbK)) j
      = blockMaxes x ((Rect.unit (s := S2048x1) ![o, 0] S128x1.size inb1).emb j) := by
  obtain ⟨p, q, rfl⟩ : ∃ (p : Fin 128) (q : Fin 1), j = ix2 p q := ⟨j 0, j 1, eq_ix2 j⟩
  refine (maxCol_apply _ p q).trans ?_
  exact congrArg (fun f => (Finset.univ : Finset (Fin 784)).fold max (Ideal.ofBits .f32 0xFF800000#32) f)
    (funext fun k => congrArg x (chunk_idx o inbK inb1 p q k))

/-- What the body leaves in the first output's buffer is the block's row sums: every stored column agrees with them
    on its rectangle, and the sixteen columns cover the buffer. -/
theorem out_sums (x : Vec Ideal S2048x784 .f32) : out0_1 (F := Ideal) x = blockSums x := by
  funext y
  unfold out0_1
  refine View.canon_apply_of_pieces (blockSums x) _ ?_ y (cover0_1 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl <;> intro j
  · dsimp only; rw [sum_chunk15]; exact sum_piece x 1920 inb_S2048x784_S128x784_1920_0 inb_S2048x1_S128x1_1920_0 j
  · dsimp only; rw [sum_chunk14]; exact sum_piece x 1792 inb_S2048x784_S128x784_1792_0 inb_S2048x1_S128x1_1792_0 j
  · dsimp only; rw [sum_chunk13]; exact sum_piece x 1664 inb_S2048x784_S128x784_1664_0 inb_S2048x1_S128x1_1664_0 j
  · dsimp only; rw [sum_chunk12]; exact sum_piece x 1536 inb_S2048x784_S128x784_1536_0 inb_S2048x1_S128x1_1536_0 j
  · dsimp only; rw [sum_chunk11]; exact sum_piece x 1408 inb_S2048x784_S128x784_1408_0 inb_S2048x1_S128x1_1408_0 j
  · dsimp only; rw [sum_chunk10]; exact sum_piece x 1280 inb_S2048x784_S128x784_1280_0 inb_S2048x1_S128x1_1280_0 j
  · dsimp only; rw [sum_chunk9]; exact sum_piece x 1152 inb_S2048x784_S128x784_1152_0 inb_S2048x1_S128x1_1152_0 j
  · dsimp only; rw [sum_chunk8]; exact sum_piece x 1024 inb_S2048x784_S128x784_1024_0 inb_S2048x1_S128x1_1024_0 j
  · dsimp only; rw [sum_chunk7]; exact sum_piece x 896 inb_S2048x784_S128x784_896_0 inb_S2048x1_S128x1_896_0 j
  · dsimp only; rw [sum_chunk6]; exact sum_piece x 768 inb_S2048x784_S128x784_768_0 inb_S2048x1_S128x1_768_0 j
  · dsimp only; rw [sum_chunk5]; exact sum_piece x 640 inb_S2048x784_S128x784_640_0 inb_S2048x1_S128x1_640_0 j
  · dsimp only; rw [sum_chunk4]; exact sum_piece x 512 inb_S2048x784_S128x784_512_0 inb_S2048x1_S128x1_512_0 j
  · dsimp only; rw [sum_chunk3]; exact sum_piece x 384 inb_S2048x784_S128x784_384_0 inb_S2048x1_S128x1_384_0 j
  · dsimp only; rw [sum_chunk2]; exact sum_piece x 256 inb_S2048x784_S128x784_256_0 inb_S2048x1_S128x1_256_0 j
  · dsimp only; rw [sum_chunk1]; exact sum_piece x 128 inb_S2048x784_S128x784_128_0 inb_S2048x1_S128x1_128_0 j
  · dsimp only; rw [sum_chunk0]; exact sum_piece x 0 inb_S2048x784_S128x784_0_0 inb_S2048x1_S128x1_0_0 j

/-- What the body leaves in the second output's buffer is the block's row maxima, likewise. -/
theorem out_maxes (x : Vec Ideal S2048x784 .f32) : out0_2 (F := Ideal) x = blockMaxes x := by
  funext y
  unfold out0_2
  refine View.canon_apply_of_pieces (blockMaxes x) _ ?_ y (cover0_2 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl <;> intro j
  · dsimp only; rw [max_chunk15]; exact max_piece x 1920 inb_S2048x784_S128x784_1920_0 inb_S2048x1_S128x1_1920_0 j
  · dsimp only; rw [max_chunk14]; exact max_piece x 1792 inb_S2048x784_S128x784_1792_0 inb_S2048x1_S128x1_1792_0 j
  · dsimp only; rw [max_chunk13]; exact max_piece x 1664 inb_S2048x784_S128x784_1664_0 inb_S2048x1_S128x1_1664_0 j
  · dsimp only; rw [max_chunk12]; exact max_piece x 1536 inb_S2048x784_S128x784_1536_0 inb_S2048x1_S128x1_1536_0 j
  · dsimp only; rw [max_chunk11]; exact max_piece x 1408 inb_S2048x784_S128x784_1408_0 inb_S2048x1_S128x1_1408_0 j
  · dsimp only; rw [max_chunk10]; exact max_piece x 1280 inb_S2048x784_S128x784_1280_0 inb_S2048x1_S128x1_1280_0 j
  · dsimp only; rw [max_chunk9]; exact max_piece x 1152 inb_S2048x784_S128x784_1152_0 inb_S2048x1_S128x1_1152_0 j
  · dsimp only; rw [max_chunk8]; exact max_piece x 1024 inb_S2048x784_S128x784_1024_0 inb_S2048x1_S128x1_1024_0 j
  · dsimp only; rw [max_chunk7]; exact max_piece x 896 inb_S2048x784_S128x784_896_0 inb_S2048x1_S128x1_896_0 j
  · dsimp only; rw [max_chunk6]; exact max_piece x 768 inb_S2048x784_S128x784_768_0 inb_S2048x1_S128x1_768_0 j
  · dsimp only; rw [max_chunk5]; exact max_piece x 640 inb_S2048x784_S128x784_640_0 inb_S2048x1_S128x1_640_0 j
  · dsimp only; rw [max_chunk4]; exact max_piece x 512 inb_S2048x784_S128x784_512_0 inb_S2048x1_S128x1_512_0 j
  · dsimp only; rw [max_chunk3]; exact max_piece x 384 inb_S2048x784_S128x784_384_0 inb_S2048x1_S128x1_384_0 j
  · dsimp only; rw [max_chunk2]; exact max_piece x 256 inb_S2048x784_S128x784_256_0 inb_S2048x1_S128x1_256_0 j
  · dsimp only; rw [max_chunk1]; exact max_piece x 128 inb_S2048x784_S128x784_128_0 inb_S2048x1_S128x1_128_0 j
  · dsimp only; rw [max_chunk0]; exact max_piece x 0 inb_S2048x784_S128x784_0_0 inb_S2048x1_S128x1_0_0 j

variable (V : (c : Dev nD) → (b : Ref sig .tc) → Buf (Elt Ideal) ((c : Thread nD τ).loc b))

/-- The three windows' index maps send grid point t to block (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What grid point t writes back to the first output is block t of the array of all row sums: row r of the input's
    block t is row 2048 t + r of the input, the row under row r of the output's block t. -/
theorem flushed_sums (c : Dev nD) (t : Fin cfg0.N) :
    (dat0 (F := Ideal) V c).flushed 1 t = ((cfg0.win 1).blk t).view.read (Elt Ideal)
      (fun i : S32768x1.Idx => Cert.Gate.rowSum (V c main_v0 : S32768x784.Idx → EReal) (i 0)) := by
  show (cfg0.win 1).cut (grid0.coords t) ((dat0 V c).after 1 t) = _
  rw [after0_1]
  funext j
  refine (congrFun (out_sums (iblk0 V c 0 t)) _).trans ?_
  obtain ⟨e0, e1, e2, e3, e4, e5⟩ := idx_facts t
  show blockSums (iblk0 V c 0 t) _ = Cert.Gate.rowSum (V c main_v0 : S32768x784.Idx → EReal) (((cfg0.win 1).blk t).view.emb j 0)
  unfold blockSums Cert.Gate.rowSum
  refine Finset.sum_congr rfl fun k _ => ?_
  show V c main_v0 (((cfg0.win 0).blk t).view.emb (ix2 ((cfg0.win 1).xinj (grid0.coords t) j 0) k)) = _
  refine congrArg (V c main_v0) (funext fun a => Fin.ext ?_)
  match a with
  | ⟨0, _⟩ => show win0_0.index t (0 : Fin 2) * 2048 + 1 * (j 0).val = win0_1.index t (0 : Fin 2) * 2048 + 1 * (j 0).val; rw [e0, e2]
  | ⟨1, _⟩ => show win0_0.index t (1 : Fin 2) * 784 + 1 * k.val = k.val; rw [e1]; omega

/-- What grid point t writes back to the second output is block t of the array of all row maxima, likewise. -/
theorem flushed_maxes (c : Dev nD) (t : Fin cfg0.N) :
    (dat0 (F := Ideal) V c).flushed 2 t = ((cfg0.win 2).blk t).view.read (Elt Ideal)
      (fun i : S32768x1.Idx => Cert.Gate.rowMax (V c main_v0 : S32768x784.Idx → EReal) (i 0)) := by
  show (cfg0.win 2).cut (grid0.coords t) ((dat0 V c).after 2 t) = _
  rw [after0_2]
  funext j
  refine (congrFun (out_maxes (iblk0 V c 0 t)) _).trans ?_
  obtain ⟨e0, e1, e2, e3, e4, e5⟩ := idx_facts t
  show blockMaxes (iblk0 V c 0 t) _ = Cert.Gate.rowMax (V c main_v0 : S32768x784.Idx → EReal) (((cfg0.win 2).blk t).view.emb j 0)
  unfold blockMaxes Cert.Gate.rowMax
  refine congrArg (fun f => (Finset.univ : Finset (Fin 784)).fold max (Ideal.ofBits .f32 0xFF800000#32) f) (funext fun k => ?_)
  show V c main_v0 (((cfg0.win 0).blk t).view.emb (ix2 ((cfg0.win 2).xinj (grid0.coords t) j 0) k)) = _
  refine congrArg (V c main_v0) (funext fun a => Fin.ext ?_)
  match a with
  | ⟨0, _⟩ => show win0_0.index t (0 : Fin 2) * 2048 + 1 * (j 0).val = win0_2.index t (0 : Fin 2) * 2048 + 1 * (j 0).val; rw [e0, e4]
  | ⟨1, _⟩ => show win0_0.index t (1 : Fin 2) * 784 + 1 * k.val = k.val; rw [e1]; omega

/-- An index of the first output array is in grid point t's block iff each coordinate is in the block's range. -/
theorem mem_blk1 (t : Fin cfg0.N) (i : S32768x1.Idx) :
    i ∈ ((cfg0.win 1).blk t).view.set ↔ ∀ a : Fin 2, win0_1.index t a * S2048x1.size a ≤ (i a).val ∧ (i a).val < win0_1.index t a * S2048x1.size a + S2048x1.size a := by
  show i ∈ ((View.whole main_v1_0).slice (win0_1.rect t)).set ↔ _
  rw [View.set_slice_whole, Rect.mem_set_unit]
  exact Iff.rfl

/-- The same for the second output array. -/
theorem mem_blk2 (t : Fin cfg0.N) (i : S32768x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v1_1).slice (win0_2.rect t)).set ↔ _
  rw [View.set_slice_whole, Rect.mem_set_unit]
  exact Iff.rfl

/-- Row r of the first output array is written back by grid point r / 2048: the sixteen blocks tile the array. -/
theorem cover_sums (i : S32768x1.Idx) :
    ∃ t : Fin cfg0.N, (cfg0.win 1).flush t = true ∧ i ∈ ((cfg0.win 1).blk t).view.set := by
  have h0 : (i 0).val < 32768 := (i 0).isLt
  have h1 : (i 1).val < 1 := (i 1).isLt
  have hN : cfg0.N = 16 := N_0
  obtain ⟨t, ht⟩ : ∃ t : Fin cfg0.N, t.val = (i 0).val / 2048 := ⟨⟨(i 0).val / 2048, by rw [hN]; omega⟩, rfl⟩
  obtain ⟨e0, e1, e2, e3, e4, e5⟩ := idx_facts t
  refine ⟨t, flush0_1 t, ?_⟩
  rw [mem_blk1]
  intro a
  match a with
  | ⟨0, _⟩ => show win0_1.index t (0 : Fin 2) * 2048 ≤ (i 0).val ∧ (i 0).val < win0_1.index t (0 : Fin 2) * 2048 + 2048; rw [e2, ht]; omega
  | ⟨1, _⟩ => show win0_1.index t (1 : Fin 2) * 1 ≤ (i 1).val ∧ (i 1).val < win0_1.index t (1 : Fin 2) * 1 + 1; rw [e3]; omega

/-- Row r of the second output array is written back by grid point r / 2048. -/
theorem cover_maxes (i : S32768x1.Idx) :
    ∃ t : Fin cfg0.N, (cfg0.win 2).flush t = true ∧ i ∈ ((cfg0.win 2).blk t).view.set := by
  have h0 : (i 0).val < 32768 := (i 0).isLt
  have h1 : (i 1).val < 1 := (i 1).isLt
  have hN : cfg0.N = 16 := N_0
  obtain ⟨t, ht⟩ : ∃ t : Fin cfg0.N, t.val = (i 0).val / 2048 := ⟨⟨(i 0).val / 2048, by rw [hN]; omega⟩, rfl⟩
  obtain ⟨e0, e1, e2, e3, e4, e5⟩ := idx_facts t
  refine ⟨t, flush0_2 t, ?_⟩
  rw [mem_blk2]
  intro a
  match a with
  | ⟨0, _⟩ => show win0_2.index t (0 : Fin 2) * 2048 ≤ (i 0).val ∧ (i 0).val < win0_2.index t (0 : Fin 2) * 2048 + 2048; rw [e4, ht]; omega
  | ⟨1, _⟩ => show win0_2.index t (1 : Fin 2) * 1 ≤ (i 1).val ∧ (i 1).val < win0_2.index t (1 : Fin 2) * 1 + 1; rw [e5]; omega

/-- After the region the first output array holds every row's sum. -/
theorem arr_sums (c : Dev nD) :
    (dat0 (F := Ideal) V c).arrAt 1 cfg0.N
      = fun i : S32768x1.Idx => Cert.Gate.rowSum (V c main_v0 : S32768x784.Idx → EReal) (i 0) :=
  (dat0 (F := Ideal) V c).arrAt_eq_of_cover 1 _ (fun t _ => flushed_sums V c t) cover_sums

/-- After the region the second output array holds every row's maximum. -/
theorem arr_maxes (c : Dev nD) :
    (dat0 (F := Ideal) V c).arrAt 2 cfg0.N
      = fun i : S32768x1.Idx => Cert.Gate.rowMax (V c main_v0 : S32768x784.Idx → EReal) (i 0) :=
  (dat0 (F := Ideal) V c).arrAt_eq_of_cover 2 _ (fun t _ => flushed_maxes V c t) cover_maxes

end Cert.KernelIdeal.Pools

end
-- ==== Proof.KRegion1.lean ====
/-
  The second region of the kernel's program, read as values: grid point b takes rows 256 b … 256 b + 255 of the two
  [2048, 16] arrays (batch b's per-channel, per-frame plane sums and maxima), the eight weight arrays whole, and writes
  row b of the [8, 1, 16] output: batch b's temporal gate, in the spelling that folds the average pool into the first
  matrix product and adds each bias once, doubled. The eight blocks tile the output.

  The body is read stage by stage at an index: each of its six products as the sum over its one contracted axis, the
  sum over the rows of the first product and the two lane maxima as a sum and folds of max from -∞, the layout steps
  (a vector as a row or a column, a transpose, a row broadcast) as re-indexings; together gate 1's [1, 256] row is the
  channel scale, the two values handed on are gate 2's average pool and the scaled maxima, and the stored [1, 1, 16]
  block is the temporal gate of the batch whose rows the point was given. A block's element sits in its array at
  block index × block size + its own coordinate, so the row windows read rows 256 b + ch, the weight windows (block
  index 0) read their arrays whole, and entry (b, 0, t) of the output is covered by point b.
-/
import proofs.«158407_g2000003629944382_pallasbulk_706_9_alg».proof.Proof.Gen.KernelIdeal.Frame
import proofs.«158407_g2000003629944382_pallasbulk_706_9_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GateRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The perceptrons' weights as the region finds them: gate 2's already transposed back by the host. -/
def weightsAt (c : Dev nD) : Cert.Gate.Weights where
  w1 ch j := (V c main_arg1 : S256x16.Idx → EReal) (ix2 ch j)
  b1 j := (V c main_arg2 : S1x16.Idx → EReal) (ix2 0 j)
  w2 j ch := (V c main_arg3 : S16x256.Idx → EReal) (ix2 j ch)
  b2 ch := (V c main_arg4 : S1x256.Idx → EReal) (ix2 0 ch)
  u1 t j := (V c main_v6 : S16x8.Idx → EReal) (ix2 t j)
  c1 j := (V c main_v7 : S1x8.Idx → EReal) (ix2 0 j)
  u2 j t := (V c main_v8 : S8x16.Idx → EReal) (ix2 j t)
  c2 t := (V c main_v9 : S1x16.Idx → EReal) (ix2 0 t)

/-- Row 256 b + ch of the 2048 rows. -/
def brow (b : Fin 8) (ch : Fin 256) : Fin 2048 := ⟨b.val * 256 + ch.val, by have := b.isLt; have := ch.isLt; omega⟩

/-! ## A product contracted over one axis, read at an index

The dimension numbers of the six products come in two kinds: rows of the left operand against rows of the right
(`lhs` contracted on axis 0: Xᵀ·W) and the plain product (`lhs` contracted on axis 1: H·W). Each is read once, for any
record of that kind, as the sum over the contracted coordinate. -/

section Plain
variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  rw [D.size_contr 0 (by rw [hlc]; exact Nat.one_pos), List.getElem_of_eq hlc]; rfl

include hlb hln in
theorem plain_lhs0 (i : (⟨2, ![M, N]⟩ : Shape).Idx) (q : D.contr.Idx) : (D.lhsIdx i q 0).val = (i 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r → (i ⟨p, hp⟩).val = (i ⟨r, hr⟩).val :=
    fun p r hp hr h => by subst h; rfl
  exact key _ _ _ _ (by simp [hlb, hln])

include hrb hrn hlb hln in
theorem plain_rhs1 (i : (⟨2, ![M, N]⟩ : Shape).Idx) (q : D.contr.Idx) : (D.rhsIdx i q 1).val = (i 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r → (i ⟨p, hp⟩).val = (i ⟨r, hr⟩).val :=
    fun p r hp hr h => by subst h; rfl
  exact key _ _ _ _ (by simp [hlb, hln, hrn])

include hlc hrc hln hrn hlb hrb in
/-- Entry (r, c) of H·W is Σ_k H r k · W k c. -/
theorem plain_apply (x : FVec Ideal ⟨2, ![M, K]⟩ .f32) (w : FVec Ideal ⟨2, ![K, N]⟩ .f32) (r : Fin M) (c : Fin N) :
    matmul D none x w (constant (F := Ideal) ⟨2, ![M, N]⟩ .f32 0x00000000#32) (ix2 r c)
      = ∑ k : Fin K, x (ix2 r k) * w (ix2 k c) := by
  refine (Ideal.matmul_constant_zero_apply _ _ _ _ _).trans ?_
  rw [← Equiv.sum_comp (contrEquiv1 D K (plain_rank D hlc) (plain_size D hlc)).symm]
  refine Finset.sum_congr rfl fun k _ => ?_
  have hk := contrEquiv1_symm_val D K (plain_rank D hlc) (plain_size D hlc) k
  have el : D.lhsIdx (ix2 r c) ((contrEquiv1 D K (plain_rank D hlc) (plain_size D hlc)).symm k) = ix2 r k :=
    funext fun a => Fin.ext (by
      match a with
      | ⟨0, _⟩ => exact plain_lhs0 D hln hlb _ _
      | ⟨1, _⟩ => exact (D.lhsIdx_val_of_single hlc _ _).trans hk)
  have er : D.rhsIdx (ix2 r c) ((contrEquiv1 D K (plain_rank D hlc) (plain_size D hlc)).symm k) = ix2 k c :=
    funext fun a => Fin.ext (by
      match a with
      | ⟨0, _⟩ => exact (D.rhsIdx_val_of_single hrc _ _).trans hk
      | ⟨1, _⟩ => exact plain_rhs1 D hln hrn hlb hrb _ _)
  rw [el, er]
end Plain

section RowsAgainstRows
variable {M K N : Nat} (D : DotDims ⟨2, ![K, M]⟩ ⟨2, ![K, N]⟩ ⟨2, ![M, N]⟩)
  (hlc : D.lhsContracting = [0]) (hrc : D.rhsContracting = [0])
  (hln : D.lhsNonContracting = [1]) (hrn : D.rhsNonContracting = [1])
  (hlb : D.lhsBatch = []) (hrb : D.rhsBatch = [])

include hlc in
theorem rows_rank : D.contr.rank = 1 := by rw [D.rank_contr, hlc]; rfl

include hlc in
theorem rows_size : D.contr.size ⟨0, by rw [rows_rank D hlc]; exact Nat.one_pos⟩ = K := by
  rw [D.size_contr 0 (by rw [hlc]; exact Nat.one_pos), List.getElem_of_eq hlc]; rfl

include hlb hln in
theorem rows_lhs1 (i : (⟨2, ![M, N]⟩ : Shape).Idx) (q : D.contr.Idx) : (D.lhsIdx i q 1).val = (i 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r → (i ⟨p, hp⟩).val = (i ⟨r, hr⟩).val :=
    fun p r hp hr h => by subst h; rfl
  exact key _ _ _ _ (by simp [hlb, hln])

include hrb hrn hlb hln in
theorem rows_rhs1 (i : (⟨2, ![M, N]⟩ : Shape).Idx) (q : D.contr.Idx) : (D.rhsIdx i q 1).val = (i 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r → (i ⟨p, hp⟩).val = (i ⟨r, hr⟩).val :=
    fun p r hp hr h => by subst h; rfl
  exact key _ _ _ _ (by simp [hlb, hln, hrn])

include hlc hrc hln hrn hlb hrb in
/-- Entry (r, c) of Xᵀ·W is Σ_k X k r · W k c. -/
theorem rows_apply (x : FVec Ideal ⟨2, ![K, M]⟩ .f32) (w : FVec Ideal ⟨2, ![K, N]⟩ .f32) (r : Fin M) (c : Fin N) :
    matmul D none x w (constant (F := Ideal) ⟨2, ![M, N]⟩ .f32 0x00000000#32) (ix2 r c)
      = ∑ k : Fin K, x (ix2 k r) * w (ix2 k c) := by
  refine (Ideal.matmul_constant_zero_apply _ _ _ _ _).trans ?_
  rw [← Equiv.sum_comp (contrEquiv1 D K (rows_rank D hlc) (rows_size D hlc)).symm]
  refine Finset.sum_congr rfl fun k _ => ?_
  have hk := contrEquiv1_symm_val D K (rows_rank D hlc) (rows_size D hlc) k
  have el : D.lhsIdx (ix2 r c) ((contrEquiv1 D K (rows_rank D hlc) (rows_size D hlc)).symm k) = ix2 k r :=
    funext fun a => Fin.ext (by
      match a with
      | ⟨0, _⟩ => exact (D.lhsIdx_val_of_single hlc _ _).trans hk
      | ⟨1, _⟩ => exact rows_lhs1 D hln hlb _ _)
  have er : D.rhsIdx (ix2 r c) ((contrEquiv1 D K (rows_rank D hlc) (rows_size D hlc)).symm k) = ix2 k c :=
    funext fun a => Fin.ext (by
      match a with
      | ⟨0, _⟩ => exact (D.rhsIdx_val_of_single hrc _ _).trans hk
      | ⟨1, _⟩ => exact rows_rhs1 D hln hrn hlb hrb _ _)
  rw [el, er]
end RowsAgainstRows

/-! ## The reductions and the layout steps, read at an index -/

/-- The [16,16] product summed over its rows. -/
theorem sumRows_apply (v : FVec Ideal S16x16 .f32) (h : S16x16.Reduces [0] S16) (hφ : FKind.Formats .f32)
    (hacc : (0x00000000#32 : BitVec 32) = FKind.add.neutral .f32 hφ) (j : Fin 16) :
    multiReduction (F := Ideal) .add [0] S16 v 0x00000000#32 h hφ hacc (ix1 j)
      = ∑ t : Fin 16, v (ix2 t j) := by
  refine (Ideal.multiReduction_add_single v _ _ _ _ (ix1 j)).trans ?_
  exact Finset.sum_congr rfl fun k _ => congrArg v (funext fun a => Fin.ext (by
    match a with
    | ⟨0, _⟩ => rfl
    | ⟨1, _⟩ => rfl))

/-- A row's maximum over its 16 entries, folded from -∞. -/
theorem maxOverFrames_apply (v : FVec Ideal S256x16 .f32) (h : S256x16.Reduces [1] S256) (hφ : FKind.Formats .f32)
    (hacc : (0xFF800000#32 : BitVec 32) = FKind.maximumf.neutral .f32 hφ) (c : Fin 256) :
    multiReduction (F := Ideal) .maximumf [1] S256 v 0xFF800000#32 h hφ hacc (ix1 c)
      = (Finset.univ : Finset (Fin 16)).fold max Cert.Gate.negInf (fun t => v (ix2 c t)) := by
  refine (Ideal.multiReduction_maximumf_single v _ _ _ _ (ix1 c)).trans ?_
  exact congrArg (fun f : Fin 16 → EReal => (Finset.univ : Finset (Fin 16)).fold max Cert.Gate.negInf f)
    (funext fun k => congrArg v (funext fun a => Fin.ext (by
      match a with
      | ⟨0, _⟩ => rfl
      | ⟨1, _⟩ => rfl)))

/-- A row's maximum over its 256 entries, folded from -∞. -/
theorem maxOverChannels_apply (v : FVec Ideal S16x256 .f32) (h : S16x256.Reduces [1] S16) (hφ : FKind.Formats .f32)
    (hacc : (0xFF800000#32 : BitVec 32) = FKind.maximumf.neutral .f32 hφ) (t : Fin 16) :
    multiReduction (F := Ideal) .maximumf [1] S16 v 0xFF800000#32 h hφ hacc (ix1 t)
      = (Finset.univ : Finset (Fin 256)).fold max Cert.Gate.negInf (fun c => v (ix2 t c)) := by
  refine (Ideal.multiReduction_maximumf_single v _ _ _ _ (ix1 t)).trans ?_
  exact congrArg (fun f : Fin 256 → EReal => (Finset.univ : Finset (Fin 256)).fold max Cert.Gate.negInf f)
    (funext fun k => congrArg v (funext fun a => Fin.ext (by
      match a with
      | ⟨0, _⟩ => rfl
      | ⟨1, _⟩ => rfl)))

/-- An [a] vector cast to the column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem logistic_apply {s : Shape} {φ : FTy} (a : FVec Ideal s φ) (i : s.Idx) : logistic a i = Ideal.logistic (a i) := rfl

/-! ## Gate 1 at an index: the channel scale -/

section PerPoint
variable (x0 x1 w1 : FVec Ideal S256x16 .f32) (b1 : FVec Ideal S1x16 .f32) (w2 : FVec Ideal S16x256 .f32)
  (b2 : FVec Ideal S1x256 .f32) (u1 : FVec Ideal S16x8 .f32) (c1 : FVec Ideal S1x8 .f32) (u2 : FVec Ideal S8x16 .f32)
  (c2 : FVec Ideal S1x16 .f32)

/-- The weights read off the eight weight blocks. -/
def blockWeights : Cert.Gate.Weights where
  w1 ch j := w1 (ix2 ch j)
  b1 j := b1 (ix2 0 j)
  w2 j ch := w2 (ix2 j ch)
  b2 ch := b2 (ix2 0 ch)
  u1 t j := u1 (ix2 t j)
  c1 j := c1 (ix2 0 j)
  u2 j t := u2 (ix2 j t)
  c2 t := c2 (ix2 0 t)

/-- A [256, 16] block as a function of channel and frame. -/
def plane (x : FVec Ideal S256x16 .f32) : Fin 256 → Fin 16 → EReal := fun ch t => x (ix2 ch t)

/-- The [1, 256] row the first gate ends in is the channel scale. -/
theorem scale_apply (c : Fin 256) :
    k1_pay4 (F := Ideal) x0 x1 w1 b1 w2 b2 (ix2 0 c)
      = Cert.Gate.scale (blockWeights w1 b1 w2 b2 u1 c1 u2 c2) (plane x0) (plane x1) c := by
  unfold k1_pay4 Cert.Gate.scale Cert.Gate.pre1
  try dsimp only
  simp only [logistic_apply, addf_apply, mulf_apply, maximumf_apply, broadcast_apply]
  refine congrArg Ideal.logistic (congrArg₂ (· + ·) (congrArg₂ (· + ·) ?_ ?_) rfl)
  · -- the average path: the pool folded into the first product
    refine (plain_apply _ rfl rfl rfl rfl rfl rfl _ _ 0 c).trans (Finset.sum_congr rfl fun j _ => ?_)
    refine congrArg (· * w2 (ix2 j c)) ?_
    simp only [maximumf_apply, addf_apply, mulf_apply, broadcast_apply]
    refine congrArg₂ max (congrArg₂ (· + ·) (congrArg₂ (· * ·) ?_ rfl) rfl) rfl
    refine (shapeCast_a_1a_apply _ _ 0 j).trans ?_
    refine (sumRows_apply _ _ _ _ j).trans (Finset.sum_congr rfl fun t _ => ?_)
    refine (rows_apply _ rfl rfl rfl rfl rfl rfl _ _ t j).trans (Finset.sum_congr rfl fun ch _ => ?_)
    unfold k1_pay2
    rw [shapeCast_self]
    rfl
  · -- the maximum path
    refine (plain_apply _ rfl rfl rfl rfl rfl rfl _ _ 0 c).trans (Finset.sum_congr rfl fun j _ => ?_)
    refine congrArg (· * w2 (ix2 j c)) ?_
    simp only [maximumf_apply, addf_apply, broadcast_apply]
    refine congrArg₂ max (congrArg₂ (· + ·) ?_ rfl) rfl
    refine (rows_apply _ rfl rfl rfl rfl rfl rfl _ _ 0 j).trans (Finset.sum_congr rfl fun ch _ => ?_)
    refine congrArg (· * w1 (ix2 ch j)) ?_
    refine (shapeCast_a_a1_apply _ _ ch 0).trans ?_
    refine (maxOverFrames_apply _ _ _ _ ch).trans ?_
    unfold k1_pay3
    rw [shapeCast_self]
    rfl

end PerPoint

section PerPoint2
variable (x0 x1 w1 : FVec Ideal S256x16 .f32) (b1 : FVec Ideal S1x16 .f32) (w2 : FVec Ideal S16x256 .f32)
  (b2 : FVec Ideal S1x256 .f32) (u1 : FVec Ideal S16x8 .f32) (c1 : FVec Ideal S1x8 .f32) (u2 : FVec Ideal S8x16 .f32)
  (c2 : FVec Ideal S1x16 .f32)

/-- The [1, 16] row of gate 2's average pool: the scale against the sums, over the channels, scaled. -/
theorem poolAvg2_apply (t : Fin 16) :
    k1_pay5 (F := Ideal) x0 x1 w1 b1 w2 b2 (ix2 0 t)
      = Cert.Gate.poolAvg2 (blockWeights w1 b1 w2 b2 u1 c1 u2 c2) (plane x0) (plane x1) t := by
  unfold k1_pay5 Cert.Gate.poolAvg2
  try dsimp only
  simp only [mulf_apply, broadcast_apply]
  refine congrArg₂ (· * ·) ?_ rfl
  refine (plain_apply _ rfl rfl rfl rfl rfl rfl _ _ 0 t).trans (Finset.sum_congr rfl fun ch _ => ?_)
  refine congrArg₂ (· * ·) (scale_apply x0 x1 w1 b1 w2 b2 u1 c1 u2 c2 ch) ?_
  unfold k1_pay2
  rw [shapeCast_self]
  rfl

/-- The [16, 256] array of the maxima, transposed, times the scale broadcast over the frames. -/
theorem scaledMax_apply (t : Fin 16) (ch : Fin 256) :
    k1_pay6 (F := Ideal) x0 x1 w1 b1 w2 b2 (ix2 t ch)
      = plane x1 ch t * Cert.Gate.scale (blockWeights w1 b1 w2 b2 u1 c1 u2 c2) (plane x0) (plane x1) ch := by
  unfold k1_pay6
  try dsimp only
  simp only [mulf_apply]
  refine congrArg₂ (· * ·) ?_ ?_
  · refine (transpose_ix2_apply _ _ t ch).trans ?_
    unfold k1_pay3
    rw [shapeCast_self]
    rfl
  · exact (broadcastTo_1b_ab_apply _ _ t ch).trans (scale_apply x0 x1 w1 b1 w2 b2 u1 c1 u2 c2 ch)

/-- Gate 2 from its two pools: for any row `v31` that is the average pool and any array `v34` that is the scaled
    maxima, the stored [1, 1, 16] block is the temporal gate. -/
theorem gate2_apply (v31 : FVec Ideal S1x16 .f32) (v34 : FVec Ideal S16x256 .f32)
    (h31 : ∀ t, v31 (ix2 0 t) = Cert.Gate.poolAvg2 (blockWeights w1 b1 w2 b2 u1 c1 u2 c2) (plane x0) (plane x1) t)
    (h34 : ∀ t ch, v34 (ix2 t ch)
      = plane x1 ch t * Cert.Gate.scale (blockWeights w1 b1 w2 b2 u1 c1 u2 c2) (plane x0) (plane x1) ch)
    (a b : Fin 1) (t : Fin 16) :
    k1_pay1 (F := Ideal) v31 v34 u1 c1 u2 c2 (ix3 a b t)
      = Cert.Gate.gateK (blockWeights w1 b1 w2 b2 u1 c1 u2 c2) (plane x0) (plane x1) t := by
  obtain rfl : b = 0 := Subsingleton.elim _ _
  unfold k1_pay1 Cert.Gate.gateK Cert.Gate.pre2
  try dsimp only
  refine (shapeCast_ab_1ab_apply _ _ a 0 t).trans ?_
  simp only [logistic_apply, addf_apply, mulf_apply, broadcast_apply]
  refine congrArg Ideal.logistic (congrArg₂ (· + ·) (congrArg₂ (· + ·) ?_ ?_) ?_)
  · -- the average path
    refine (plain_apply _ rfl rfl rfl rfl rfl rfl _ _ 0 t).trans (Finset.sum_congr rfl fun j _ => ?_)
    refine congrArg₂ (· * ·) ?_ (by rw [shapeCast_self]; rfl)
    simp only [maximumf_apply, addf_apply, broadcast_apply]
    refine congrArg₂ max (congrArg₂ (· + ·) ?_ (by rw [shapeCast_self]; rfl)) rfl
    refine (plain_apply _ rfl rfl rfl rfl rfl rfl _ _ 0 j).trans (Finset.sum_congr rfl fun t' _ => ?_)
    exact congrArg₂ (· * ·) (h31 t') (by rw [shapeCast_self]; rfl)
  · -- the maximum path
    refine (plain_apply _ rfl rfl rfl rfl rfl rfl _ _ 0 t).trans (Finset.sum_congr rfl fun j _ => ?_)
    refine congrArg₂ (· * ·) ?_ (by rw [shapeCast_self]; rfl)
    simp only [maximumf_apply, addf_apply, broadcast_apply]
    refine congrArg₂ max (congrArg₂ (· + ·) ?_ (by rw [shapeCast_self]; rfl)) rfl
    refine (plain_apply _ rfl rfl rfl rfl rfl rfl _ _ 0 j).trans (Finset.sum_congr rfl fun t' _ => ?_)
    refine congrArg₂ (· * ·) ?_ (by rw [shapeCast_self]; rfl)
    refine (transpose_ix2_apply _ _ 0 t').trans ?_
    refine (shapeCast_a_a1_apply _ _ t' 0).trans ?_
    refine (maxOverChannels_apply _ _ _ _ t').trans ?_
    exact congrArg (fun f : Fin 256 → EReal => (Finset.univ : Finset (Fin 256)).fold max Cert.Gate.negInf f)
      (funext fun ch => h34 t' ch)
  · exact congrArg₂ (· * ·) rfl (by rw [shapeCast_self]; rfl)

end PerPoint2

/-! ## The stored block -/

theorem zeros2 : (![0, 0] : Fin 2 → Nat) = fun _ => 0 := funext fun a => by fin_cases a <;> rfl
theorem zeros3 : (![0, 0, 0] : Fin 3 → Nat) = fun _ => 0 := funext fun a => by fin_cases a <;> rfl

section PerPoint3
variable (x0 x1 w1 : FVec Ideal S256x16 .f32) (b1 : FVec Ideal S1x16 .f32) (w2 : FVec Ideal S16x256 .f32)
  (b2 : FVec Ideal S1x256 .f32) (u1 : FVec Ideal S16x8 .f32) (c1 : FVec Ideal S1x8 .f32) (u2 : FVec Ideal S8x16 .f32)
  (c2 : FVec Ideal S1x16 .f32)

/-- What the body leaves in the [1, 1, 16] output buffer, from the ten input blocks: the temporal gate of the batch
    whose sums and maxima the first two blocks hold. -/
theorem block_apply (Y : S1x1x16.Idx) :
    out1_10 (F := Ideal) x0 x1 w1 b1 w2 b2 u1 c1 u2 c2 Y
      = Cert.Gate.gateK (blockWeights w1 b1 w2 b2 u1 c1 u2 c2) (plane x0) (plane x1) (Y 2) := by
  obtain ⟨a, b, t, rfl⟩ : ∃ (a b : Fin 1) (t : Fin 16), Y = ix3 a b t := ⟨Y 0, Y 1, Y 2, eq_ix3 Y⟩
  unfold out1_10
  rw [View.canon_unit_zero zeros3]
  simp only [View.ld_unit_zero (S := S256x16) zeros2, View.ld_unit_zero (S := S1x16) zeros2,
    View.ld_unit_zero (S := S16x256) zeros2, View.ld_unit_zero (S := S1x256) zeros2,
    View.ld_unit_zero (S := S16x8) zeros2, View.ld_unit_zero (S := S1x8) zeros2, View.ld_unit_zero (S := S8x16) zeros2]
  exact gate2_apply x0 x1 w1 b1 w2 b2 u1 c1 u2 c2 _ _ (poolAvg2_apply x0 x1 w1 b1 w2 b2 u1 c1 u2 c2)
    (scaledMax_apply x0 x1 w1 b1 w2 b2 u1 c1 u2 c2) a b t

end PerPoint3

theorem blockWeights_congr {w1 w1' : FVec Ideal S256x16 .f32} {b1 b1' : FVec Ideal S1x16 .f32} {w2 w2' : FVec Ideal S16x256 .f32}
    {b2 b2' : FVec Ideal S1x256 .f32} {u1 u1' : FVec Ideal S16x8 .f32} {c1 c1' : FVec Ideal S1x8 .f32}
    {u2 u2' : FVec Ideal S8x16 .f32} {c2 c2' : FVec Ideal S1x16 .f32} (h1 : w1 = w1') (h2 : b1 = b1') (h3 : w2 = w2')
    (h4 : b2 = b2') (h5 : u1 = u1') (h6 : c1 = c1') (h7 : u2 = u2') (h8 : c2 = c2') :
    blockWeights w1 b1 w2 b2 u1 c1 u2 c2 = blockWeights w1' b1' w2' b2' u1' c1' u2' c2' := by
  subst h1 h2 h3 h4 h5 h6 h7 h8; rfl

theorem gateK_congr {P P' : Cert.Gate.Weights} {S S' M M' : Fin 256 → Fin 16 → EReal} {t t' : Fin 16}
    (hP : P = P') (hS : S = S') (hM : M = M') (ht : t = t') :
    Cert.Gate.gateK P S M t = Cert.Gate.gateK P' S' M' t' := by
  subst hP hS hM ht; rfl

/-! ## From the blocks to the array -/

/-- The printed index maps over the eight grid points: the two row windows and the output follow the point, -/
theorem idx_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_10.index t (0 : Fin 3) = t.val ∧ win1_10.index t (1 : Fin 3) = 0 ∧ win1_10.index t (2 : Fin 3) = 0 :=
  (by decide +kernel : ∀ t : Fin grid1.N, _)

/-- and the eight weight windows stay at block (0, 0). -/
theorem idx_whole : ∀ t : Fin cfg1.N, (∀ a, win1_2.index t a = 0) ∧ (∀ a, win1_3.index t a = 0) ∧ (∀ a, win1_4.index t a = 0)
    ∧ (∀ a, win1_5.index t a = 0) ∧ (∀ a, win1_6.index t a = 0) ∧ (∀ a, win1_7.index t a = 0) ∧ (∀ a, win1_8.index t a = 0)
    ∧ (∀ a, win1_9.index t a = 0) :=
  (by decide +kernel : ∀ t : Fin grid1.N, _)

/-- An array read through an index map that keeps every coordinate is the array. -/
theorem read_of_emb_id {S : Shape} (f : S.Idx → EReal) (e : S.Idx → S.Idx) (h : ∀ x a, (e x a).val = (x a).val) :
    (fun x => f (e x)) = f :=
  funext fun x => congrArg f (funext fun a => Fin.ext (h x a))

/-- The weights the blocks carry are the arrays': a weight window's block at block index (0, 0) is its whole array
    (an element of the block sits in the array at block index × block size + its own coordinate). -/
theorem weights_eq (c : Dev nD) (t : Fin cfg1.N) :
    blockWeights (iblk1 (F := Ideal) V c 2 t) (iblk1 (F := Ideal) V c 3 t) (iblk1 (F := Ideal) V c 4 t) (iblk1 (F := Ideal) V c 5 t)
      (iblk1 (F := Ideal) V c 6 t) (iblk1 (F := Ideal) V c 7 t) (iblk1 (F := Ideal) V c 8 t) (iblk1 (F := Ideal) V c 9 t) = weightsAt V c := by
  obtain ⟨h2, h3, h4, h5, h6, h7, h8, h9⟩ := idx_whole t
  exact blockWeights_congr
    (read_of_emb_id (V c main_arg1 : S256x16.Idx → EReal) ((cfg1.win 2).blk t).view.emb
      fun x a => win1_2.rect_emb_val_of_index_zero t a (h2 a) x)
    (read_of_emb_id (V c main_arg2 : S1x16.Idx → EReal) ((cfg1.win 3).blk t).view.emb
      fun x a => win1_3.rect_emb_val_of_index_zero t a (h3 a) x)
    (read_of_emb_id (V c main_arg3 : S16x256.Idx → EReal) ((cfg1.win 4).blk t).view.emb
      fun x a => win1_4.rect_emb_val_of_index_zero t a (h4 a) x)
    (read_of_emb_id (V c main_arg4 : S1x256.Idx → EReal) ((cfg1.win 5).blk t).view.emb
      fun x a => win1_5.rect_emb_val_of_index_zero t a (h5 a) x)
    (read_of_emb_id (V c main_v6 : S16x8.Idx → EReal) ((cfg1.win 6).blk t).view.emb
      fun x a => win1_6.rect_emb_val_of_index_zero t a (h6 a) x)
    (read_of_emb_id (V c main_v7 : S1x8.Idx → EReal) ((cfg1.win 7).blk t).view.emb
      fun x a => win1_7.rect_emb_val_of_index_zero t a (h7 a) x)
    (read_of_emb_id (V c main_v8 : S8x16.Idx → EReal) ((cfg1.win 8).blk t).view.emb
      fun x a => win1_8.rect_emb_val_of_index_zero t a (h8 a) x)
    (read_of_emb_id (V c main_v9 : S1x16.Idx → EReal) ((cfg1.win 9).blk t).view.emb
      fun x a => win1_9.rect_emb_val_of_index_zero t a (h9 a) x)
/-- Block t of the sums: rows 256 t … 256 t + 255. -/
theorem rows0 (c : Dev nD) (t : Fin cfg1.N) (b : Fin 8) (hb : b.val = t.val) :
    plane (iblk1 (F := Ideal) V c 0 t) = fun ch fr => (V c main_v2 : S2048x16.Idx → EReal) (ix2 (brow b ch) fr) := by
  obtain ⟨e0, e1, -⟩ := idx_rows t
  funext ch fr
  show (V c main_v2 : S2048x16.Idx → EReal) (((cfg1.win 0).blk t).view.emb (ix2 ch fr)) = _
  congr 1
  funext a
  apply Fin.ext
  match a with
  | ⟨0, _⟩ => show win1_0.index t (0 : Fin 2) * 256 + 1 * ch.val = b.val * 256 + ch.val; rw [e0, hb]; omega
  | ⟨1, _⟩ => show win1_0.index t (1 : Fin 2) * 16 + 1 * fr.val = fr.val; rw [e1]; omega

/-- Block t of the maxima likewise. -/
theorem rows1 (c : Dev nD) (t : Fin cfg1.N) (b : Fin 8) (hb : b.val = t.val) :
    plane (iblk1 (F := Ideal) V c 1 t) = fun ch fr => (V c main_v3 : S2048x16.Idx → EReal) (ix2 (brow b ch) fr) := by
  obtain ⟨-, -, e0, e1, -⟩ := idx_rows t
  funext ch fr
  show (V c main_v3 : S2048x16.Idx → EReal) (((cfg1.win 1).blk t).view.emb (ix2 ch fr)) = _
  congr 1
  funext a
  apply Fin.ext
  match a with
  | ⟨0, _⟩ => show win1_1.index t (0 : Fin 2) * 256 + 1 * ch.val = b.val * 256 + ch.val; rw [e0, hb]; omega
  | ⟨1, _⟩ => show win1_1.index t (1 : Fin 2) * 16 + 1 * fr.val = fr.val; rw [e1]; omega

/-- The array the region leaves: entry (b, 0, t) is batch b's gate at frame t. -/
abbrev gateArr (c : Dev nD) : S8x1x16.Idx → EReal := fun i =>
  Cert.Gate.gateK (weightsAt V c)
    (fun ch t => (V c main_v2 : S2048x16.Idx → EReal) (ix2 (brow (i 0) ch) t))
    (fun ch t => (V c main_v3 : S2048x16.Idx → EReal) (ix2 (brow (i 0) ch) t)) (i 2)

/-- What point t writes back is block t of that array. -/
theorem flushed_gate (c : Dev nD) (t : Fin cfg1.N) :
    (dat1 (F := Ideal) V c).flushed 10 t = ((cfg1.win 10).blk t).view.read (Elt Ideal) (gateArr V c) := by
  show (cfg1.win 10).cut (grid1.coords t) ((dat1 (F := Ideal) V c).after 10 t) = _
  rw [after1_10]
  obtain ⟨-, -, -, -, e0, e1, e2⟩ := idx_rows t
  funext y
  refine (block_apply (iblk1 (F := Ideal) V c 0 t) (iblk1 (F := Ideal) V c 1 t) (iblk1 (F := Ideal) V c 2 t)
    (iblk1 (F := Ideal) V c 3 t) (iblk1 (F := Ideal) V c 4 t) (iblk1 (F := Ideal) V c 5 t) (iblk1 (F := Ideal) V c 6 t)
    (iblk1 (F := Ideal) V c 7 t) (iblk1 (F := Ideal) V c 8 t) (iblk1 (F := Ideal) V c 9 t) _).trans ?_
  show _ = gateArr V c (((cfg1.win 10).blk t).view.emb y)
  have hb : ((((cfg1.win 10).blk t).view.emb y) 0 : Fin 8).val = t.val := by
    show win1_10.index t (0 : Fin 3) * 1 + 1 * (y 0).val = t.val
    have hy : (y 0).val < 1 := (y 0).isLt
    rw [e0]; omega
  refine gateK_congr (weights_eq V c t) (rows0 V c t _ hb) (rows1 V c t _ hb) (Fin.ext ?_)
  show (y 2).val = win1_10.index t (2 : Fin 3) * 16 + 1 * (y 2).val
  rw [e2]; omega

/-- An entry of the array is in point t's block iff each coordinate is in the block's range. -/
theorem mem_blk10 (t : Fin cfg1.N) (i : S8x1x16.Idx) :
    i ∈ ((cfg1.win 10).blk t).view.set ↔ ∀ a : Fin 3, win1_10.index t a * S1x1x16.size a ≤ (i a).val
      ∧ (i a).val < win1_10.index t a * S1x1x16.size a + S1x1x16.size a := by
  show i ∈ ((View.whole main_v10).slice (win1_10.rect t)).set ↔ _
  rw [View.set_slice_whole, Rect.mem_set_unit]
  exact Iff.rfl

/-- Entry (b, 0, t) lies in point b's block: the eight blocks tile the array. -/
theorem covered (i : S8x1x16.Idx) :
    ∃ t : Fin cfg1.N, (cfg1.win 10).flush t = true ∧ i ∈ ((cfg1.win 10).blk t).view.set := by
  have h0 : (i 0).val < 8 := (i 0).isLt
  have h1 : (i 1).val < 1 := (i 1).isLt
  have h2 : (i 2).val < 16 := (i 2).isLt
  obtain ⟨t, htv⟩ : ∃ t : Fin cfg1.N, t.val = (i 0).val := ⟨⟨(i 0).val, by rw [show cfg1.N = 8 from N_1]; exact h0⟩, rfl⟩
  obtain ⟨-, -, -, -, e0, e1, e2⟩ := idx_rows t
  refine ⟨t, flush1_10 t, ?_⟩
  rw [mem_blk10]
  intro a
  match a with
  | ⟨0, _⟩ =>
    show win1_10.index t (0 : Fin 3) * 1 ≤ (i 0).val ∧ (i 0).val < win1_10.index t (0 : Fin 3) * 1 + 1
    rw [e0]; omega
  | ⟨1, _⟩ =>
    show win1_10.index t (1 : Fin 3) * 1 ≤ (i 1).val ∧ (i 1).val < win1_10.index t (1 : Fin 3) * 1 + 1
    rw [e1]; omega
  | ⟨2, _⟩ =>
    show win1_10.index t (2 : Fin 3) * 16 ≤ (i 2).val ∧ (i 2).val < win1_10.index t (2 : Fin 3) * 16 + 16
    rw [e2]; omega

/-- After the region the output array holds, at (b, 0, t), batch b's temporal gate at frame t. -/
theorem arr_gate (c : Dev nD) :
    (dat1 (F := Ideal) V c).arrAt 10 cfg1.N
      = fun i : S8x1x16.Idx => Cert.Gate.gateK (weightsAt V c)
          (fun ch t => (V c main_v2 : S2048x16.Idx → EReal) (ix2 (brow (i 0) ch) t))
          (fun ch t => (V c main_v3 : S2048x16.Idx → EReal) (ix2 (brow (i 0) ch) t)) (i 2) :=
  (dat1 (F := Ideal) V c).arrAt_eq_of_cover 10 (gateArr V c) (fun t _ => flushed_gate V c t) covered

end Cert.KernelIdeal.GateRegion

end
-- ==== Proof.KValue.lean ====
/-
  The kernel's program end to end, as a value: the result array at the last boundary of the fold through @main, read back
  to the launch memory. The final reshape [8, 1, 16] → [8, 16] moves nothing; the gate region's output is batch by batch
  the temporal gate of the two [2048, 16] arrays, which are the first region's [32768, 1] columns of row sums and row
  maxima reshaped (row (b·256 + c)·16 + t becomes entry (b·256 + c, t)), of the input reshaped to 32768 × 784; the gate-2
  weights reach the region through the host's transposes. So the result is `Gate.result` of the flattened input and the
  eight weight arrays.
-/
import proofs.«158407_g2000003629944382_pallasbulk_706_9_alg».proof.Proof.Gen.KernelIdeal.Frame
import proofs.«158407_g2000003629944382_pallasbulk_706_9_alg».proof.Proof.Spec
import proofs.«158407_g2000003629944382_pallasbulk_706_9_alg».proof.Proof.KRegion0
import proofs.«158407_g2000003629944382_pallasbulk_706_9_alg».proof.Proof.KRegion1
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.StableHlo (after_cons after_nil)

variable (m : (ℓ : Loc nD τ sig) → Buf (Elt Ideal) ℓ) (ρ : Dev nD → PrngReg)

/-! ## The boundaries of the fold, buffer by buffer -/

/-- The first region is entered with the input viewed as 32768 rows of 784 entries. -/
theorem entry0_x (c : Dev nD) :
    (V1 (F := Ideal) m ρ c main_v0 : S32768x784.Idx → EReal) = Cert.Gate.flat (m ((c : Thread nD τ).loc main_arg0)) := by
  show StableHlo.after hostOps0 (W0 m ρ c) (Proc.devRef .tc main_v0) = _
  after_results
  rfl

/-- At the first region's exit its first output array holds every row's sum of the flattened input. -/
theorem exit0_sums (c : Dev nD) :
    (W2 (F := Ideal) m ρ c (Proc.devRef .tc main_v1_0) : S32768x1.Idx → EReal)
      = fun i : S32768x1.Idx => Cert.Gate.rowSum (Cert.Gate.flat (m ((c : Thread nD τ).loc main_arg0))) (i 0) :=
  (W2_arr m ρ c 1).trans ((Cert.KernelIdeal.Pools.arr_sums (V1 m ρ) c).trans (by rw [entry0_x]))

/-- At the first region's exit its second output array holds every row's maximum of the flattened input. -/
theorem exit0_maxes (c : Dev nD) :
    (W2 (F := Ideal) m ρ c (Proc.devRef .tc main_v1_1) : S32768x1.Idx → EReal)
      = fun i : S32768x1.Idx => Cert.Gate.rowMax (Cert.Gate.flat (m ((c : Thread nD τ).loc main_arg0))) (i 0) :=
  (W2_arr m ρ c 2).trans ((Cert.KernelIdeal.Pools.arr_maxes (V1 m ρ) c).trans (by rw [entry0_x]))

/-- The gate region finds the row sums as a [2048, 16] array: entry (r, t) is row 16 r + t's sum. -/
theorem entry1_sums (c : Dev nD) (r : Fin 2048) (t : Fin 16) :
    (V3 (F := Ideal) m ρ c main_v2 : S2048x16.Idx → EReal) (ix2 r t)
      = Cert.Gate.rowSum (Cert.Gate.flat (m ((c : Thread nD τ).loc main_arg0))) ⟨r.val * 16 + t.val, by have := r.isLt; have := t.isLt; omega⟩ := by
  have e : (V3 (F := Ideal) m ρ c main_v2 : S2048x16.Idx → EReal)
      = shapeCast S2048x16 (W2 m ρ c (Proc.devRef .tc main_v1_0) : S32768x1.Idx → EReal) (by decide) := by
    show StableHlo.after hostOps1 (W2 m ρ c) (Proc.devRef .tc main_v2) = _
    after_results
    rfl
  rw [e, exit0_sums]
  refine (shapeCast_apply _ _ (ix2 r t) (ix2 ⟨r.val * 16 + t.val, by have := r.isLt; have := t.isLt; omega⟩ 0) ?_).trans rfl
  rw [Shape.rowMajor_val_two, Shape.rowMajor_val_two]
  show (r.val * 16 + t.val) * 1 + 0 = r.val * 16 + t.val
  omega

/-- The same for the row maxima. -/
theorem entry1_maxes (c : Dev nD) (r : Fin 2048) (t : Fin 16) :
    (V3 (F := Ideal) m ρ c main_v3 : S2048x16.Idx → EReal) (ix2 r t)
      = Cert.Gate.rowMax (Cert.Gate.flat (m ((c : Thread nD τ).loc main_arg0))) ⟨r.val * 16 + t.val, by have := r.isLt; have := t.isLt; omega⟩ := by
  have e : (V3 (F := Ideal) m ρ c main_v3 : S2048x16.Idx → EReal)
      = shapeCast S2048x16 (W2 m ρ c (Proc.devRef .tc main_v1_1) : S32768x1.Idx → EReal) (by decide) := by
    show StableHlo.after hostOps1 (W2 m ρ c) (Proc.devRef .tc main_v3) = _
    after_results
    rfl
  rw [e, exit0_maxes]
  refine (shapeCast_apply _ _ (ix2 r t) (ix2 ⟨r.val * 16 + t.val, by have := r.isLt; have := t.isLt; omega⟩ 0) ?_).trans rfl
  rw [Shape.rowMajor_val_two, Shape.rowMajor_val_two]
  show (r.val * 16 + t.val) * 1 + 0 = r.val * 16 + t.val
  omega

/-- The weight array `main_arg1` reaches the gate region as launched: no host operation and no region writes it. -/
theorem entry1_arg1 (c : Dev nD) : V3 (F := Ideal) m ρ c main_arg1 = (m ((c : Thread nD τ).loc main_arg1)) := by
  show StableHlo.after hostOps1 (W2 m ρ c) (Proc.devRef .tc main_arg1) = _
  after_results
  refine (W2_of_ne m ρ c main_arg1 (by decide)).trans ?_
  show StableHlo.after hostOps0 (W0 m ρ c) (Proc.devRef .tc main_arg1) = _
  after_results

/-- The weight array `main_arg2` reaches the gate region as launched: no host operation and no region writes it. -/
theorem entry1_arg2 (c : Dev nD) : V3 (F := Ideal) m ρ c main_arg2 = (m ((c : Thread nD τ).loc main_arg2)) := by
  show StableHlo.after hostOps1 (W2 m ρ c) (Proc.devRef .tc main_arg2) = _
  after_results
  refine (W2_of_ne m ρ c main_arg2 (by decide)).trans ?_
  show StableHlo.after hostOps0 (W0 m ρ c) (Proc.devRef .tc main_arg2) = _
  after_results

/-- The weight array `main_arg3` reaches the gate region as launched: no host operation and no region writes it. -/
theorem entry1_arg3 (c : Dev nD) : V3 (F := Ideal) m ρ c main_arg3 = (m ((c : Thread nD τ).loc main_arg3)) := by
  show StableHlo.after hostOps1 (W2 m ρ c) (Proc.devRef .tc main_arg3) = _
  after_results
  refine (W2_of_ne m ρ c main_arg3 (by decide)).trans ?_
  show StableHlo.after hostOps0 (W0 m ρ c) (Proc.devRef .tc main_arg3) = _
  after_results

/-- The weight array `main_arg4` reaches the gate region as launched: no host operation and no region writes it. -/
theorem entry1_arg4 (c : Dev nD) : V3 (F := Ideal) m ρ c main_arg4 = (m ((c : Thread nD τ).loc main_arg4)) := by
  show StableHlo.after hostOps1 (W2 m ρ c) (Proc.devRef .tc main_arg4) = _
  after_results
  refine (W2_of_ne m ρ c main_arg4 (by decide)).trans ?_
  show StableHlo.after hostOps0 (W0 m ρ c) (Proc.devRef .tc main_arg4) = _
  after_results

/-- The first weights of gate 2 reach the gate region transposed back by the host: entry (p, q) is the launched array's (q, p). -/
theorem entry1_v6 (c : Dev nD) (p : Fin 16) (q : Fin 8) :
    (V3 (F := Ideal) m ρ c main_v6 : S16x8.Idx → EReal) (ix2 p q) = ((m ((c : Thread nD τ).loc main_arg5)) : S8x16.Idx → EReal) (ix2 q p) := by
  have e : (V3 (F := Ideal) m ρ c main_v6 : S16x8.Idx → EReal)
      = transpose S16x8 [1, 0] (W2 m ρ c (Proc.devRef .tc main_arg5) : S8x16.Idx → EReal) (by decide) := by
    show StableHlo.after hostOps1 (W2 m ρ c) (Proc.devRef .tc main_v6) = _
    after_results
  have e' : (W2 (F := Ideal) m ρ c (Proc.devRef .tc main_arg5) : S8x16.Idx → EReal) = (m ((c : Thread nD τ).loc main_arg5)) := by
    refine (W2_of_ne m ρ c main_arg5 (by decide)).trans ?_
    show StableHlo.after hostOps0 (W0 m ρ c) (Proc.devRef .tc main_arg5) = _
    after_results
  rw [e, e']
  exact transpose_ix2_apply _ _ p q

/-- The first bias of gate 2 reach the gate region transposed back by the host: entry (p, q) is the launched array's (q, p). -/
theorem entry1_v7 (c : Dev nD) (p : Fin 1) (q : Fin 8) :
    (V3 (F := Ideal) m ρ c main_v7 : S1x8.Idx → EReal) (ix2 p q) = ((m ((c : Thread nD τ).loc main_arg6)) : S8x1.Idx → EReal) (ix2 q p) := by
  have e : (V3 (F := Ideal) m ρ c main_v7 : S1x8.Idx → EReal)
      = transpose S1x8 [1, 0] (W2 m ρ c (Proc.devRef .tc main_arg6) : S8x1.Idx → EReal) (by decide) := by
    show StableHlo.after hostOps1 (W2 m ρ c) (Proc.devRef .tc main_v7) = _
    after_results
  have e' : (W2 (F := Ideal) m ρ c (Proc.devRef .tc main_arg6) : S8x1.Idx → EReal) = (m ((c : Thread nD τ).loc main_arg6)) := by
    refine (W2_of_ne m ρ c main_arg6 (by decide)).trans ?_
    show StableHlo.after hostOps0 (W0 m ρ c) (Proc.devRef .tc main_arg6) = _
    after_results
  rw [e, e']
  exact transpose_ix2_apply _ _ p q

/-- The second weights of gate 2 reach the gate region transposed back by the host: entry (p, q) is the launched array's (q, p). -/
theorem entry1_v8 (c : Dev nD) (p : Fin 8) (q : Fin 16) :
    (V3 (F := Ideal) m ρ c main_v8 : S8x16.Idx → EReal) (ix2 p q) = ((m ((c : Thread nD τ).loc main_arg7)) : S16x8.Idx → EReal) (ix2 q p) := by
  have e : (V3 (F := Ideal) m ρ c main_v8 : S8x16.Idx → EReal)
      = transpose S8x16 [1, 0] (W2 m ρ c (Proc.devRef .tc main_arg7) : S16x8.Idx → EReal) (by decide) := by
    show StableHlo.after hostOps1 (W2 m ρ c) (Proc.devRef .tc main_v8) = _
    after_results
  have e' : (W2 (F := Ideal) m ρ c (Proc.devRef .tc main_arg7) : S16x8.Idx → EReal) = (m ((c : Thread nD τ).loc main_arg7)) := by
    refine (W2_of_ne m ρ c main_arg7 (by decide)).trans ?_
    show StableHlo.after hostOps0 (W0 m ρ c) (Proc.devRef .tc main_arg7) = _
    after_results
  rw [e, e']
  exact transpose_ix2_apply _ _ p q

/-- The second bias of gate 2 reach the gate region transposed back by the host: entry (p, q) is the launched array's (q, p). -/
theorem entry1_v9 (c : Dev nD) (p : Fin 1) (q : Fin 16) :
    (V3 (F := Ideal) m ρ c main_v9 : S1x16.Idx → EReal) (ix2 p q) = ((m ((c : Thread nD τ).loc main_arg8)) : S16x1.Idx → EReal) (ix2 q p) := by
  have e : (V3 (F := Ideal) m ρ c main_v9 : S1x16.Idx → EReal)
      = transpose S1x16 [1, 0] (W2 m ρ c (Proc.devRef .tc main_arg8) : S16x1.Idx → EReal) (by decide) := by
    show StableHlo.after hostOps1 (W2 m ρ c) (Proc.devRef .tc main_v9) = _
    after_results
  have e' : (W2 (F := Ideal) m ρ c (Proc.devRef .tc main_arg8) : S16x1.Idx → EReal) = (m ((c : Thread nD τ).loc main_arg8)) := by
    refine (W2_of_ne m ρ c main_arg8 (by decide)).trans ?_
    show StableHlo.after hostOps0 (W0 m ρ c) (Proc.devRef .tc main_arg8) = _
    after_results
  rw [e, e']
  exact transpose_ix2_apply _ _ p q

/-- The result array at the last boundary is the gates' value of the argument arrays as launched. -/
theorem result_eq (c : Dev nD) :
    (W5 (F := Ideal) m ρ c (Proc.devRef .tc main_v11) : S8x16.Idx → EReal)
      = Cert.Gate.result (Cert.Gate.flat (m ((c : Thread nD τ).loc main_arg0)))
          (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e5 : (W5 (F := Ideal) m ρ c (Proc.devRef .tc main_v11) : S8x16.Idx → EReal)
      = shapeCast S8x16 (W4 m ρ c (Proc.devRef .tc main_v10) : S8x1x16.Idx → EReal) (by decide) := by
    show StableHlo.after hostOps2 (W4 m ρ c) (Proc.devRef .tc main_v11) = _
    after_results
    rfl
  have e4 : (W4 (F := Ideal) m ρ c (Proc.devRef .tc main_v10) : S8x1x16.Idx → EReal) = _ :=
    (W4_arr m ρ c 10).trans (Cert.KernelIdeal.GateRegion.arr_gate (V3 m ρ) c)
  -- the weights the region finds are the launched arrays', gate 2's transposed back
  have hP : Cert.KernelIdeal.GateRegion.weightsAt (V3 (F := Ideal) m ρ) c
      = Cert.Gate.weights (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
    unfold Cert.KernelIdeal.GateRegion.weightsAt Cert.Gate.weights
    rw [Cert.Gate.Weights.mk.injEq]
    refine ⟨?_, ?_, ?_, ?_, ?_, ?_, ?_, ?_⟩
    · funext ch j; exact congrFun (entry1_arg1 m ρ c) (ix2 ch j)
    · funext j; exact congrFun (entry1_arg2 m ρ c) (ix2 0 j)
    · funext j ch; exact congrFun (entry1_arg3 m ρ c) (ix2 j ch)
    · funext ch; exact congrFun (entry1_arg4 m ρ c) (ix2 0 ch)
    · funext t j; exact entry1_v6 m ρ c t j
    · funext j; exact entry1_v7 m ρ c 0 j
    · funext j t; exact entry1_v8 m ρ c j t
    · funext t; exact entry1_v9 m ρ c 0 t
  rw [e5, e4]
  funext i
  obtain ⟨b, t, rfl⟩ : ∃ (b : Fin 8) (t : Fin 16), i = ix2 b t := ⟨i 0, i 1, eq_ix2 i⟩
  refine (shapeCast_apply _ _ (ix2 b t) (ix3 b 0 t) ?_).trans ?_
  · rw [Shape.rowMajor_val_two, Shape.rowMajor_val_three]
    show (b.val * 1 + 0) * 16 + t.val = b.val * 16 + t.val
    omega
  -- batch b's slabs of the two [2048, 16] arrays are its plane sums and maxima
  have hS : (fun (ch : Fin 256) (t' : Fin 16) => (V3 (F := Ideal) m ρ c main_v2 : S2048x16.Idx → EReal) (ix2 (Cert.KernelIdeal.GateRegion.brow b ch) t'))
      = Cert.Gate.sums (Cert.Gate.flat (m ((c : Thread nD τ).loc main_arg0))) b := by
    funext ch t'
    exact entry1_sums m ρ c (Cert.KernelIdeal.GateRegion.brow b ch) t'
  have hM : (fun (ch : Fin 256) (t' : Fin 16) => (V3 (F := Ideal) m ρ c main_v3 : S2048x16.Idx → EReal) (ix2 (Cert.KernelIdeal.GateRegion.brow b ch) t'))
      = Cert.Gate.maxes (Cert.Gate.flat (m ((c : Thread nD τ).loc main_arg0))) b := by
    funext ch t'
    exact entry1_maxes m ρ c (Cert.KernelIdeal.GateRegion.brow b ch) t'
  show Cert.Gate.gateK (Cert.KernelIdeal.GateRegion.weightsAt (V3 (F := Ideal) m ρ) c)
      (fun (ch : Fin 256) (t' : Fin 16) => (V3 (F := Ideal) m ρ c main_v2 : S2048x16.Idx → EReal) (ix2 (Cert.KernelIdeal.GateRegion.brow b ch) t'))
      (fun (ch : Fin 256) (t' : Fin 16) => (V3 (F := Ideal) m ρ c main_v3 : S2048x16.Idx → EReal) (ix2 (Cert.KernelIdeal.GateRegion.brow b ch) t')) t = _
  rw [hP, hS, hM]
  rfl

end Cert.KernelIdeal.Result

end
-- ==== Proof.RRegion0.lean ====
/-
  The first region of the reference's program, read as values: the same two [32768, 1] arrays of row sums and row
  maxima of the input viewed as 32768 rows of 784 entries, here 512 rows per grid point, each block's column stored
  whole; the sixty-four blocks tile the array.

  The steps. A block's two stored columns at row `p` are the sum and the maximum (folded from -∞) of the block's row
  `p` over its 784 lanes. Row `p` of the block at grid point `t` is row `512·t + p` of the input, and the block of
  either output at `t` is rows `512·t … 512·t + 511` of its array, so what point `t` writes back is block `t` of the
  array of row sums (row maxima). Row `r` lies in the block of point `r / 512`, every point writes back, so the
  blocks cover the arrays, which therefore end holding the row sums and the row maxima.
-/
import proofs.«158407_g2000003629944382_pallasbulk_706_9_alg».proof.Proof.Gen.ReferenceIdeal.Frame
import proofs.«158407_g2000003629944382_pallasbulk_706_9_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Pools

open Cert.ReferenceIdeal Cert.ReferenceIdeal.Gen
open Idealize.ShloMosaic Idealize.ShloMosaic.TcCoe Idealize.ShloMosaic.ValueIdx Idealize.SL.Sem
open Idealize.ShloMosaic.Pipeline (Dat Cfg Window)

/-- The offsets of a whole-buffer access are all zero. -/
theorem zero_offsets : (![0, 0] : Fin 2 → Nat) = fun _ => 0 := funext fun a => by fin_cases a <;> rfl

/-- Row `p` of a [512] vector viewed as a [512, 1] column. -/
theorem column_apply (u : (⟨1, ![512]⟩ : Shape).Idx → EReal) (h : S512.ShapeCasts S512x1) (p : Fin 512) :
    shapeCast S512x1 u h (ix2 p 0) = u (ix1 p) :=
  shapeCast_apply u h _ _ (by
    rw [Shape.rowMajor_val_one, Shape.rowMajor_val_two]
    show p.val = p.val * 1 + 0
    omega)

/-- The index the lane reduction inserts at lane `k` of row `p` is `(p, k)`. -/
theorem lane_index (p : Fin 512) (k : Fin 784) :
    reduces_S512x784_S512.lift (ix1 p) k = ix2 p k :=
  funext fun a => Fin.ext (match a with | ⟨0, _⟩ => rfl | ⟨1, _⟩ => rfl)

/-- The block's first stored column: each row's sum over its 784 lanes. -/
theorem laneSum_apply (v : Vec Ideal S512x784 .f32) (p : Fin 512) :
    k0_pay2 (F := Ideal) v (ix2 p 0) = ∑ k : Fin 784, v (ix2 p k) := by
  unfold k0_pay2 k0_pay1
  refine (column_apply _ _ p).trans ?_
  refine (Ideal.multiReduction_add_single _ _ _ _ _ (ix1 p)).trans ?_
  rw [shapeCast_self]
  exact Finset.sum_congr rfl fun k _ => congrArg v (lane_index p k)

/-- The block's second stored column: each row's maximum over its 784 lanes, folded from -∞. -/
theorem laneMax_apply (v : Vec Ideal S512x784 .f32) (p : Fin 512) :
    k0_pay3 (F := Ideal) v (ix2 p 0)
      = (Finset.univ : Finset (Fin 784)).fold max Cert.Gate.negInf (fun k => v (ix2 p k)) := by
  unfold k0_pay3 k0_pay1
  refine (column_apply _ _ p).trans ?_
  refine (Ideal.multiReduction_maximumf_single _ _ _ _ _ (ix1 p)).trans ?_
  rw [shapeCast_self]
  exact congrArg (fun f => (Finset.univ : Finset (Fin 784)).fold max Cert.Gate.negInf f)
    (funext fun k => congrArg v (lane_index p k))

/-- What the body leaves in the first output's buffer is the column of lane sums. -/
theorem out_sums (x : Vec Ideal S512x784 .f32) : out0_1 (F := Ideal) x = k0_pay2 x := by
  unfold out0_1
  rw [View.canon_unit_zero zero_offsets]
  simp only [View.ld_unit_zero (S := S512x784) zero_offsets]

/-- What the body leaves in the second output's buffer is the column of lane maxima. -/
theorem out_maxes (x : Vec Ideal S512x784 .f32) : out0_2 (F := Ideal) x = k0_pay3 x := by
  unfold out0_2
  rw [View.canon_unit_zero zero_offsets]
  simp only [View.ld_unit_zero (S := S512x784) zero_offsets]

variable (V : (c : Dev nD) → (b : Ref sig .tc) → Buf (Elt Ideal) ((c : Thread nD τ).loc b))

/-- A stored column entry against the whole input: when row `p` of the block is row `n` of the input, the block's
    lane sum at `p` is the input's row sum at `n`. -/
theorem block_rowSum (X : S32768x784.Idx → EReal) (v : Vec Ideal S512x784 .f32) (p : Fin 512) (n : Fin 32768)
    (hv : ∀ k : Fin 784, v (ix2 p k) = X (ix2 n k)) :
    k0_pay2 (F := Ideal) v (ix2 p 0) = Cert.Gate.rowSum X n := by
  rw [laneSum_apply]
  unfold Cert.Gate.rowSum
  exact Finset.sum_congr rfl fun k _ => hv k

/-- Likewise the block's lane maximum at `p` is the input's row maximum at `n`. -/
theorem block_rowMax (X : S32768x784.Idx → EReal) (v : Vec Ideal S512x784 .f32) (p : Fin 512) (n : Fin 32768)
    (hv : ∀ k : Fin 784, v (ix2 p k) = X (ix2 n k)) :
    k0_pay3 (F := Ideal) v (ix2 p 0) = Cert.Gate.rowMax X n := by
  rw [laneMax_apply]
  unfold Cert.Gate.rowMax
  exact congrArg (fun f => (Finset.univ : Finset (Fin 784)).fold max Cert.Gate.negInf f) (funext hv)

/-- The three index maps, decided over the 64 grid points: point `t` takes row block `t` of the input and of both
    outputs, and the only column block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back to the first output is block `t` of the array of row sums. -/
theorem flushed_sums (c : Dev nD) (t : Fin cfg0.N) :
    (dat0 (F := Ideal) V c).flushed 1 t
      = ((cfg0.win 1).blk t).view.read (Elt Ideal)
          (fun i : S32768x1.Idx => Cert.Gate.rowSum (V c main_v0 : S32768x784.Idx → EReal) (i 0)) := by
  show (cfg0.win 1).cut (grid0.coords t) ((dat0 V c).after 1 t) = _
  rw [after0_1, out_sums]
  obtain ⟨e0, e1, e2, e3, -, -⟩ := block_index t
  funext j
  obtain ⟨p, q, rfl⟩ : ∃ (p : Fin 512) (q : Fin 1), j = ix2 p q := ⟨j 0, j 1, eq_ix2 j⟩
  obtain rfl : q = 0 := Subsingleton.elim _ _
  show k0_pay2 (F := Ideal) (iblk0 V c 0 t) (ix2 p 0)
    = Cert.Gate.rowSum (V c main_v0 : S32768x784.Idx → EReal) ((((cfg0.win 1).blk t).view.emb (ix2 p 0)) 0)
  refine block_rowSum (V c main_v0 : S32768x784.Idx → EReal) (iblk0 V c 0 t) p
    ((((cfg0.win 1).blk t).view.emb (ix2 p 0)) 0) fun k => ?_
  show (V c main_v0 : S32768x784.Idx → EReal) (((cfg0.win 0).blk t).view.emb (ix2 p k)) = _
  refine congrArg (V c main_v0 : S32768x784.Idx → EReal) (funext fun a => Fin.ext ?_)
  match a with
  | ⟨0, _⟩ =>
    show win0_0.index t (0 : Fin 2) * 512 + 1 * p.val = win0_1.index t (0 : Fin 2) * 512 + 1 * p.val
    omega
  | ⟨1, _⟩ =>
    show win0_0.index t (1 : Fin 2) * 784 + 1 * k.val = k.val
    omega

/-- What point `t` writes back to the second output is block `t` of the array of row maxima. -/
theorem flushed_maxes (c : Dev nD) (t : Fin cfg0.N) :
    (dat0 (F := Ideal) V c).flushed 2 t
      = ((cfg0.win 2).blk t).view.read (Elt Ideal)
          (fun i : S32768x1.Idx => Cert.Gate.rowMax (V c main_v0 : S32768x784.Idx → EReal) (i 0)) := by
  show (cfg0.win 2).cut (grid0.coords t) ((dat0 V c).after 2 t) = _
  rw [after0_2, out_maxes]
  obtain ⟨e0, e1, -, -, e4, e5⟩ := block_index t
  funext j
  obtain ⟨p, q, rfl⟩ : ∃ (p : Fin 512) (q : Fin 1), j = ix2 p q := ⟨j 0, j 1, eq_ix2 j⟩
  obtain rfl : q = 0 := Subsingleton.elim _ _
  show k0_pay3 (F := Ideal) (iblk0 V c 0 t) (ix2 p 0)
    = Cert.Gate.rowMax (V c main_v0 : S32768x784.Idx → EReal) ((((cfg0.win 2).blk t).view.emb (ix2 p 0)) 0)
  refine block_rowMax (V c main_v0 : S32768x784.Idx → EReal) (iblk0 V c 0 t) p
    ((((cfg0.win 2).blk t).view.emb (ix2 p 0)) 0) fun k => ?_
  show (V c main_v0 : S32768x784.Idx → EReal) (((cfg0.win 0).blk t).view.emb (ix2 p k)) = _
  refine congrArg (V c main_v0 : S32768x784.Idx → EReal) (funext fun a => Fin.ext ?_)
  match a with
  | ⟨0, _⟩ =>
    show win0_0.index t (0 : Fin 2) * 512 + 1 * p.val = win0_2.index t (0 : Fin 2) * 512 + 1 * p.val
    omega
  | ⟨1, _⟩ =>
    show win0_0.index t (1 : Fin 2) * 784 + 1 * k.val = k.val
    omega

/-- An index of the first output is in point `t`'s block iff each coordinate is in the block's range on its axis. -/
theorem mem_block_sums (t : Fin cfg0.N) (i : S32768x1.Idx) :
    i ∈ ((cfg0.win 1).blk t).view.set
      ↔ ∀ a : Fin 2, win0_1.index t a * S512x1.size a ≤ (i a).val
          ∧ (i a).val < win0_1.index t a * S512x1.size a + S512x1.size a := by
  show i ∈ ((View.whole main_v1_0).slice (win0_1.rect t)).set ↔ _
  rw [View.set_slice_whole, Rect.mem_set_unit]
  exact Iff.rfl

/-- The same for the second output. -/
theorem mem_block_maxes (t : Fin cfg0.N) (i : S32768x1.Idx) :
    i ∈ ((cfg0.win 2).blk t).view.set
      ↔ ∀ a : Fin 2, win0_2.index t a * S512x1.size a ≤ (i a).val
          ∧ (i a).val < win0_2.index t a * S512x1.size a + S512x1.size a := by
  show i ∈ ((View.whole main_v1_1).slice (win0_2.rect t)).set ↔ _
  rw [View.set_slice_whole, Rect.mem_set_unit]
  exact Iff.rfl

/-- The grid point whose block holds row `r`: `r / 512`. -/
def pointOf (r : Fin 32768) : Fin cfg0.N :=
  ⟨r.val / 512, by have := r.isLt; rw [show cfg0.N = 64 from N_0]; omega⟩

theorem pointOf_val (r : Fin 32768) : (pointOf r).val = r.val / 512 := rfl

/-- Every row of the first output is in the block of the point `row / 512`, which writes back. -/
theorem covered_sums (i : S32768x1.Idx) :
    ∃ t : Fin cfg0.N, (cfg0.win 1).flush t = true ∧ i ∈ ((cfg0.win 1).blk t).view.set := by
  have h0 : (i 0).val < 32768 := (i 0).isLt
  have h1 : (i 1).val < 1 := (i 1).isLt
  refine ⟨pointOf (i 0), flush0_1 _, ?_⟩
  rw [mem_block_sums]
  obtain ⟨-, -, e2, e3, -, -⟩ := block_index (pointOf (i 0))
  have hv := pointOf_val (i 0)
  intro a
  match a with
  | ⟨0, _⟩ =>
    show win0_1.index (pointOf (i 0)) (0 : Fin 2) * 512 ≤ (i 0).val
      ∧ (i 0).val < win0_1.index (pointOf (i 0)) (0 : Fin 2) * 512 + 512
    omega
  | ⟨1, _⟩ =>
    show win0_1.index (pointOf (i 0)) (1 : Fin 2) * 1 ≤ (i 1).val
      ∧ (i 1).val < win0_1.index (pointOf (i 0)) (1 : Fin 2) * 1 + 1
    omega

/-- The same for the second output. -/
theorem covered_maxes (i : S32768x1.Idx) :
    ∃ t : Fin cfg0.N, (cfg0.win 2).flush t = true ∧ i ∈ ((cfg0.win 2).blk t).view.set := by
  have h0 : (i 0).val < 32768 := (i 0).isLt
  have h1 : (i 1).val < 1 := (i 1).isLt
  refine ⟨pointOf (i 0), flush0_2 _, ?_⟩
  rw [mem_block_maxes]
  obtain ⟨-, -, -, -, e4, e5⟩ := block_index (pointOf (i 0))
  have hv := pointOf_val (i 0)
  intro a
  match a with
  | ⟨0, _⟩ =>
    show win0_2.index (pointOf (i 0)) (0 : Fin 2) * 512 ≤ (i 0).val
      ∧ (i 0).val < win0_2.index (pointOf (i 0)) (0 : Fin 2) * 512 + 512
    omega
  | ⟨1, _⟩ =>
    show win0_2.index (pointOf (i 0)) (1 : Fin 2) * 1 ≤ (i 1).val
      ∧ (i 1).val < win0_2.index (pointOf (i 0)) (1 : Fin 2) * 1 + 1
    omega

/-- After the region the first output array holds every row's sum. -/
theorem arr_sums (c : Dev nD) :
    (dat0 (F := Ideal) V c).arrAt 1 cfg0.N
      = fun i : S32768x1.Idx => Cert.Gate.rowSum (V c main_v0 : S32768x784.Idx → EReal) (i 0) :=
  (dat0 (F := Ideal) V c).arrAt_eq_of_cover 1
    (fun i : S32768x1.Idx => Cert.Gate.rowSum (V c main_v0 : S32768x784.Idx → EReal) (i 0))
    (fun t _ => flushed_sums V c t) covered_sums

/-- After the region the second output array holds every row's maximum. -/
theorem arr_maxes (c : Dev nD) :
    (dat0 (F := Ideal) V c).arrAt 2 cfg0.N
      = fun i : S32768x1.Idx => Cert.Gate.rowMax (V c main_v0 : S32768x784.Idx → EReal) (i 0) :=
  (dat0 (F := Ideal) V c).arrAt_eq_of_cover 2
    (fun i : S32768x1.Idx => Cert.Gate.rowMax (V c main_v0 : S32768x784.Idx → EReal) (i 0))
    (fun t _ => flushed_maxes V c t) covered_maxes

end Cert.ReferenceIdeal.Pools

end
-- ==== Proof.RGatePay.lean ====
/-
  The gate region's arithmetic, one operation group at a time, over arbitrary arrays: what each value the body computes
  is, entry by entry, as sums, maxima and products of the entries of the arrays it is computed from. Nothing here knows
  where the arrays come from; the region's module instantiates these at the staged blocks.
-/
import proofs.«158407_g2000003629944382_pallasbulk_706_9_alg».proof.Proof.Gen.ReferenceIdeal.Skeleton
import proofs.«158407_g2000003629944382_pallasbulk_706_9_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.GatePay

open Cert.ReferenceIdeal Cert.ReferenceIdeal.Gen Cert.Gate
open Idealize.ShloMosaic Idealize.ShloMosaic.ValueIdx Idealize.SL.Sem

/-! ## One batch's slab: the plane sums and maxima pooled over the frames -/

/-- A [1, 256, 16] slab with its unit axis dropped and then transposed reads, at (frame, channel), the slab at
    (0, channel, frame). -/
theorem slabT_apply (v : FVec Ideal S1x256x16 .f32) (h1 : S1x256x16.ShapeCasts S256x16)
    (h2 : S256x16.Transposes [1, 0] S16x256) (t : Fin 16) (ch : Fin 256) :
    transpose S16x256 [1, 0] (shapeCast S256x16 v h1) h2 (ix2 t ch) = v (ix3 0 ch t) :=
  (transpose_ix2_apply _ h2 t ch).trans (shapeCast_1ab_ab_apply v h1 ch t)

/-- A [1, 256, 16] slab with its unit axis dropped reads, at (channel, frame), the slab at (0, channel, frame). -/
theorem slab_apply (v : FVec Ideal S1x256x16 .f32) (h1 : S1x256x16.ShapeCasts S256x16) (ch : Fin 256) (t : Fin 16) :
    shapeCast S256x16 v h1 (ix2 ch t) = v (ix3 0 ch t) :=
  shapeCast_1ab_ab_apply v h1 ch t

/-- The sum down the 16 rows of a [16, 256] array, as a [1, 256] row: at channel `ch` the sum over the rows. -/
theorem colSum_apply (w : FVec Ideal S16x256 .f32) (h : S16x256.Reduces [0] S256) (hφ : FKind.Formats .f32)
    (hacc : (0x00000000#32 : BitVec 32) = FKind.add.neutral .f32 hφ) (hc : S256.ShapeCasts S1x256) (u : Fin 1) (ch : Fin 256) :
    shapeCast S1x256 (multiReduction .add [0] S256 w 0x00000000#32 h hφ hacc) hc (ix2 u ch) = ∑ t : Fin 16, w (ix2 t ch) := by
  refine (shapeCast_a_1a_apply _ hc u ch).trans ?_
  refine (Ideal.multiReduction_add_single w 0x00000000#32 h hφ hacc (ix1 ch)).trans ?_
  show ∑ t : Fin 16, w (h.lift (ix1 ch) t) = _
  refine Finset.sum_congr rfl fun t _ => congrArg w ?_
  funext a; match a with | ⟨0, _⟩ => rfl | ⟨1, _⟩ => rfl

/-- The maximum down the 16 rows of a [16, 256] array, folded from -∞, as a [1, 256] row. -/
theorem colMax_apply (w : FVec Ideal S16x256 .f32) (h : S16x256.Reduces [0] S256) (hφ : FKind.Formats .f32)
    (hacc : (0xFF800000#32 : BitVec 32) = FKind.maximumf.neutral .f32 hφ) (hc : S256.ShapeCasts S1x256) (u : Fin 1) (ch : Fin 256) :
    shapeCast S1x256 (multiReduction .maximumf [0] S256 w 0xFF800000#32 h hφ hacc) hc (ix2 u ch)
      = (Finset.univ : Finset (Fin 16)).fold max negInf (fun t => w (ix2 t ch)) := by
  refine (shapeCast_a_1a_apply _ hc u ch).trans ?_
  refine (Ideal.multiReduction_maximumf_single w 0xFF800000#32 h hφ hacc (ix1 ch)).trans ?_
  have e : (w ∘ h.lift (ix1 ch) : Fin 16 → EReal) = fun t => w (ix2 t ch) :=
    funext fun t => congrArg w (funext fun a => by match a with | ⟨0, _⟩ => rfl | ⟨1, _⟩ => rfl)
  exact congrArg (fun f : Fin 16 → EReal => (Finset.univ : Finset (Fin 16)).fold max negInf f) e

/-- A slab's pooled average row: the sum over the frames, scaled by 1/(T·H·W). (The body spells this eight times, once per
    batch, under eight names; they are one function.) -/
theorem pay1_apply (v : FVec Ideal S1x256x16 .f32) (u : Fin 1) (ch : Fin 256) :
    k1_pay1 (F := Ideal) v (ix2 u ch) = (∑ t : Fin 16, v (ix3 0 ch t)) * invTHW := by
  unfold k1_pay1
  refine congrArg (· * invTHW) ?_
  refine (colSum_apply _ _ _ _ _ u ch).trans ?_
  exact Finset.sum_congr rfl fun t _ => slabT_apply v _ _ t ch
theorem pay2_apply (v : FVec Ideal S1x256x16 .f32) (u : Fin 1) (ch : Fin 256) :
    k1_pay2 (F := Ideal) v (ix2 u ch) = (∑ t : Fin 16, v (ix3 0 ch t)) * invTHW := pay1_apply v u ch
theorem pay3_apply (v : FVec Ideal S1x256x16 .f32) (u : Fin 1) (ch : Fin 256) :
    k1_pay3 (F := Ideal) v (ix2 u ch) = (∑ t : Fin 16, v (ix3 0 ch t)) * invTHW := pay1_apply v u ch
theorem pay4_apply (v : FVec Ideal S1x256x16 .f32) (u : Fin 1) (ch : Fin 256) :
    k1_pay4 (F := Ideal) v (ix2 u ch) = (∑ t : Fin 16, v (ix3 0 ch t)) * invTHW := pay1_apply v u ch
theorem pay5_apply (v : FVec Ideal S1x256x16 .f32) (u : Fin 1) (ch : Fin 256) :
    k1_pay5 (F := Ideal) v (ix2 u ch) = (∑ t : Fin 16, v (ix3 0 ch t)) * invTHW := pay1_apply v u ch
theorem pay6_apply (v : FVec Ideal S1x256x16 .f32) (u : Fin 1) (ch : Fin 256) :
    k1_pay6 (F := Ideal) v (ix2 u ch) = (∑ t : Fin 16, v (ix3 0 ch t)) * invTHW := pay1_apply v u ch
theorem pay7_apply (v : FVec Ideal S1x256x16 .f32) (u : Fin 1) (ch : Fin 256) :
    k1_pay7 (F := Ideal) v (ix2 u ch) = (∑ t : Fin 16, v (ix3 0 ch t)) * invTHW := pay1_apply v u ch
theorem pay8_apply (v : FVec Ideal S1x256x16 .f32) (u : Fin 1) (ch : Fin 256) :
    k1_pay8 (F := Ideal) v (ix2 u ch) = (∑ t : Fin 16, v (ix3 0 ch t)) * invTHW := pay1_apply v u ch

/-- A slab's pooled maximum row: the maximum over the frames, from -∞. -/
theorem slabMax_apply (v : FVec Ideal S1x256x16 .f32) (h1 : S1x256x16.ShapeCasts S256x16)
    (h2 : S256x16.Transposes [1, 0] S16x256) (h : S16x256.Reduces [0] S256) (hφ : FKind.Formats .f32)
    (hacc : (0xFF800000#32 : BitVec 32) = FKind.maximumf.neutral .f32 hφ) (hc : S256.ShapeCasts S1x256) (u : Fin 1) (ch : Fin 256) :
    shapeCast S1x256 (multiReduction .maximumf [0] S256 (transpose S16x256 [1, 0] (shapeCast S256x16 v h1) h2) 0xFF800000#32 h hφ hacc) hc (ix2 u ch)
      = (Finset.univ : Finset (Fin 16)).fold max negInf (fun t => v (ix3 0 ch t)) := by
  refine (colMax_apply _ h hφ hacc hc u ch).trans ?_
  exact congrArg (fun f : Fin 16 → EReal => (Finset.univ : Finset (Fin 16)).fold max negInf f)
    (funext fun t => slabT_apply v h1 h2 t ch)
theorem pay9_apply (v : FVec Ideal S1x256x16 .f32) (u : Fin 1) (ch : Fin 256) :
    k1_pay9 (F := Ideal) v (ix2 u ch) = (Finset.univ : Finset (Fin 16)).fold max negInf (fun t => v (ix3 0 ch t)) := by
  unfold k1_pay9
  exact slabMax_apply v _ _ _ _ _ _ u ch
theorem pay10_apply (v : FVec Ideal S1x256x16 .f32) (u : Fin 1) (ch : Fin 256) :
    k1_pay10 (F := Ideal) v (ix2 u ch) = (Finset.univ : Finset (Fin 16)).fold max negInf (fun t => v (ix3 0 ch t)) := pay9_apply v u ch
/-- Batch 2's maxima slab, transposed only (the reduction is spelt later). -/
theorem pay11_apply (v : FVec Ideal S1x256x16 .f32) (t : Fin 16) (ch : Fin 256) :
    k1_pay11 (F := Ideal) v (ix2 t ch) = v (ix3 0 ch t) := by
  unfold k1_pay11
  exact slabT_apply v _ _ t ch

/-! ## A plain matrix product, a column broadcast, and sixteen rows stacked -/

/-- A plain [m, k] × [k, n] product accumulated into the zero array reads, at (a, b), the sum over the contracted coordinate
    of the entries' products. -/
theorem matmul2_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, a] row transposed to an [a, 1] column reads, at (p, 0), the row at p. -/
theorem transpose_1a_a1_apply {α : Type} {a : ℕ} (v : (⟨2, ![1, a]⟩ : Shape).Idx → α)
    (h : (⟨2, ![1, a]⟩ : Shape).Transposes [1, 0] ⟨2, ![a, 1]⟩) (p : Fin a) (u : Fin 1) :
    transpose ⟨2, ![a, 1]⟩ [1, 0] v h (ix2 p u) = v (ix2 u p) :=
  transpose_ix2_apply v h p u

/-- Sixteen rows listed in order, the first eight named `up` and the last eight `dn`: the `r`-th is row `r` of the
    two-block stack of the specification. -/
theorem rows16_apply {n : Nat} (p0 p1 p2 p3 p4 p5 p6 p7 p8 p9 p10 p11 p12 p13 p14 p15 : (⟨2, ![1, n]⟩ : Shape).Idx → EReal)
    (up dn : Fin 8 → Fin n → EReal)
    (h0 : ∀ c, p0 (ix2 (0 : Fin 1) c) = up 0 c)
    (h1 : ∀ c, p1 (ix2 (0 : Fin 1) c) = up 1 c)
    (h2 : ∀ c, p2 (ix2 (0 : Fin 1) c) = up 2 c)
    (h3 : ∀ c, p3 (ix2 (0 : Fin 1) c) = up 3 c)
    (h4 : ∀ c, p4 (ix2 (0 : Fin 1) c) = up 4 c)
    (h5 : ∀ c, p5 (ix2 (0 : Fin 1) c) = up 5 c)
    (h6 : ∀ c, p6 (ix2 (0 : Fin 1) c) = up 6 c)
    (h7 : ∀ c, p7 (ix2 (0 : Fin 1) c) = up 7 c)
    (h8 : ∀ c, p8 (ix2 (0 : Fin 1) c) = dn 0 c)
    (h9 : ∀ c, p9 (ix2 (0 : Fin 1) c) = dn 1 c)
    (h10 : ∀ c, p10 (ix2 (0 : Fin 1) c) = dn 2 c)
    (h11 : ∀ c, p11 (ix2 (0 : Fin 1) c) = dn 3 c)
    (h12 : ∀ c, p12 (ix2 (0 : Fin 1) c) = dn 4 c)
    (h13 : ∀ c, p13 (ix2 (0 : Fin 1) c) = dn 5 c)
    (h14 : ∀ c, p14 (ix2 (0 : Fin 1) c) = dn 6 c)
    (h15 : ∀ c, p15 (ix2 (0 : Fin 1) c) = dn 7 c)
    (r : Fin 16) (c : Fin n) :
    (![p0, p1, p2, p3, p4, p5, p6, p7, p8, p9, p10, p11, p12, p13, p14, p15] : Fin 16 → ((⟨2, ![1, n]⟩ : Shape).Idx → EReal)) r (ix2 (0 : Fin 1) c) = stack up dn r c := by
  match r with
  | ⟨0, _⟩ => exact h0 c
  | ⟨1, _⟩ => exact h1 c
  | ⟨2, _⟩ => exact h2 c
  | ⟨3, _⟩ => exact h3 c
  | ⟨4, _⟩ => exact h4 c
  | ⟨5, _⟩ => exact h5 c
  | ⟨6, _⟩ => exact h6 c
  | ⟨7, _⟩ => exact h7 c
  | ⟨8, _⟩ => exact h8 c
  | ⟨9, _⟩ => exact h9 c
  | ⟨10, _⟩ => exact h10 c
  | ⟨11, _⟩ => exact h11 c
  | ⟨12, _⟩ => exact h12 c
  | ⟨13, _⟩ => exact h13 c
  | ⟨14, _⟩ => exact h14 c
  | ⟨15, _⟩ => exact h15 c
  | ⟨k + 16, hk⟩ => exact absurd hk (by omega)

/-- Sixteen [1, n] rows stacked along axis 0: row `r` of the stack is the `r`-th piece's one row. -/
theorem stack16_apply {n : Nat} (p0 p1 p2 p3 p4 p5 p6 p7 p8 p9 p10 p11 p12 p13 p14 p15 : (⟨2, ![1, n]⟩ : Shape).Idx → EReal)
    (h : Shape.Concatenates (([⟨⟨2, ![1, n]⟩, p0⟩, ⟨⟨2, ![1, n]⟩, p1⟩, ⟨⟨2, ![1, n]⟩, p2⟩, ⟨⟨2, ![1, n]⟩, p3⟩, ⟨⟨2, ![1, n]⟩, p4⟩, ⟨⟨2, ![1, n]⟩, p5⟩, ⟨⟨2, ![1, n]⟩, p6⟩, ⟨⟨2, ![1, n]⟩, p7⟩, ⟨⟨2, ![1, n]⟩, p8⟩, ⟨⟨2, ![1, n]⟩, p9⟩, ⟨⟨2, ![1, n]⟩, p10⟩, ⟨⟨2, ![1, n]⟩, p11⟩, ⟨⟨2, ![1, n]⟩, p12⟩, ⟨⟨2, ![1, n]⟩, p13⟩, ⟨⟨2, ![1, n]⟩, p14⟩, ⟨⟨2, ![1, n]⟩, p15⟩] : List ((s : Shape) × (s.Idx → EReal))).map (·.1)) ⟨2, ![16, n]⟩ 0)
    (up dn : Fin 8 → Fin n → EReal)
    (h0 : ∀ c, p0 (ix2 (0 : Fin 1) c) = up 0 c)
    (h1 : ∀ c, p1 (ix2 (0 : Fin 1) c) = up 1 c)
    (h2 : ∀ c, p2 (ix2 (0 : Fin 1) c) = up 2 c)
    (h3 : ∀ c, p3 (ix2 (0 : Fin 1) c) = up 3 c)
    (h4 : ∀ c, p4 (ix2 (0 : Fin 1) c) = up 4 c)
    (h5 : ∀ c, p5 (ix2 (0 : Fin 1) c) = up 5 c)
    (h6 : ∀ c, p6 (ix2 (0 : Fin 1) c) = up 6 c)
    (h7 : ∀ c, p7 (ix2 (0 : Fin 1) c) = up 7 c)
    (h8 : ∀ c, p8 (ix2 (0 : Fin 1) c) = dn 0 c)
    (h9 : ∀ c, p9 (ix2 (0 : Fin 1) c) = dn 1 c)
    (h10 : ∀ c, p10 (ix2 (0 : Fin 1) c) = dn 2 c)
    (h11 : ∀ c, p11 (ix2 (0 : Fin 1) c) = dn 3 c)
    (h12 : ∀ c, p12 (ix2 (0 : Fin 1) c) = dn 4 c)
    (h13 : ∀ c, p13 (ix2 (0 : Fin 1) c) = dn 5 c)
    (h14 : ∀ c, p14 (ix2 (0 : Fin 1) c) = dn 6 c)
    (h15 : ∀ c, p15 (ix2 (0 : Fin 1) c) = dn 7 c)
    (r : Fin 16) (c : Fin n) :
    concatenate ⟨2, ![16, n]⟩ 0 [⟨⟨2, ![1, n]⟩, p0⟩, ⟨⟨2, ![1, n]⟩, p1⟩, ⟨⟨2, ![1, n]⟩, p2⟩, ⟨⟨2, ![1, n]⟩, p3⟩, ⟨⟨2, ![1, n]⟩, p4⟩, ⟨⟨2, ![1, n]⟩, p5⟩, ⟨⟨2, ![1, n]⟩, p6⟩, ⟨⟨2, ![1, n]⟩, p7⟩, ⟨⟨2, ![1, n]⟩, p8⟩, ⟨⟨2, ![1, n]⟩, p9⟩, ⟨⟨2, ![1, n]⟩, p10⟩, ⟨⟨2, ![1, n]⟩, p11⟩, ⟨⟨2, ![1, n]⟩, p12⟩, ⟨⟨2, ![1, n]⟩, p13⟩, ⟨⟨2, ![1, n]⟩, p14⟩, ⟨⟨2, ![1, n]⟩, p15⟩] h (ix2 r c) = stack up dn r c :=
  (concatenate_ofFn_unit_apply (t := ⟨2, ![16, n]⟩) (s₁ := ⟨2, ![1, n]⟩) 0
    (![p0, p1, p2, p3, p4, p5, p6, p7, p8, p9, p10, p11, p12, p13, p14, p15] : Fin 16 → ((⟨2, ![1, n]⟩ : Shape).Idx → EReal)) h rfl rfl (ix2 r c) r rfl (ix2 (0 : Fin 1) c)
    (fun b hb => match b with | ⟨0, _⟩ => absurd rfl hb | ⟨1, _⟩ => rfl)).trans
    (rows16_apply p0 p1 p2 p3 p4 p5 p6 p7 p8 p9 p10 p11 p12 p13 p14 p15 up dn h0 h1 h2 h3 h4 h5 h6 h7 h8 h9 h10 h11 h12 h13 h14 h15 r c)

/-! ## Gate 1: the first perceptron on the sixteen pooled rows, and the channel scales -/

/-- The sixteen pooled rows (eight averages over eight maxima, the last six maxima reduced here) through the first layer:
    row `r`, hidden unit `j`, before the relu. -/
theorem pay12_apply (p0 p1 p2 p3 p4 p5 p6 p7 p8 p9 : FVec Ideal S1x256 .f32) (v68 : FVec Ideal S16x256 .f32)
    (v71 v76 v81 v86 v91 : FVec Ideal S1x256x16 .f32) (v97 : FVec Ideal S256x16 .f32) (v99 : FVec Ideal S1x16 .f32)
    (up dn : Fin 8 → Fin 256 → EReal)
    (h0 : ∀ ch, p0 (ix2 (0 : Fin 1) ch) = up 0 ch)
    (h1 : ∀ ch, p1 (ix2 (0 : Fin 1) ch) = up 1 ch)
    (h2 : ∀ ch, p2 (ix2 (0 : Fin 1) ch) = up 2 ch)
    (h3 : ∀ ch, p3 (ix2 (0 : Fin 1) ch) = up 3 ch)
    (h4 : ∀ ch, p4 (ix2 (0 : Fin 1) ch) = up 4 ch)
    (h5 : ∀ ch, p5 (ix2 (0 : Fin 1) ch) = up 5 ch)
    (h6 : ∀ ch, p6 (ix2 (0 : Fin 1) ch) = up 6 ch)
    (h7 : ∀ ch, p7 (ix2 (0 : Fin 1) ch) = up 7 ch)
    (h8 : ∀ ch, p8 (ix2 (0 : Fin 1) ch) = dn 0 ch)
    (h9 : ∀ ch, p9 (ix2 (0 : Fin 1) ch) = dn 1 ch)
    (h10 : ∀ ch, (Finset.univ : Finset (Fin 16)).fold max negInf (fun t => v68 (ix2 t ch)) = dn 2 ch)
    (h11 : ∀ ch, (Finset.univ : Finset (Fin 16)).fold max negInf (fun t => v71 (ix3 0 ch t)) = dn 3 ch)
    (h12 : ∀ ch, (Finset.univ : Finset (Fin 16)).fold max negInf (fun t => v76 (ix3 0 ch t)) = dn 4 ch)
    (h13 : ∀ ch, (Finset.univ : Finset (Fin 16)).fold max negInf (fun t => v81 (ix3 0 ch t)) = dn 5 ch)
    (h14 : ∀ ch, (Finset.univ : Finset (Fin 16)).fold max negInf (fun t => v86 (ix3 0 ch t)) = dn 6 ch)
    (h15 : ∀ ch, (Finset.univ : Finset (Fin 16)).fold max negInf (fun t => v91 (ix3 0 ch t)) = dn 7 ch)
    (r j : Fin 16) :
    k1_pay12 p0 p1 p2 p3 p4 p5 p6 p7 p8 p9 v68 v71 v76 v81 v86 v91 v97 v99 (ix2 r j)
      = (∑ c : Fin 256, stack up dn r c * v97 (ix2 c j)) + v99 (ix2 (0 : Fin 1) j) := by
  unfold k1_pay12
  refine (addf_apply _ _ _).trans ?_
  refine congrArg₂ (· + ·) ?_ (broadcastTo_1b_ab_apply v99 _ r j)
  refine (matmul2_apply _ none _ v97 r j).trans ?_
  refine Finset.sum_congr rfl fun c _ => congrArg (· * v97 (ix2 c j)) ?_
  exact stack16_apply _ _ _ _ _ _ _ _ _ _ _ _ _ _ _ _ _ up dn h0 h1 h2 h3 h4 h5 h6 h7 h8 h9
    (fun ch => (colMax_apply v68 _ _ _ _ 0 ch).trans (h10 ch))
    (fun ch => (slabMax_apply v71 _ _ _ _ _ _ 0 ch).trans (h11 ch))
    (fun ch => (slabMax_apply v76 _ _ _ _ _ _ 0 ch).trans (h12 ch))
    (fun ch => (slabMax_apply v81 _ _ _ _ _ _ 0 ch).trans (h13 ch))
    (fun ch => (slabMax_apply v86 _ _ _ _ _ _ 0 ch).trans (h14 ch))
    (fun ch => (slabMax_apply v91 _ _ _ _ _ _ 0 ch).trans (h15 ch)) r c

/-- One row of the second layer: the relu of the first layer's row through the second weights, plus the bias. -/
theorem layer2_apply {m k n : Nat} (w : DotDims.WF ⟨2, ![m, k]⟩ ⟨2, ![k, n]⟩ ⟨2, ![m, n]⟩ [1] [0] [0] [1] [] [])
    (H : FVec Ideal ⟨2, ![m, k]⟩ .f32) (W : FVec Ideal ⟨2, ![k, n]⟩ .f32) (B : FVec Ideal ⟨2, ![1, n]⟩ .f32)
    (hb : (⟨2, ![1, n]⟩ : Shape).Broadcasts ⟨2, ![m, n]⟩) (r : Fin m) (c : Fin n) :
    addf (matmul (⟨[1], [0], [0], [1], [], [], w⟩ : DotDims _ _ _) none
        (maximumf H (broadcast ⟨2, ![m, k]⟩ (FloatOps.ofBits (F := Ideal) .f32 0x00000000#32))) W
        (constant (F := Ideal) ⟨2, ![m, n]⟩ .f32 0x00000000#32)) (broadcastTo ⟨2, ![m, n]⟩ B hb) (ix2 r c)
      = (∑ j : Fin k, max (H (ix2 r j)) zero * W (ix2 j c)) + B (ix2 (0 : Fin 1) c) := by
  refine (addf_apply _ _ _).trans ?_
  refine congrArg₂ (· + ·) ?_ (broadcastTo_1b_ab_apply B hb r c)
  exact matmul2_apply w none _ W r c

/-- The channel scales: the two halves of the second layer's sixteen rows added, through the logistic. -/
theorem pay13_apply (v101 : FVec Ideal S16x16 .f32) (v104 : FVec Ideal S16x256 .f32) (v106 : FVec Ideal S1x256 .f32)
    (b : Fin 8) (ch : Fin 256) :
    k1_pay13 v101 (FloatOps.ofBits (F := Ideal) .f32 0x00000000#32) v104 v106 (ix2 b ch)
      = Ideal.logistic (((∑ j : Fin 16, max (v101 (ix2 (lo b) j)) zero * v104 (ix2 j ch)) + v106 (ix2 (0 : Fin 1) ch))
          + ((∑ j : Fin 16, max (v101 (ix2 (hi b) j)) zero * v104 (ix2 j ch)) + v106 (ix2 (0 : Fin 1) ch))) := by
  unfold k1_pay13
  refine congrArg Ideal.logistic ?_
  refine (addf_apply _ _ _).trans ?_
  refine congrArg₂ (· + ·) ?_ ?_
  · refine (slice2_axis0_apply 0 _ _ b ch (lo b) (by show b.val = 0 + b.val; omega)).trans ?_
    exact layer2_apply _ v101 v104 v106 _ (lo b) ch
  · refine (slice2_axis0_apply 8 _ _ b ch (hi b) (by show b.val + 8 = 8 + b.val; omega)).trans ?_
    exact layer2_apply _ v101 v104 v106 _ (hi b) ch

/-! ## Gate 2: the rescaled pools, one batch at a time -/

/-- Row `b` of the scales times batch `b`'s slab, scaled by 1/(C·H·W): at frame `t` the sum over the channels. -/
theorem avg2_apply (v112 : FVec Ideal S8x256 .f32) (o : Nat) (hs : S8x256.Slices ![o, 0] S1x256)
    (v : FVec Ideal S1x256x16 .f32) (h1 : S1x256x16.ShapeCasts S256x16)
    (w : DotDims.WF S1x256 S256x16 S1x16 [1] [0] [0] [1] [] []) (b : Fin 8) (hb : b.val = o) (u : Fin 1) (t : Fin 16) :
    mulf (matmul (⟨[1], [0], [0], [1], [], [], w⟩ : DotDims _ _ _) none (extractStridedSlice S1x256 ![o, 0] v112 hs)
        (shapeCast S256x16 v h1) (constant (F := Ideal) S1x16 .f32 0x00000000#32))
        (broadcast S1x16 (FloatOps.ofBits (F := Ideal) .f32 0x36A72F05#32)) (ix2 u t)
      = (∑ c : Fin 256, v112 (ix2 b c) * v (ix3 0 c t)) * invCHW := by
  refine (mulf_apply _ _ _).trans ?_
  refine congrArg (· * invCHW) ?_
  refine (matmul2_apply w none _ _ u t).trans ?_
  refine Finset.sum_congr rfl fun c _ => congrArg₂ (· * ·) ?_ (slab_apply v h1 c t)
  exact slice2_axis0_apply o v112 hs u c b (by show b.val = o + u.val; have := u.isLt; omega)

theorem pay14_apply (v101 : FVec Ideal S16x16 .f32) (v104 : FVec Ideal S16x256 .f32) (v106 : FVec Ideal S1x256 .f32)
    (v : FVec Ideal S1x256x16 .f32) (u : Fin 1) (t : Fin 16) :
    k1_pay14 v101 (FloatOps.ofBits (F := Ideal) .f32 0x00000000#32) v104 v106 v (ix2 u t)
      = (∑ c : Fin 256, k1_pay13 v101 (FloatOps.ofBits (F := Ideal) .f32 0x00000000#32) v104 v106 (ix2 0 c) * v (ix3 0 c t)) * invCHW := by
  unfold k1_pay14
  exact avg2_apply _ 0 _ v _ _ 0 rfl u t
theorem pay15_apply (v101 : FVec Ideal S16x16 .f32) (v104 : FVec Ideal S16x256 .f32) (v106 : FVec Ideal S1x256 .f32)
    (v : FVec Ideal S1x256x16 .f32) (u : Fin 1) (t : Fin 16) :
    k1_pay15 v101 (FloatOps.ofBits (F := Ideal) .f32 0x00000000#32) v104 v106 v (ix2 u t)
      = (∑ c : Fin 256, k1_pay13 v101 (FloatOps.ofBits (F := Ideal) .f32 0x00000000#32) v104 v106 (ix2 1 c) * v (ix3 0 c t)) * invCHW := by
  unfold k1_pay15
  exact avg2_apply _ 1 _ v _ _ 1 rfl u t
theorem pay16_apply (v101 : FVec Ideal S16x16 .f32) (v104 : FVec Ideal S16x256 .f32) (v106 : FVec Ideal S1x256 .f32)
    (v : FVec Ideal S1x256x16 .f32) (u : Fin 1) (t : Fin 16) :
    k1_pay16 v101 (FloatOps.ofBits (F := Ideal) .f32 0x00000000#32) v104 v106 v (ix2 u t)
      = (∑ c : Fin 256, k1_pay13 v101 (FloatOps.ofBits (F := Ideal) .f32 0x00000000#32) v104 v106 (ix2 2 c) * v (ix3 0 c t)) * invCHW := by
  unfold k1_pay16
  exact avg2_apply _ 2 _ v _ _ 2 rfl u t
theorem pay17_apply (v101 : FVec Ideal S16x16 .f32) (v104 : FVec Ideal S16x256 .f32) (v106 : FVec Ideal S1x256 .f32)
    (v : FVec Ideal S1x256x16 .f32) (u : Fin 1) (t : Fin 16) :
    k1_pay17 v101 (FloatOps.ofBits (F := Ideal) .f32 0x00000000#32) v104 v106 v (ix2 u t)
      = (∑ c : Fin 256, k1_pay13 v101 (FloatOps.ofBits (F := Ideal) .f32 0x00000000#32) v104 v106 (ix2 3 c) * v (ix3 0 c t)) * invCHW := by
  unfold k1_pay17
  exact avg2_apply _ 3 _ v _ _ 3 rfl u t
theorem pay18_apply (v112 : FVec Ideal S8x256 .f32) (v : FVec Ideal S1x256x16 .f32) (u : Fin 1) (t : Fin 16) :
    k1_pay18 v112 v (ix2 u t) = (∑ c : Fin 256, v112 (ix2 4 c) * v (ix3 0 c t)) * invCHW := by
  unfold k1_pay18
  exact avg2_apply v112 4 _ v _ _ 4 rfl u t
theorem pay19_apply (v112 : FVec Ideal S8x256 .f32) (v : FVec Ideal S1x256x16 .f32) (u : Fin 1) (t : Fin 16) :
    k1_pay19 v112 v (ix2 u t) = (∑ c : Fin 256, v112 (ix2 5 c) * v (ix3 0 c t)) * invCHW := by
  unfold k1_pay19
  exact avg2_apply v112 5 _ v _ _ 5 rfl u t
theorem pay20_apply (v112 : FVec Ideal S8x256 .f32) (v : FVec Ideal S1x256x16 .f32) (u : Fin 1) (t : Fin 16) :
    k1_pay20 v112 v (ix2 u t) = (∑ c : Fin 256, v112 (ix2 6 c) * v (ix3 0 c t)) * invCHW := by
  unfold k1_pay20
  exact avg2_apply v112 6 _ v _ _ 6 rfl u t
theorem pay21_apply (v112 : FVec Ideal S8x256 .f32) (v : FVec Ideal S1x256x16 .f32) (u : Fin 1) (t : Fin 16) :
    k1_pay21 v112 v (ix2 u t) = (∑ c : Fin 256, v112 (ix2 7 c) * v (ix3 0 c t)) * invCHW := by
  unfold k1_pay21
  exact avg2_apply v112 7 _ v _ _ 7 rfl u t

/-- Row `b` of the scales as a column: at channel `c` the scale of (b, c). -/
theorem scaleCol_apply (v112 : FVec Ideal S8x256 .f32) (o : Nat) (hs : S8x256.Slices ![o, 0] S1x256)
    (ht : S1x256.Transposes [1, 0] S256x1) (b : Fin 8) (hb : b.val = o) (c : Fin 256) (u : Fin 1) :
    transpose S256x1 [1, 0] (extractStridedSlice S1x256 ![o, 0] v112 hs) ht (ix2 c u) = v112 (ix2 b c) :=
  (transpose_ix2_apply _ ht c u).trans
    (slice2_axis0_apply o v112 hs u c b (by show b.val = o + u.val; have := u.isLt; omega))

/-- A slab's entries each times its channel's scale. -/
theorem scaledSlab_apply (col : FVec Ideal S256x1 .f32) (v : FVec Ideal S1x256x16 .f32) (h1 : S1x256x16.ShapeCasts S256x16)
    (hb : S256x1.Broadcasts S256x16) (c : Fin 256) (t : Fin 16) :
    mulf (shapeCast S256x16 v h1) (broadcastTo S256x16 col hb) (ix2 c t) = v (ix3 0 c t) * col (ix2 c (0 : Fin 1)) :=
  (mulf_apply _ _ _).trans (congrArg₂ (· * ·) (slab_apply v h1 c t) (broadcastTo_a1_ab_apply col hb c t))

/-- The maximum down the 256 rows of a [256, 16] array, folded from -∞, as a [1, 16] row. -/
theorem rowMax_apply (w : FVec Ideal S256x16 .f32) (h : S256x16.Reduces [0] S16) (hφ : FKind.Formats .f32)
    (hacc : (0xFF800000#32 : BitVec 32) = FKind.maximumf.neutral .f32 hφ) (hc : S16.ShapeCasts S1x16) (u : Fin 1) (t : Fin 16) :
    shapeCast S1x16 (multiReduction .maximumf [0] S16 w 0xFF800000#32 h hφ hacc) hc (ix2 u t)
      = (Finset.univ : Finset (Fin 256)).fold max negInf (fun c => w (ix2 c t)) := by
  refine (shapeCast_a_1a_apply _ hc u t).trans ?_
  refine (Ideal.multiReduction_maximumf_single w 0xFF800000#32 h hφ hacc (ix1 t)).trans ?_
  have e : (w ∘ h.lift (ix1 t) : Fin 256 → EReal) = fun c => w (ix2 c t) :=
    funext fun c => congrArg w (funext fun a => by match a with | ⟨0, _⟩ => rfl | ⟨1, _⟩ => rfl)
  exact congrArg (fun f : Fin 256 → EReal => (Finset.univ : Finset (Fin 256)).fold max negInf f) e

/-- The maximum over the channels of a slab's entries times the channels' scales (the scales given as a column). -/
theorem maxRow_apply (col : FVec Ideal S256x1 .f32) (v : FVec Ideal S1x256x16 .f32) (h1 : S1x256x16.ShapeCasts S256x16)
    (hb : S256x1.Broadcasts S256x16) (h : S256x16.Reduces [0] S16) (hφ : FKind.Formats .f32)
    (hacc : (0xFF800000#32 : BitVec 32) = FKind.maximumf.neutral .f32 hφ) (hc : S16.ShapeCasts S1x16) (u : Fin 1) (t : Fin 16) :
    shapeCast S1x16 (multiReduction .maximumf [0] S16 (mulf (shapeCast S256x16 v h1) (broadcastTo S256x16 col hb))
        0xFF800000#32 h hφ hacc) hc (ix2 u t)
      = (Finset.univ : Finset (Fin 256)).fold max negInf (fun c => v (ix3 0 c t) * col (ix2 c (0 : Fin 1))) :=
  (rowMax_apply _ h hφ hacc hc u t).trans
    (congrArg (fun f : Fin 256 → EReal => (Finset.univ : Finset (Fin 256)).fold max negInf f)
      (funext fun c => scaledSlab_apply col v h1 hb c t))

/-- The same with the column read off row `b` of the scales. -/
theorem maxRowOf_apply (v112 : FVec Ideal S8x256 .f32) (o : Nat) (hs : S8x256.Slices ![o, 0] S1x256)
    (ht : S1x256.Transposes [1, 0] S256x1) (b : Fin 8) (hbo : b.val = o)
    (v : FVec Ideal S1x256x16 .f32) (h1 : S1x256x16.ShapeCasts S256x16)
    (hb : S256x1.Broadcasts S256x16) (h : S256x16.Reduces [0] S16) (hφ : FKind.Formats .f32)
    (hacc : (0xFF800000#32 : BitVec 32) = FKind.maximumf.neutral .f32 hφ) (hc : S16.ShapeCasts S1x16) (u : Fin 1) (t : Fin 16) :
    shapeCast S1x16 (multiReduction .maximumf [0] S16 (mulf (shapeCast S256x16 v h1)
        (broadcastTo S256x16 (transpose S256x1 [1, 0] (extractStridedSlice S1x256 ![o, 0] v112 hs) ht) hb))
        0xFF800000#32 h hφ hacc) hc (ix2 u t)
      = (Finset.univ : Finset (Fin 256)).fold max negInf (fun c => v (ix3 0 c t) * v112 (ix2 b c)) :=
  (maxRow_apply _ v h1 hb h hφ hacc hc u t).trans
    (congrArg (fun f : Fin 256 → EReal => (Finset.univ : Finset (Fin 256)).fold max negInf f)
      (funext fun c => congrArg (v (ix3 0 c t) * ·) (scaleCol_apply v112 o hs ht b hbo c 0)))

theorem pay22_apply (v112 : FVec Ideal S8x256 .f32) (v : FVec Ideal S1x256x16 .f32) (u : Fin 1) (t : Fin 16) :
    k1_pay22 v112 v (ix2 u t) = (Finset.univ : Finset (Fin 256)).fold max negInf (fun c => v (ix3 0 c t) * v112 (ix2 0 c)) := by
  unfold k1_pay22
  exact maxRowOf_apply v112 0 _ _ 0 rfl v _ _ _ _ _ _ u t
theorem pay25_apply (v112 : FVec Ideal S8x256 .f32) (v : FVec Ideal S1x256x16 .f32) (u : Fin 1) (t : Fin 16) :
    k1_pay25 v112 v (ix2 u t) = (Finset.univ : Finset (Fin 256)).fold max negInf (fun c => v (ix3 0 c t) * v112 (ix2 2 c)) := by
  unfold k1_pay25
  exact maxRowOf_apply v112 2 _ _ 2 rfl v _ _ _ _ _ _ u t
theorem pay26_apply (v112 : FVec Ideal S8x256 .f32) (v : FVec Ideal S1x256x16 .f32) (u : Fin 1) (t : Fin 16) :
    k1_pay26 v112 v (ix2 u t) = (Finset.univ : Finset (Fin 256)).fold max negInf (fun c => v (ix3 0 c t) * v112 (ix2 3 c)) := by
  unfold k1_pay26
  exact maxRowOf_apply v112 3 _ _ 3 rfl v _ _ _ _ _ _ u t
theorem pay27_apply (v112 : FVec Ideal S8x256 .f32) (v : FVec Ideal S1x256x16 .f32) (u : Fin 1) (t : Fin 16) :
    k1_pay27 v112 v (ix2 u t) = (Finset.univ : Finset (Fin 256)).fold max negInf (fun c => v (ix3 0 c t) * v112 (ix2 4 c)) := by
  unfold k1_pay27
  exact maxRowOf_apply v112 4 _ _ 4 rfl v _ _ _ _ _ _ u t
theorem pay28_apply (v112 : FVec Ideal S8x256 .f32) (v : FVec Ideal S1x256x16 .f32) (u : Fin 1) (t : Fin 16) :
    k1_pay28 v112 v (ix2 u t) = (Finset.univ : Finset (Fin 256)).fold max negInf (fun c => v (ix3 0 c t) * v112 (ix2 5 c)) := by
  unfold k1_pay28
  exact maxRowOf_apply v112 5 _ _ 5 rfl v _ _ _ _ _ _ u t
theorem pay23_apply (v112 : FVec Ideal S8x256 .f32) (c : Fin 256) (u : Fin 1) :
    k1_pay23 v112 (ix2 c u) = v112 (ix2 1 c) := by
  unfold k1_pay23
  exact scaleCol_apply v112 1 _ _ 1 rfl c u
theorem pay24_apply (col : FVec Ideal S256x1 .f32) (v : FVec Ideal S1x256x16 .f32) (u : Fin 1) (t : Fin 16) :
    k1_pay24 col v (ix2 u t) = (Finset.univ : Finset (Fin 256)).fold max negInf (fun c => v (ix3 0 c t) * col (ix2 c (0 : Fin 1))) := by
  unfold k1_pay24
  exact maxRow_apply col v _ _ _ _ _ _ u t
theorem pay29_apply (v112 : FVec Ideal S8x256 .f32) (c : Fin 256) (u : Fin 1) :
    k1_pay29 v112 (ix2 c u) = v112 (ix2 6 c) := by
  unfold k1_pay29
  exact scaleCol_apply v112 6 _ _ 6 rfl c u
theorem pay30_apply (col : FVec Ideal S256x1 .f32) (v : FVec Ideal S1x256x16 .f32) (c : Fin 256) (t : Fin 16) :
    k1_pay30 col v (ix2 c t) = v (ix3 0 c t) * col (ix2 c (0 : Fin 1)) := by
  unfold k1_pay30
  exact scaledSlab_apply col v _ _ c t
theorem pay31_apply (v112 : FVec Ideal S8x256 .f32) (v : FVec Ideal S1x256x16 .f32) (c : Fin 256) (t : Fin 16) :
    k1_pay31 v112 v (ix2 c t) = v (ix3 0 c t) * v112 (ix2 7 c) := by
  unfold k1_pay31
  exact (scaledSlab_apply _ v _ _ c t).trans (congrArg (v (ix3 0 c t) * ·) (scaleCol_apply v112 7 _ _ 7 rfl c 0))

/-! ## Gate 2: the sixteen rescaled pooled rows, the second perceptron, the gate -/

/-- The sixteen rows of gate 2's pools stacked (the last two maxima reduced here). -/
theorem pay32_apply (q0 q1 q2 q3 q4 q5 q6 q7 q8 q9 q10 q11 q12 q13 : FVec Ideal S1x16 .f32) (v214 v222 : FVec Ideal S256x16 .f32)
    (up dn : Fin 8 → Fin 16 → EReal)
    (h0 : ∀ t, q0 (ix2 (0 : Fin 1) t) = up 0 t)
    (h1 : ∀ t, q1 (ix2 (0 : Fin 1) t) = up 1 t)
    (h2 : ∀ t, q2 (ix2 (0 : Fin 1) t) = up 2 t)
    (h3 : ∀ t, q3 (ix2 (0 : Fin 1) t) = up 3 t)
    (h4 : ∀ t, q4 (ix2 (0 : Fin 1) t) = up 4 t)
    (h5 : ∀ t, q5 (ix2 (0 : Fin 1) t) = up 5 t)
    (h6 : ∀ t, q6 (ix2 (0 : Fin 1) t) = up 6 t)
    (h7 : ∀ t, q7 (ix2 (0 : Fin 1) t) = up 7 t)
    (h8 : ∀ t, q8 (ix2 (0 : Fin 1) t) = dn 0 t)
    (h9 : ∀ t, q9 (ix2 (0 : Fin 1) t) = dn 1 t)
    (h10 : ∀ t, q10 (ix2 (0 : Fin 1) t) = dn 2 t)
    (h11 : ∀ t, q11 (ix2 (0 : Fin 1) t) = dn 3 t)
    (h12 : ∀ t, q12 (ix2 (0 : Fin 1) t) = dn 4 t)
    (h13 : ∀ t, q13 (ix2 (0 : Fin 1) t) = dn 5 t)
    (h14 : ∀ t, (Finset.univ : Finset (Fin 256)).fold max negInf (fun c => v214 (ix2 c t)) = dn 6 t)
    (h15 : ∀ t, (Finset.univ : Finset (Fin 256)).fold max negInf (fun c => v222 (ix2 c t)) = dn 7 t)
    (r t : Fin 16) :
    k1_pay32 q0 q1 q2 q3 q4 q5 q6 q7 q8 q9 q10 q11 q12 q13 v214 v222 (ix2 r t) = stack up dn r t := by
  unfold k1_pay32
  exact stack16_apply _ _ _ _ _ _ _ _ _ _ _ _ _ _ _ _ _ up dn h0 h1 h2 h3 h4 h5 h6 h7 h8 h9 h10 h11 h12 h13
    (fun t => (rowMax_apply v214 _ _ _ _ 0 t).trans (h14 t))
    (fun t => (rowMax_apply v222 _ _ _ _ 0 t).trans (h15 t)) r t

/-- One row of a first layer: the row through the weights, plus the bias. -/
theorem layer1_apply {m k n : Nat} (w : DotDims.WF ⟨2, ![m, k]⟩ ⟨2, ![k, n]⟩ ⟨2, ![m, n]⟩ [1] [0] [0] [1] [] [])
    (A : FVec Ideal ⟨2, ![m, k]⟩ .f32) (W : FVec Ideal ⟨2, ![k, n]⟩ .f32) (B : FVec Ideal ⟨2, ![1, n]⟩ .f32)
    (hb : (⟨2, ![1, n]⟩ : Shape).Broadcasts ⟨2, ![m, n]⟩) (r : Fin m) (c : Fin n) :
    addf (matmul (⟨[1], [0], [0], [1], [], [], w⟩ : DotDims _ _ _) none A W
        (constant (F := Ideal) ⟨2, ![m, n]⟩ .f32 0x00000000#32)) (broadcastTo ⟨2, ![m, n]⟩ B hb) (ix2 r c)
      = (∑ j : Fin k, A (ix2 r j) * W (ix2 j c)) + B (ix2 (0 : Fin 1) c) := by
  refine (addf_apply _ _ _).trans ?_
  exact congrArg₂ (· + ·) (matmul2_apply w none A W r c) (broadcastTo_1b_ab_apply B hb r c)

/-- The gate: the second perceptron on the sixteen rows, the two halves added, through the logistic. -/
theorem pay33_apply (v225 : FVec Ideal S16x16 .f32) (v226 : FVec Ideal S16x8 .f32) (v229 : FVec Ideal S1x8 .f32)
    (v235 : FVec Ideal S8x16 .f32) (v238 : FVec Ideal S1x16 .f32) (b : Fin 8) (t : Fin 16) :
    k1_pay33 v225 v226 v229 v235 v238 (ix2 b t)
      = Ideal.logistic (((∑ j : Fin 8, max ((∑ s : Fin 16, v225 (ix2 (lo b) s) * v226 (ix2 s j)) + v229 (ix2 (0 : Fin 1) j)) zero * v235 (ix2 j t)) + v238 (ix2 (0 : Fin 1) t))
          + ((∑ j : Fin 8, max ((∑ s : Fin 16, v225 (ix2 (hi b) s) * v226 (ix2 s j)) + v229 (ix2 (0 : Fin 1) j)) zero * v235 (ix2 j t)) + v238 (ix2 (0 : Fin 1) t))) := by
  unfold k1_pay33
  simp only [shapeCast_self]
  refine congrArg Ideal.logistic ?_
  refine (addf_apply _ _ _).trans ?_
  refine congrArg₂ (· + ·) ?_ ?_
  · refine (slice2_axis0_apply 0 _ _ b t (lo b) (by show b.val = 0 + b.val; omega)).trans ?_
    refine (layer2_apply _ _ v235 v238 _ (lo b) t).trans ?_
    refine congrArg (· + v238 (ix2 (0 : Fin 1) t)) (Finset.sum_congr rfl fun j _ => congrArg (fun x => max x zero * v235 (ix2 j t)) ?_)
    exact layer1_apply _ v225 v226 v229 _ (lo b) j
  · refine (slice2_axis0_apply 8 _ _ b t (hi b) (by show b.val + 8 = 8 + b.val; omega)).trans ?_
    refine (layer2_apply _ _ v235 v238 _ (hi b) t).trans ?_
    refine congrArg (· + v238 (ix2 (0 : Fin 1) t)) (Finset.sum_congr rfl fun j _ => congrArg (fun x => max x zero * v235 (ix2 j t)) ?_)
    exact layer1_apply _ v225 v226 v229 _ (hi b) j

/-! ## The whole body: the payloads composed into the stacked gate -/

/-- The perceptrons' weights read off the eight weight arrays as the body loads them. -/
def wts (y2 : FVec Ideal S256x16 .f32) (y3 : FVec Ideal S1x16 .f32) (y4 : FVec Ideal S16x256 .f32) (y5 : FVec Ideal S1x256 .f32)
    (y6 : FVec Ideal S16x8 .f32) (y7 : FVec Ideal S1x8 .f32) (y8 : FVec Ideal S8x16 .f32) (y9 : FVec Ideal S1x16 .f32) : Weights where
  w1 ch j := y2 (ix2 ch j)
  b1 j := y3 (ix2 0 j)
  w2 j ch := y4 (ix2 j ch)
  b2 ch := y5 (ix2 0 ch)
  u1 t j := y6 (ix2 t j)
  c1 j := y7 (ix2 0 j)
  u2 j t := y8 (ix2 j t)
  c2 t := y9 (ix2 0 t)

section Compose
variable (s0 s1 s2 s3 s4 s5 s6 s7 m0 m1 m2 m3 m4 m5 m6 m7 : FVec Ideal S1x256x16 .f32)
    (y2 : FVec Ideal S256x16 .f32) (y3 : FVec Ideal S1x16 .f32) (y4 : FVec Ideal S16x256 .f32) (y5 : FVec Ideal S1x256 .f32)
    (y6 : FVec Ideal S16x8 .f32) (y7 : FVec Ideal S1x8 .f32) (y8 : FVec Ideal S8x16 .f32) (y9 : FVec Ideal S1x16 .f32)
    (S M : Fin 8 → Fin 256 → Fin 16 → EReal)

/-- Gate 1's first layer on the sixteen pooled rows, from the sixteen slabs: the pooled rows are the specification's. -/
theorem hid1_of (hs0 : ∀ ch t, s0 (ix3 0 ch t) = S 0 ch t) (hs1 : ∀ ch t, s1 (ix3 0 ch t) = S 1 ch t) (hs2 : ∀ ch t, s2 (ix3 0 ch t) = S 2 ch t) (hs3 : ∀ ch t, s3 (ix3 0 ch t) = S 3 ch t) (hs4 : ∀ ch t, s4 (ix3 0 ch t) = S 4 ch t) (hs5 : ∀ ch t, s5 (ix3 0 ch t) = S 5 ch t) (hs6 : ∀ ch t, s6 (ix3 0 ch t) = S 6 ch t) (hs7 : ∀ ch t, s7 (ix3 0 ch t) = S 7 ch t)
    (hm0 : ∀ ch t, m0 (ix3 0 ch t) = M 0 ch t) (hm1 : ∀ ch t, m1 (ix3 0 ch t) = M 1 ch t) (hm2 : ∀ ch t, m2 (ix3 0 ch t) = M 2 ch t) (hm3 : ∀ ch t, m3 (ix3 0 ch t) = M 3 ch t) (hm4 : ∀ ch t, m4 (ix3 0 ch t) = M 4 ch t) (hm5 : ∀ ch t, m5 (ix3 0 ch t) = M 5 ch t) (hm6 : ∀ ch t, m6 (ix3 0 ch t) = M 6 ch t) (hm7 : ∀ ch t, m7 (ix3 0 ch t) = M 7 ch t) (r j : Fin 16) :
    (k1_pay12 (F := Ideal) (k1_pay1 s0) (k1_pay2 s1) (k1_pay3 s2) (k1_pay4 s3) (k1_pay5 s4) (k1_pay6 s5) (k1_pay7 s6) (k1_pay8 s7) (k1_pay9 m0) (k1_pay10 m1) (k1_pay11 m2) m3 m4 m5 m6 m7 y2 y3) (ix2 r j)
      = (∑ c : Fin 256, pooled1 S M r c * y2 (ix2 c j)) + y3 (ix2 (0 : Fin 1) j) :=
  pay12_apply _ _ _ _ _ _ _ _ _ _ _ _ _ _ _ _ y2 y3 (fun b c => (∑ t : Fin 16, S b c t) * invTHW) (fun b c => (Finset.univ : Finset (Fin 16)).fold max negInf (fun t => M b c t))
    (fun ch => (pay1_apply s0 0 ch).trans (congrArg (· * invTHW) (Finset.sum_congr rfl fun t _ => hs0 ch t)))
    (fun ch => (pay2_apply s1 0 ch).trans (congrArg (· * invTHW) (Finset.sum_congr rfl fun t _ => hs1 ch t)))
    (fun ch => (pay3_apply s2 0 ch).trans (congrArg (· * invTHW) (Finset.sum_congr rfl fun t _ => hs2 ch t)))
    (fun ch => (pay4_apply s3 0 ch).trans (congrArg (· * invTHW) (Finset.sum_congr rfl fun t _ => hs3 ch t)))
    (fun ch => (pay5_apply s4 0 ch).trans (congrArg (· * invTHW) (Finset.sum_congr rfl fun t _ => hs4 ch t)))
    (fun ch => (pay6_apply s5 0 ch).trans (congrArg (· * invTHW) (Finset.sum_congr rfl fun t _ => hs5 ch t)))
    (fun ch => (pay7_apply s6 0 ch).trans (congrArg (· * invTHW) (Finset.sum_congr rfl fun t _ => hs6 ch t)))
    (fun ch => (pay8_apply s7 0 ch).trans (congrArg (· * invTHW) (Finset.sum_congr rfl fun t _ => hs7 ch t)))
    (fun ch => (pay9_apply m0 0 ch).trans (congrArg (fun f : Fin 16 → EReal => (Finset.univ : Finset (Fin 16)).fold max negInf f) (funext fun t => hm0 ch t)))
    (fun ch => (pay10_apply m1 0 ch).trans (congrArg (fun f : Fin 16 → EReal => (Finset.univ : Finset (Fin 16)).fold max negInf f) (funext fun t => hm1 ch t)))
    (fun ch => congrArg (fun f : Fin 16 → EReal => (Finset.univ : Finset (Fin 16)).fold max negInf f) (funext fun t => (pay11_apply m2 t ch).trans (hm2 ch t)))
    (fun ch => congrArg (fun f : Fin 16 → EReal => (Finset.univ : Finset (Fin 16)).fold max negInf f) (funext fun t => hm3 ch t))
    (fun ch => congrArg (fun f : Fin 16 → EReal => (Finset.univ : Finset (Fin 16)).fold max negInf f) (funext fun t => hm4 ch t))
    (fun ch => congrArg (fun f : Fin 16 → EReal => (Finset.univ : Finset (Fin 16)).fold max negInf f) (funext fun t => hm5 ch t))
    (fun ch => congrArg (fun f : Fin 16 → EReal => (Finset.univ : Finset (Fin 16)).fold max negInf f) (funext fun t => hm6 ch t))
    (fun ch => congrArg (fun f : Fin 16 → EReal => (Finset.univ : Finset (Fin 16)).fold max negInf f) (funext fun t => hm7 ch t)) r j

/-- The channel scales, from any first layer that is the specification's. -/
theorem scale_of (P12 : FVec Ideal S16x16 .f32)
    (e12 : ∀ r j, P12 (ix2 r j) = (∑ c : Fin 256, pooled1 S M r c * y2 (ix2 c j)) + y3 (ix2 (0 : Fin 1) j))
    (b : Fin 8) (ch : Fin 256) :
    k1_pay13 P12 (FloatOps.ofBits (F := Ideal) .f32 0x00000000#32) y4 y5 (ix2 b ch) = scaleR (wts y2 y3 y4 y5 y6 y7 y8 y9) S M b ch := by
  have hO : ∀ r : Fin 16, (∑ j : Fin 16, max (P12 (ix2 r j)) zero * y4 (ix2 j ch)) + y5 (ix2 (0 : Fin 1) ch)
      = out1 (wts y2 y3 y4 y5 y6 y7 y8 y9) S M r ch := fun r =>
    congrArg (· + y5 (ix2 (0 : Fin 1) ch)) (Finset.sum_congr rfl fun j _ => congrArg (fun x => max x zero * y4 (ix2 j ch)) (e12 r j))
  exact (pay13_apply P12 y4 y5 b ch).trans (congrArg Ideal.logistic (congrArg₂ (· + ·) (hO (lo b)) (hO (hi b))))

/-- Gate 2's sixteen pooled rows, from any scales that are the specification's. -/
theorem pooled2_of (P12 : FVec Ideal S16x16 .f32) (hs0 : ∀ ch t, s0 (ix3 0 ch t) = S 0 ch t) (hs1 : ∀ ch t, s1 (ix3 0 ch t) = S 1 ch t) (hs2 : ∀ ch t, s2 (ix3 0 ch t) = S 2 ch t) (hs3 : ∀ ch t, s3 (ix3 0 ch t) = S 3 ch t) (hs4 : ∀ ch t, s4 (ix3 0 ch t) = S 4 ch t) (hs5 : ∀ ch t, s5 (ix3 0 ch t) = S 5 ch t) (hs6 : ∀ ch t, s6 (ix3 0 ch t) = S 6 ch t) (hs7 : ∀ ch t, s7 (ix3 0 ch t) = S 7 ch t)
    (hm0 : ∀ ch t, m0 (ix3 0 ch t) = M 0 ch t) (hm1 : ∀ ch t, m1 (ix3 0 ch t) = M 1 ch t) (hm2 : ∀ ch t, m2 (ix3 0 ch t) = M 2 ch t) (hm3 : ∀ ch t, m3 (ix3 0 ch t) = M 3 ch t) (hm4 : ∀ ch t, m4 (ix3 0 ch t) = M 4 ch t) (hm5 : ∀ ch t, m5 (ix3 0 ch t) = M 5 ch t) (hm6 : ∀ ch t, m6 (ix3 0 ch t) = M 6 ch t) (hm7 : ∀ ch t, m7 (ix3 0 ch t) = M 7 ch t)
    (e13 : ∀ b ch, k1_pay13 P12 (FloatOps.ofBits (F := Ideal) .f32 0x00000000#32) y4 y5 (ix2 b ch) = scaleR (wts y2 y3 y4 y5 y6 y7 y8 y9) S M b ch) (r t : Fin 16) :
    (k1_pay32 (k1_pay14 P12 (FloatOps.ofBits (F := Ideal) .f32 0x00000000#32) y4 y5 s0) (k1_pay15 P12 (FloatOps.ofBits (F := Ideal) .f32 0x00000000#32) y4 y5 s1) (k1_pay16 P12 (FloatOps.ofBits (F := Ideal) .f32 0x00000000#32) y4 y5 s2) (k1_pay17 P12 (FloatOps.ofBits (F := Ideal) .f32 0x00000000#32) y4 y5 s3) (k1_pay18 (k1_pay13 P12 (FloatOps.ofBits (F := Ideal) .f32 0x00000000#32) y4 y5) s4) (k1_pay19 (k1_pay13 P12 (FloatOps.ofBits (F := Ideal) .f32 0x00000000#32) y4 y5) s5) (k1_pay20 (k1_pay13 P12 (FloatOps.ofBits (F := Ideal) .f32 0x00000000#32) y4 y5) s6) (k1_pay21 (k1_pay13 P12 (FloatOps.ofBits (F := Ideal) .f32 0x00000000#32) y4 y5) s7) (k1_pay22 (k1_pay13 P12 (FloatOps.ofBits (F := Ideal) .f32 0x00000000#32) y4 y5) m0) (k1_pay24 (k1_pay23 (k1_pay13 P12 (FloatOps.ofBits (F := Ideal) .f32 0x00000000#32) y4 y5)) m1) (k1_pay25 (k1_pay13 P12 (FloatOps.ofBits (F := Ideal) .f32 0x00000000#32) y4 y5) m2) (k1_pay26 (k1_pay13 P12 (FloatOps.ofBits (F := Ideal) .f32 0x00000000#32) y4 y5) m3) (k1_pay27 (k1_pay13 P12 (FloatOps.ofBits (F := Ideal) .f32 0x00000000#32) y4 y5) m4) (k1_pay28 (k1_pay13 P12 (FloatOps.ofBits (F := Ideal) .f32 0x00000000#32) y4 y5) m5) (k1_pay30 (k1_pay29 (k1_pay13 P12 (FloatOps.ofBits (F := Ideal) .f32 0x00000000#32) y4 y5)) m6) (k1_pay31 (k1_pay13 P12 (FloatOps.ofBits (F := Ideal) .f32 0x00000000#32) y4 y5) m7)) (ix2 r t)
      = pooled2 (wts y2 y3 y4 y5 y6 y7 y8 y9) S M r t :=
  pay32_apply _ _ _ _ _ _ _ _ _ _ _ _ _ _ _ _ (fun b t => (∑ c : Fin 256, scaleR (wts y2 y3 y4 y5 y6 y7 y8 y9) S M b c * S b c t) * invCHW) (fun b t => (Finset.univ : Finset (Fin 256)).fold max negInf (fun c => M b c t * scaleR (wts y2 y3 y4 y5 y6 y7 y8 y9) S M b c))
    (fun t => (pay14_apply P12 y4 y5 s0 0 t).trans (congrArg (· * invCHW) (Finset.sum_congr rfl fun c _ => congrArg₂ (· * ·) (e13 0 c) (hs0 c t))))
    (fun t => (pay15_apply P12 y4 y5 s1 0 t).trans (congrArg (· * invCHW) (Finset.sum_congr rfl fun c _ => congrArg₂ (· * ·) (e13 1 c) (hs1 c t))))
    (fun t => (pay16_apply P12 y4 y5 s2 0 t).trans (congrArg (· * invCHW) (Finset.sum_congr rfl fun c _ => congrArg₂ (· * ·) (e13 2 c) (hs2 c t))))
    (fun t => (pay17_apply P12 y4 y5 s3 0 t).trans (congrArg (· * invCHW) (Finset.sum_congr rfl fun c _ => congrArg₂ (· * ·) (e13 3 c) (hs3 c t))))
    (fun t => (pay18_apply _ s4 0 t).trans (congrArg (· * invCHW) (Finset.sum_congr rfl fun c _ => congrArg₂ (· * ·) (e13 4 c) (hs4 c t))))
    (fun t => (pay19_apply _ s5 0 t).trans (congrArg (· * invCHW) (Finset.sum_congr rfl fun c _ => congrArg₂ (· * ·) (e13 5 c) (hs5 c t))))
    (fun t => (pay20_apply _ s6 0 t).trans (congrArg (· * invCHW) (Finset.sum_congr rfl fun c _ => congrArg₂ (· * ·) (e13 6 c) (hs6 c t))))
    (fun t => (pay21_apply _ s7 0 t).trans (congrArg (· * invCHW) (Finset.sum_congr rfl fun c _ => congrArg₂ (· * ·) (e13 7 c) (hs7 c t))))
    (fun t => (pay22_apply _ m0 0 t).trans (congrArg (fun f : Fin 256 → EReal => (Finset.univ : Finset (Fin 256)).fold max negInf f) (funext fun c => congrArg₂ (· * ·) (hm0 c t) (e13 0 c))))
    (fun t => (pay24_apply _ m1 0 t).trans (congrArg (fun f : Fin 256 → EReal => (Finset.univ : Finset (Fin 256)).fold max negInf f) (funext fun c => congrArg₂ (· * ·) (hm1 c t) ((pay23_apply _ c 0).trans (e13 1 c)))))
    (fun t => (pay25_apply _ m2 0 t).trans (congrArg (fun f : Fin 256 → EReal => (Finset.univ : Finset (Fin 256)).fold max negInf f) (funext fun c => congrArg₂ (· * ·) (hm2 c t) (e13 2 c))))
    (fun t => (pay26_apply _ m3 0 t).trans (congrArg (fun f : Fin 256 → EReal => (Finset.univ : Finset (Fin 256)).fold max negInf f) (funext fun c => congrArg₂ (· * ·) (hm3 c t) (e13 3 c))))
    (fun t => (pay27_apply _ m4 0 t).trans (congrArg (fun f : Fin 256 → EReal => (Finset.univ : Finset (Fin 256)).fold max negInf f) (funext fun c => congrArg₂ (· * ·) (hm4 c t) (e13 4 c))))
    (fun t => (pay28_apply _ m5 0 t).trans (congrArg (fun f : Fin 256 → EReal => (Finset.univ : Finset (Fin 256)).fold max negInf f) (funext fun c => congrArg₂ (· * ·) (hm5 c t) (e13 5 c))))
    (fun t => congrArg (fun f : Fin 256 → EReal => (Finset.univ : Finset (Fin 256)).fold max negInf f) (funext fun c => (pay30_apply _ m6 c t).trans (congrArg₂ (· * ·) (hm6 c t) ((pay29_apply _ c 0).trans (e13 6 c)))))
    (fun t => congrArg (fun f : Fin 256 → EReal => (Finset.univ : Finset (Fin 256)).fold max negInf f) (funext fun c => (pay31_apply _ m7 c t).trans (congrArg₂ (· * ·) (hm7 c t) (e13 7 c)))) r t

/-- The gate, from any pooled rows that are the specification's. -/
theorem gate_of (A : FVec Ideal S16x16 .f32) (e32 : ∀ r t, A (ix2 r t) = pooled2 (wts y2 y3 y4 y5 y6 y7 y8 y9) S M r t) (b : Fin 8) (t : Fin 16) :
    k1_pay33 A y6 y7 y8 y9 (ix2 b t) = gateR (wts y2 y3 y4 y5 y6 y7 y8 y9) S M b t := by
  have hO : ∀ r : Fin 16, (∑ j : Fin 8, max ((∑ s : Fin 16, A (ix2 r s) * y6 (ix2 s j)) + y7 (ix2 (0 : Fin 1) j)) zero * y8 (ix2 j t)) + y9 (ix2 (0 : Fin 1) t)
      = out2 (wts y2 y3 y4 y5 y6 y7 y8 y9) S M r t := fun r =>
    congrArg (· + y9 (ix2 (0 : Fin 1) t)) (Finset.sum_congr rfl fun j _ => congrArg (fun x => max x zero * y8 (ix2 j t))
      (congrArg (· + y7 (ix2 (0 : Fin 1) j)) (Finset.sum_congr rfl fun s _ => congrArg (· * y6 (ix2 s j)) (e32 r s))))
  exact (pay33_apply A y6 y7 y8 y9 b t).trans (congrArg Ideal.logistic (congrArg₂ (· + ·) (hO (lo b)) (hO (hi b))))

/-- The body's one stored value, from sixteen slabs that are the batches' plane sums and maxima: the stacked gate. -/
theorem gate_compose (hs0 : ∀ ch t, s0 (ix3 0 ch t) = S 0 ch t) (hs1 : ∀ ch t, s1 (ix3 0 ch t) = S 1 ch t) (hs2 : ∀ ch t, s2 (ix3 0 ch t) = S 2 ch t) (hs3 : ∀ ch t, s3 (ix3 0 ch t) = S 3 ch t) (hs4 : ∀ ch t, s4 (ix3 0 ch t) = S 4 ch t) (hs5 : ∀ ch t, s5 (ix3 0 ch t) = S 5 ch t) (hs6 : ∀ ch t, s6 (ix3 0 ch t) = S 6 ch t) (hs7 : ∀ ch t, s7 (ix3 0 ch t) = S 7 ch t)
    (hm0 : ∀ ch t, m0 (ix3 0 ch t) = M 0 ch t) (hm1 : ∀ ch t, m1 (ix3 0 ch t) = M 1 ch t) (hm2 : ∀ ch t, m2 (ix3 0 ch t) = M 2 ch t) (hm3 : ∀ ch t, m3 (ix3 0 ch t) = M 3 ch t) (hm4 : ∀ ch t, m4 (ix3 0 ch t) = M 4 ch t) (hm5 : ∀ ch t, m5 (ix3 0 ch t) = M 5 ch t) (hm6 : ∀ ch t, m6 (ix3 0 ch t) = M 6 ch t) (hm7 : ∀ ch t, m7 (ix3 0 ch t) = M 7 ch t) (b : Fin 8) (t : Fin 16) :
    k1_pay33 (k1_pay32 (k1_pay14 (k1_pay12 (F := Ideal) (k1_pay1 s0) (k1_pay2 s1) (k1_pay3 s2) (k1_pay4 s3) (k1_pay5 s4) (k1_pay6 s5) (k1_pay7 s6) (k1_pay8 s7) (k1_pay9 m0) (k1_pay10 m1) (k1_pay11 m2) m3 m4 m5 m6 m7 y2 y3) (FloatOps.ofBits (F := Ideal) .f32 0x00000000#32) y4 y5 s0) (k1_pay15 (k1_pay12 (F := Ideal) (k1_pay1 s0) (k1_pay2 s1) (k1_pay3 s2) (k1_pay4 s3) (k1_pay5 s4) (k1_pay6 s5) (k1_pay7 s6) (k1_pay8 s7) (k1_pay9 m0) (k1_pay10 m1) (k1_pay11 m2) m3 m4 m5 m6 m7 y2 y3) (FloatOps.ofBits (F := Ideal) .f32 0x00000000#32) y4 y5 s1) (k1_pay16 (k1_pay12 (F := Ideal) (k1_pay1 s0) (k1_pay2 s1) (k1_pay3 s2) (k1_pay4 s3) (k1_pay5 s4) (k1_pay6 s5) (k1_pay7 s6) (k1_pay8 s7) (k1_pay9 m0) (k1_pay10 m1) (k1_pay11 m2) m3 m4 m5 m6 m7 y2 y3) (FloatOps.ofBits (F := Ideal) .f32 0x00000000#32) y4 y5 s2) (k1_pay17 (k1_pay12 (F := Ideal) (k1_pay1 s0) (k1_pay2 s1) (k1_pay3 s2) (k1_pay4 s3) (k1_pay5 s4) (k1_pay6 s5) (k1_pay7 s6) (k1_pay8 s7) (k1_pay9 m0) (k1_pay10 m1) (k1_pay11 m2) m3 m4 m5 m6 m7 y2 y3) (FloatOps.ofBits (F := Ideal) .f32 0x00000000#32) y4 y5 s3) (k1_pay18 (k1_pay13 (k1_pay12 (F := Ideal) (k1_pay1 s0) (k1_pay2 s1) (k1_pay3 s2) (k1_pay4 s3) (k1_pay5 s4) (k1_pay6 s5) (k1_pay7 s6) (k1_pay8 s7) (k1_pay9 m0) (k1_pay10 m1) (k1_pay11 m2) m3 m4 m5 m6 m7 y2 y3) (FloatOps.ofBits (F := Ideal) .f32 0x00000000#32) y4 y5) s4) (k1_pay19 (k1_pay13 (k1_pay12 (F := Ideal) (k1_pay1 s0) (k1_pay2 s1) (k1_pay3 s2) (k1_pay4 s3) (k1_pay5 s4) (k1_pay6 s5) (k1_pay7 s6) (k1_pay8 s7) (k1_pay9 m0) (k1_pay10 m1) (k1_pay11 m2) m3 m4 m5 m6 m7 y2 y3) (FloatOps.ofBits (F := Ideal) .f32 0x00000000#32) y4 y5) s5) (k1_pay20 (k1_pay13 (k1_pay12 (F := Ideal) (k1_pay1 s0) (k1_pay2 s1) (k1_pay3 s2) (k1_pay4 s3) (k1_pay5 s4) (k1_pay6 s5) (k1_pay7 s6) (k1_pay8 s7) (k1_pay9 m0) (k1_pay10 m1) (k1_pay11 m2) m3 m4 m5 m6 m7 y2 y3) (FloatOps.ofBits (F := Ideal) .f32 0x00000000#32) y4 y5) s6) (k1_pay21 (k1_pay13 (k1_pay12 (F := Ideal) (k1_pay1 s0) (k1_pay2 s1) (k1_pay3 s2) (k1_pay4 s3) (k1_pay5 s4) (k1_pay6 s5) (k1_pay7 s6) (k1_pay8 s7) (k1_pay9 m0) (k1_pay10 m1) (k1_pay11 m2) m3 m4 m5 m6 m7 y2 y3) (FloatOps.ofBits (F := Ideal) .f32 0x00000000#32) y4 y5) s7) (k1_pay22 (k1_pay13 (k1_pay12 (F := Ideal) (k1_pay1 s0) (k1_pay2 s1) (k1_pay3 s2) (k1_pay4 s3) (k1_pay5 s4) (k1_pay6 s5) (k1_pay7 s6) (k1_pay8 s7) (k1_pay9 m0) (k1_pay10 m1) (k1_pay11 m2) m3 m4 m5 m6 m7 y2 y3) (FloatOps.ofBits (F := Ideal) .f32 0x00000000#32) y4 y5) m0) (k1_pay24 (k1_pay23 (k1_pay13 (k1_pay12 (F := Ideal) (k1_pay1 s0) (k1_pay2 s1) (k1_pay3 s2) (k1_pay4 s3) (k1_pay5 s4) (k1_pay6 s5) (k1_pay7 s6) (k1_pay8 s7) (k1_pay9 m0) (k1_pay10 m1) (k1_pay11 m2) m3 m4 m5 m6 m7 y2 y3) (FloatOps.ofBits (F := Ideal) .f32 0x00000000#32) y4 y5)) m1) (k1_pay25 (k1_pay13 (k1_pay12 (F := Ideal) (k1_pay1 s0) (k1_pay2 s1) (k1_pay3 s2) (k1_pay4 s3) (k1_pay5 s4) (k1_pay6 s5) (k1_pay7 s6) (k1_pay8 s7) (k1_pay9 m0) (k1_pay10 m1) (k1_pay11 m2) m3 m4 m5 m6 m7 y2 y3) (FloatOps.ofBits (F := Ideal) .f32 0x00000000#32) y4 y5) m2) (k1_pay26 (k1_pay13 (k1_pay12 (F := Ideal) (k1_pay1 s0) (k1_pay2 s1) (k1_pay3 s2) (k1_pay4 s3) (k1_pay5 s4) (k1_pay6 s5) (k1_pay7 s6) (k1_pay8 s7) (k1_pay9 m0) (k1_pay10 m1) (k1_pay11 m2) m3 m4 m5 m6 m7 y2 y3) (FloatOps.ofBits (F := Ideal) .f32 0x00000000#32) y4 y5) m3) (k1_pay27 (k1_pay13 (k1_pay12 (F := Ideal) (k1_pay1 s0) (k1_pay2 s1) (k1_pay3 s2) (k1_pay4 s3) (k1_pay5 s4) (k1_pay6 s5) (k1_pay7 s6) (k1_pay8 s7) (k1_pay9 m0) (k1_pay10 m1) (k1_pay11 m2) m3 m4 m5 m6 m7 y2 y3) (FloatOps.ofBits (F := Ideal) .f32 0x00000000#32) y4 y5) m4) (k1_pay28 (k1_pay13 (k1_pay12 (F := Ideal) (k1_pay1 s0) (k1_pay2 s1) (k1_pay3 s2) (k1_pay4 s3) (k1_pay5 s4) (k1_pay6 s5) (k1_pay7 s6) (k1_pay8 s7) (k1_pay9 m0) (k1_pay10 m1) (k1_pay11 m2) m3 m4 m5 m6 m7 y2 y3) (FloatOps.ofBits (F := Ideal) .f32 0x00000000#32) y4 y5) m5) (k1_pay30 (k1_pay29 (k1_pay13 (k1_pay12 (F := Ideal) (k1_pay1 s0) (k1_pay2 s1) (k1_pay3 s2) (k1_pay4 s3) (k1_pay5 s4) (k1_pay6 s5) (k1_pay7 s6) (k1_pay8 s7) (k1_pay9 m0) (k1_pay10 m1) (k1_pay11 m2) m3 m4 m5 m6 m7 y2 y3) (FloatOps.ofBits (F := Ideal) .f32 0x00000000#32) y4 y5)) m6) (k1_pay31 (k1_pay13 (k1_pay12 (F := Ideal) (k1_pay1 s0) (k1_pay2 s1) (k1_pay3 s2) (k1_pay4 s3) (k1_pay5 s4) (k1_pay6 s5) (k1_pay7 s6) (k1_pay8 s7) (k1_pay9 m0) (k1_pay10 m1) (k1_pay11 m2) m3 m4 m5 m6 m7 y2 y3) (FloatOps.ofBits (F := Ideal) .f32 0x00000000#32) y4 y5) m7)) y6 y7 y8 y9 (ix2 b t)
      = gateR (wts y2 y3 y4 y5 y6 y7 y8 y9) S M b t :=
  gate_of y2 y3 y4 y5 y6 y7 y8 y9 S M _
    (pooled2_of s0 s1 s2 s3 s4 s5 s6 s7 m0 m1 m2 m3 m4 m5 m6 m7 y2 y3 y4 y5 y6 y7 y8 y9 S M _ hs0 hs1 hs2 hs3 hs4 hs5 hs6 hs7 hm0 hm1 hm2 hm3 hm4 hm5 hm6 hm7
      (scale_of y2 y3 y4 y5 y6 y7 y8 y9 S M _
        (hid1_of s0 s1 s2 s3 s4 s5 s6 s7 m0 m1 m2 m3 m4 m5 m6 m7 y2 y3 S M hs0 hs1 hs2 hs3 hs4 hs5 hs6 hs7 hm0 hm1 hm2 hm3 hm4 hm5 hm6 hm7))) b t

end Compose

end Cert.ReferenceIdeal.GatePay

end
-- ==== Proof.RRegion1.lean ====
/-
  The second region of the reference's program, read as values: one invocation over the whole batch. From the two
  [8, 256, 16] arrays of plane sums and maxima it pools gate 1's averages and maxima per batch, stacks the eight average
  rows over the eight maximum rows, runs the first perceptron once on the sixteen rows, adds the two halves and takes
  the logistic (the channel scales); then the same for gate 2 with the rescaled pools; it stores the [8, 16] result whole.
-/
import proofs.«158407_g2000003629944382_pallasbulk_706_9_alg».proof.Proof.Gen.ReferenceIdeal.Frame
import proofs.«158407_g2000003629944382_pallasbulk_706_9_alg».proof.Proof.Spec
import proofs.«158407_g2000003629944382_pallasbulk_706_9_alg».proof.Proof.RGatePay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.GateRegion

open Cert.ReferenceIdeal Cert.ReferenceIdeal.Gen
open Idealize.ShloMosaic Idealize.ShloMosaic.TcCoe Idealize.ShloMosaic.ValueIdx Idealize.SL.Sem
open Idealize.ShloMosaic.Pipeline (Dat Cfg Window)

/-! ## The body's stored value over arbitrary staged blocks -/

/-- Offsets written `![0, 0]` are the zero offsets. -/
theorem zero2 : (![0, 0] : Fin 2 → Nat) = fun _ => 0 :=
  funext fun a => by match a with | ⟨0, _⟩ => rfl | ⟨1, _⟩ => rfl

/-- Batch `k`'s slab of an [8, 256, 16] array, loaded as a [1, 256, 16] block at offset (k, 0, 0): at (0, channel, frame)
    it is the array at (k, channel, frame). -/
theorem slab_read (X : FVec Ideal S8x256x16 .f32) (off : Fin 3 → Nat)
    (inb : ∀ a, off a + S1x256x16.size a ≤ S8x256x16.size a) (k : Fin 8)
    (h0 : off 0 = k.val) (h1 : off 1 = 0) (h2 : off 2 = 0) (ch : Fin 256) (t : Fin 16) :
    View.ld (Val := Elt Ideal) (e' := .f32) X (Rect.unit (s := S8x256x16) off S1x256x16.size inb) (ix3 (0 : Fin 1) ch t) = X (ix3 k ch t) := by
  refine congrArg X (funext fun a => Fin.ext ?_)
  match a with
  | ⟨0, _⟩ => show off 0 + 1 * 0 = k.val; omega
  | ⟨1, _⟩ => show off 1 + 1 * ch.val = ch.val; omega
  | ⟨2, _⟩ => show off 2 + 1 * t.val = t.val; omega

/-- What the body leaves in the output block, from ten arbitrary input blocks: at (b, t) the stacked gate of the plane
    sums `x0` and maxima `x1` under the weights `x2 … x9`. -/
theorem out_eq (x0 x1 : FVec Ideal S8x256x16 .f32) (x2 : FVec Ideal S256x16 .f32) (x3 : FVec Ideal S1x16 .f32)
    (x4 : FVec Ideal S16x256 .f32) (x5 : FVec Ideal S1x256 .f32) (x6 : FVec Ideal S16x8 .f32) (x7 : FVec Ideal S1x8 .f32)
    (x8 : FVec Ideal S8x16 .f32) (x9 : FVec Ideal S1x16 .f32) :
    out1_10 (F := Ideal) x0 x1 x2 x3 x4 x5 x6 x7 x8 x9
      = fun i : S8x16.Idx => Cert.Gate.gateR (GatePay.wts x2 x3 x4 x5 x6 x7 x8 x9)
          (fun b ch t => x0 (ix3 b ch t)) (fun b ch t => x1 (ix3 b ch t)) (i 0) (i 1) := by
  funext i
  obtain ⟨b, t, rfl⟩ : ∃ (b : Fin 8) (t : Fin 16), i = ix2 b t := ⟨i 0, i 1, eq_ix2 i⟩
  have e2 : View.ld (Val := Elt Ideal) (e' := .f32) x2 r1_8 = x2 := View.ld_unit_zero (Val := Elt Ideal) (S := S256x16) (e := .f32) zero2 _ x2
  have e3 : View.ld (Val := Elt Ideal) (e' := .f32) x3 r1_9 = x3 := View.ld_unit_zero (Val := Elt Ideal) (S := S1x16) (e := .f32) zero2 _ x3
  have e4 : View.ld (Val := Elt Ideal) (e' := .f32) x4 r1_10 = x4 := View.ld_unit_zero (Val := Elt Ideal) (S := S16x256) (e := .f32) zero2 _ x4
  have e5 : View.ld (Val := Elt Ideal) (e' := .f32) x5 r1_11 = x5 := View.ld_unit_zero (Val := Elt Ideal) (S := S1x256) (e := .f32) zero2 _ x5
  have e6 : View.ld (Val := Elt Ideal) (e' := .f32) x6 r1_12 = x6 := View.ld_unit_zero (Val := Elt Ideal) (S := S16x8) (e := .f32) zero2 _ x6
  have e7 : View.ld (Val := Elt Ideal) (e' := .f32) x7 r1_13 = x7 := View.ld_unit_zero (Val := Elt Ideal) (S := S1x8) (e := .f32) zero2 _ x7
  have e8 : View.ld (Val := Elt Ideal) (e' := .f32) x8 r1_14 = x8 := View.ld_unit_zero (Val := Elt Ideal) (S := S8x16) (e := .f32) zero2 _ x8
  have e9 : View.ld (Val := Elt Ideal) (e' := .f32) x9 r1_9 = x9 := View.ld_unit_zero (Val := Elt Ideal) (S := S1x16) (e := .f32) zero2 _ x9
  unfold out1_10
  refine (congrFun (View.canon_unit_zero (Val := Elt Ideal) zero2 _ _) (ix2 b t)).trans ?_
  refine (GatePay.gate_compose
    (View.ld (Val := Elt Ideal) (e' := .f32) x0 r1_0) (View.ld (Val := Elt Ideal) (e' := .f32) x0 r1_1) (View.ld (Val := Elt Ideal) (e' := .f32) x0 r1_2) (View.ld (Val := Elt Ideal) (e' := .f32) x0 r1_3) (View.ld (Val := Elt Ideal) (e' := .f32) x0 r1_4) (View.ld (Val := Elt Ideal) (e' := .f32) x0 r1_5) (View.ld (Val := Elt Ideal) (e' := .f32) x0 r1_6) (View.ld (Val := Elt Ideal) (e' := .f32) x0 r1_7)
    (View.ld (Val := Elt Ideal) (e' := .f32) x1 r1_0) (View.ld (Val := Elt Ideal) (e' := .f32) x1 r1_1) (View.ld (Val := Elt Ideal) (e' := .f32) x1 r1_2) (View.ld (Val := Elt Ideal) (e' := .f32) x1 r1_3) (View.ld (Val := Elt Ideal) (e' := .f32) x1 r1_4) (View.ld (Val := Elt Ideal) (e' := .f32) x1 r1_5) (View.ld (Val := Elt Ideal) (e' := .f32) x1 r1_6) (View.ld (Val := Elt Ideal) (e' := .f32) x1 r1_7)
    (View.ld (Val := Elt Ideal) (e' := .f32) x2 r1_8) (View.ld (Val := Elt Ideal) (e' := .f32) x3 r1_9) (View.ld (Val := Elt Ideal) (e' := .f32) x4 r1_10) (View.ld (Val := Elt Ideal) (e' := .f32) x5 r1_11) (View.ld (Val := Elt Ideal) (e' := .f32) x6 r1_12) (View.ld (Val := Elt Ideal) (e' := .f32) x7 r1_13)
    (View.ld (Val := Elt Ideal) (e' := .f32) x8 r1_14) (View.ld (Val := Elt Ideal) (e' := .f32) x9 r1_9)
    (fun b ch t => x0 (ix3 b ch t)) (fun b ch t => x1 (ix3 b ch t))
    (fun ch t => slab_read x0 _ _ 0 rfl rfl rfl ch t)
    (fun ch t => slab_read x0 _ _ 1 rfl rfl rfl ch t)
    (fun ch t => slab_read x0 _ _ 2 rfl rfl rfl ch t)
    (fun ch t => slab_read x0 _ _ 3 rfl rfl rfl ch t)
    (fun ch t => slab_read x0 _ _ 4 rfl rfl rfl ch t)
    (fun ch t => slab_read x0 _ _ 5 rfl rfl rfl ch t)
    (fun ch t => slab_read x0 _ _ 6 rfl rfl rfl ch t)
    (fun ch t => slab_read x0 _ _ 7 rfl rfl rfl ch t)
    (fun ch t => slab_read x1 _ _ 0 rfl rfl rfl ch t)
    (fun ch t => slab_read x1 _ _ 1 rfl rfl rfl ch t)
    (fun ch t => slab_read x1 _ _ 2 rfl rfl rfl ch t)
    (fun ch t => slab_read x1 _ _ 3 rfl rfl rfl ch t)
    (fun ch t => slab_read x1 _ _ 4 rfl rfl rfl ch t)
    (fun ch t => slab_read x1 _ _ 5 rfl rfl rfl ch t)
    (fun ch t => slab_read x1 _ _ 6 rfl rfl rfl ch t)
    (fun ch t => slab_read x1 _ _ 7 rfl rfl rfl ch t)
    b t).trans ?_
  rw [e2, e3, e4, e5, e6, e7, e8, e9]

variable (V : (c : Dev nD) → (b : Ref sig .tc) → Buf (Elt Ideal) ((c : Thread nD τ).loc b))

/-- The perceptrons' weights as the region finds them: gate 2's already transposed back by the host. -/
def weightsAt (c : Dev nD) : Cert.Gate.Weights where
  w1 ch j := (V c main_arg1 : S256x16.Idx → EReal) (ix2 ch j)
  b1 j := (V c main_arg2 : S1x16.Idx → EReal) (ix2 0 j)
  w2 j ch := (V c main_arg3 : S16x256.Idx → EReal) (ix2 j ch)
  b2 ch := (V c main_arg4 : S1x256.Idx → EReal) (ix2 0 ch)
  u1 t j := (V c main_v4 : S16x8.Idx → EReal) (ix2 t j)
  c1 j := (V c main_v5 : S1x8.Idx → EReal) (ix2 0 j)
  u2 j t := (V c main_v6 : S8x16.Idx → EReal) (ix2 j t)
  c2 t := (V c main_v7 : S1x16.Idx → EReal) (ix2 0 t)

/-! ## From the one point's block to the array -/

/-- The region has no grid: each input window's block at its one point is the whole array as the region finds it (block
    index 0 of a block as large as the array). -/
theorem iblk_0 (c : Dev nD) (t : Fin cfg1.N) :
    (iblk1 (F := Ideal) V c 0 t : S8x256x16.Idx → EReal) = V c main_v2 := by
  funext y
  show (V c main_v2 : S8x256x16.Idx → EReal) (((cfg1.win 0).blk t).view.emb y) = V c main_v2 y
  refine congrArg (V c main_v2 : S8x256x16.Idx → EReal) (funext fun a => Fin.ext ?_)
  show 0 * _ + 1 * (y a).val = (y a).val
  omega
theorem iblk_1 (c : Dev nD) (t : Fin cfg1.N) :
    (iblk1 (F := Ideal) V c 1 t : S8x256x16.Idx → EReal) = V c main_v3 := by
  funext y
  show (V c main_v3 : S8x256x16.Idx → EReal) (((cfg1.win 1).blk t).view.emb y) = V c main_v3 y
  refine congrArg (V c main_v3 : S8x256x16.Idx → EReal) (funext fun a => Fin.ext ?_)
  show 0 * _ + 1 * (y a).val = (y a).val
  omega
theorem iblk_2 (c : Dev nD) (t : Fin cfg1.N) :
    (iblk1 (F := Ideal) V c 2 t : S256x16.Idx → EReal) = V c main_arg1 := by
  funext y
  show (V c main_arg1 : S256x16.Idx → EReal) (((cfg1.win 2).blk t).view.emb y) = V c main_arg1 y
  refine congrArg (V c main_arg1 : S256x16.Idx → EReal) (funext fun a => Fin.ext ?_)
  show 0 * _ + 1 * (y a).val = (y a).val
  omega
theorem iblk_3 (c : Dev nD) (t : Fin cfg1.N) :
    (iblk1 (F := Ideal) V c 3 t : S1x16.Idx → EReal) = V c main_arg2 := by
  funext y
  show (V c main_arg2 : S1x16.Idx → EReal) (((cfg1.win 3).blk t).view.emb y) = V c main_arg2 y
  refine congrArg (V c main_arg2 : S1x16.Idx → EReal) (funext fun a => Fin.ext ?_)
  show 0 * _ + 1 * (y a).val = (y a).val
  omega
theorem iblk_4 (c : Dev nD) (t : Fin cfg1.N) :
    (iblk1 (F := Ideal) V c 4 t : S16x256.Idx → EReal) = V c main_arg3 := by
  funext y
  show (V c main_arg3 : S16x256.Idx → EReal) (((cfg1.win 4).blk t).view.emb y) = V c main_arg3 y
  refine congrArg (V c main_arg3 : S16x256.Idx → EReal) (funext fun a => Fin.ext ?_)
  show 0 * _ + 1 * (y a).val = (y a).val
  omega
theorem iblk_5 (c : Dev nD) (t : Fin cfg1.N) :
    (iblk1 (F := Ideal) V c 5 t : S1x256.Idx → EReal) = V c main_arg4 := by
  funext y
  show (V c main_arg4 : S1x256.Idx → EReal) (((cfg1.win 5).blk t).view.emb y) = V c main_arg4 y
  refine congrArg (V c main_arg4 : S1x256.Idx → EReal) (funext fun a => Fin.ext ?_)
  show 0 * _ + 1 * (y a).val = (y a).val
  omega
theorem iblk_6 (c : Dev nD) (t : Fin cfg1.N) :
    (iblk1 (F := Ideal) V c 6 t : S16x8.Idx → EReal) = V c main_v4 := by
  funext y
  show (V c main_v4 : S16x8.Idx → EReal) (((cfg1.win 6).blk t).view.emb y) = V c main_v4 y
  refine congrArg (V c main_v4 : S16x8.Idx → EReal) (funext fun a => Fin.ext ?_)
  show 0 * _ + 1 * (y a).val = (y a).val
  omega
theorem iblk_7 (c : Dev nD) (t : Fin cfg1.N) :
    (iblk1 (F := Ideal) V c 7 t : S1x8.Idx → EReal) = V c main_v5 := by
  funext y
  show (V c main_v5 : S1x8.Idx → EReal) (((cfg1.win 7).blk t).view.emb y) = V c main_v5 y
  refine congrArg (V c main_v5 : S1x8.Idx → EReal) (funext fun a => Fin.ext ?_)
  show 0 * _ + 1 * (y a).val = (y a).val
  omega
theorem iblk_8 (c : Dev nD) (t : Fin cfg1.N) :
    (iblk1 (F := Ideal) V c 8 t : S8x16.Idx → EReal) = V c main_v6 := by
  funext y
  show (V c main_v6 : S8x16.Idx → EReal) (((cfg1.win 8).blk t).view.emb y) = V c main_v6 y
  refine congrArg (V c main_v6 : S8x16.Idx → EReal) (funext fun a => Fin.ext ?_)
  show 0 * _ + 1 * (y a).val = (y a).val
  omega
theorem iblk_9 (c : Dev nD) (t : Fin cfg1.N) :
    (iblk1 (F := Ideal) V c 9 t : S1x16.Idx → EReal) = V c main_v7 := by
  funext y
  show (V c main_v7 : S1x16.Idx → EReal) (((cfg1.win 9).blk t).view.emb y) = V c main_v7 y
  refine congrArg (V c main_v7 : S1x16.Idx → EReal) (funext fun a => Fin.ext ?_)
  show 0 * _ + 1 * (y a).val = (y a).val
  omega

/-- What the region's one point writes back is the whole [8, 16] array of the stacked gates. -/
theorem flushed_gate (c : Dev nD) (t : Fin cfg1.N) :
    (dat1 (F := Ideal) V c).flushed 10 t
      = ((cfg1.win 10).blk t).view.read (Elt Ideal) (fun i : S8x16.Idx => Cert.Gate.gateR (weightsAt V c)
          (fun b ch t => (V c main_v2 : S8x256x16.Idx → EReal) (ix3 b ch t))
          (fun b ch t => (V c main_v3 : S8x256x16.Idx → EReal) (ix3 b ch t)) (i 0) (i 1)) := by
  show (cfg1.win 10).cut (grid1.coords t) ((dat1 (F := Ideal) V c).after 10 t) = _
  rw [after1_10]
  refine (congrArg ((cfg1.win 10).cut (grid1.coords t)) (out_eq (iblk1 (F := Ideal) V c 0 t) (iblk1 V c 1 t) (iblk1 V c 2 t)
    (iblk1 V c 3 t) (iblk1 V c 4 t) (iblk1 V c 5 t) (iblk1 V c 6 t) (iblk1 V c 7 t) (iblk1 V c 8 t) (iblk1 V c 9 t))).trans ?_
  funext j
  show Cert.Gate.gateR (GatePay.wts (iblk1 V c 2 t) (iblk1 V c 3 t) (iblk1 V c 4 t) (iblk1 V c 5 t) (iblk1 V c 6 t) (iblk1 V c 7 t)
        (iblk1 V c 8 t) (iblk1 V c 9 t))
      (fun b ch t' => iblk1 V c 0 t (ix3 b ch t')) (fun b ch t' => iblk1 V c 1 t (ix3 b ch t')) (j 0) (j 1)
    = Cert.Gate.gateR (weightsAt V c) (fun b ch t => (V c main_v2 : S8x256x16.Idx → EReal) (ix3 b ch t))
        (fun b ch t => (V c main_v3 : S8x256x16.Idx → EReal) (ix3 b ch t)) ((((cfg1.win 10).blk t).view.emb j) 0) ((((cfg1.win 10).blk t).view.emb j) 1)
  have hj : ((cfg1.win 10).blk t).view.emb j = j := funext fun a => Fin.ext (by
    show 0 * _ + 1 * (j a).val = (j a).val
    omega)
  rw [hj, iblk_0 V c t, iblk_1 V c t, iblk_2 V c t, iblk_3 V c t, iblk_4 V c t, iblk_5 V c t, iblk_6 V c t, iblk_7 V c t,
    iblk_8 V c t, iblk_9 V c t]
  rfl

/-- Every index of the [8, 16] array is in the one point's block, which is the whole array. -/
theorem mem_blk_gate (t : Fin cfg1.N) (i : S8x16.Idx) : i ∈ ((cfg1.win 10).blk t).view.set := by
  show i ∈ ((View.whole main_v8).slice (win1_10.rect t)).set
  rw [View.set_slice_whole, Rect.mem_set_unit]
  intro a
  refine ⟨?_, ?_⟩
  · show 0 * _ ≤ (i a).val
    omega
  · show (i a).val < 0 * _ + S8x16.size a
    rw [Nat.zero_mul, Nat.zero_add]
    exact (i a).isLt

/-- After the region the output array holds, at (b, t), batch b's temporal gate at frame t, in the stacked spelling. -/
theorem arr_gate (c : Dev nD) :
    (dat1 (F := Ideal) V c).arrAt 10 cfg1.N
      = fun i : S8x16.Idx => Cert.Gate.gateR (weightsAt V c)
          (fun b ch t => (V c main_v2 : S8x256x16.Idx → EReal) (ix3 b ch t))
          (fun b ch t => (V c main_v3 : S8x256x16.Idx → EReal) (ix3 b ch t)) (i 0) (i 1) := by
  exact (dat1 (F := Ideal) V c).arrAt_eq_of_cover 10 _ (fun t _ => flushed_gate V c t)
    (fun i => ⟨⟨0, by decide⟩, flush1_10 _, mem_blk_gate _ i⟩)

end Cert.ReferenceIdeal.GateRegion

end
-- ==== Proof.RValue.lean ====
/-
  The reference's program end to end, as a value: its result array is the gate region's output itself, the stacked spelling
  of the temporal gate over the two [8, 256, 16] arrays, which are the first region's [32768, 1] columns of row sums and row
  maxima reshaped (row (b·256 + c)·16 + t becomes entry (b, c, t)), of the input reshaped to 32768 × 784; the gate-2
  weights reach the region through the host's transposes.
-/
import proofs.«158407_g2000003629944382_pallasbulk_706_9_alg».proof.Proof.Gen.ReferenceIdeal.Frame
import proofs.«158407_g2000003629944382_pallasbulk_706_9_alg».proof.Proof.Spec
import proofs.«158407_g2000003629944382_pallasbulk_706_9_alg».proof.Proof.RRegion0
import proofs.«158407_g2000003629944382_pallasbulk_706_9_alg».proof.Proof.RRegion1
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Result

open Cert.ReferenceIdeal Cert.ReferenceIdeal.Gen
open Idealize.ShloMosaic Idealize.ShloMosaic.TcCoe Idealize.ShloMosaic.ValueIdx Idealize.SL.Sem
open Idealize.ShloMosaic.Pipeline (Dat Cfg Window)
open Idealize.ShloMosaic.StableHlo (after_cons after_nil)

variable (m : (ℓ : Loc nD τ sig) → Buf (Elt Ideal) ℓ) (ρ : Dev nD → PrngReg)

/-! ## The boundaries of the fold, buffer by buffer -/

/-- The first region is entered with the input viewed as 32768 rows of 784 entries. -/
theorem entry0_x (c : Dev nD) :
    (V1 (F := Ideal) m ρ c main_v0 : S32768x784.Idx → EReal) = Cert.Gate.flat (m ((c : Thread nD τ).loc main_arg0)) := by
  show StableHlo.after hostOps0 (W0 m ρ c) (Proc.devRef .tc main_v0) = _
  after_results
  rfl

/-- At the first region's exit its first output array holds every row's sum of the flattened input. -/
theorem exit0_sums (c : Dev nD) :
    (W2 (F := Ideal) m ρ c (Proc.devRef .tc main_v1_0) : S32768x1.Idx → EReal)
      = fun i : S32768x1.Idx => Cert.Gate.rowSum (Cert.Gate.flat (m ((c : Thread nD τ).loc main_arg0))) (i 0) :=
  (W2_arr m ρ c 1).trans ((Cert.ReferenceIdeal.Pools.arr_sums (V1 m ρ) c).trans (by rw [entry0_x]))

/-- At the first region's exit its second output array holds every row's maximum of the flattened input. -/
theorem exit0_maxes (c : Dev nD) :
    (W2 (F := Ideal) m ρ c (Proc.devRef .tc main_v1_1) : S32768x1.Idx → EReal)
      = fun i : S32768x1.Idx => Cert.Gate.rowMax (Cert.Gate.flat (m ((c : Thread nD τ).loc main_arg0))) (i 0) :=
  (W2_arr m ρ c 2).trans ((Cert.ReferenceIdeal.Pools.arr_maxes (V1 m ρ) c).trans (by rw [entry0_x]))

/-- The gate region finds the row sums as an [8, 256, 16] array: entry (b, ch, t) is row (b·256 + ch)·16 + t's sum. -/
theorem entry1_sums (c : Dev nD) (b : Fin 8) (ch : Fin 256) (t : Fin 16) :
    (V3 (F := Ideal) m ρ c main_v2 : S8x256x16.Idx → EReal) (ix3 b ch t)
      = Cert.Gate.rowSum (Cert.Gate.flat (m ((c : Thread nD τ).loc main_arg0))) (Cert.Gate.row b ch t) := by
  have e : (V3 (F := Ideal) m ρ c main_v2 : S8x256x16.Idx → EReal)
      = shapeCast S8x256x16 (W2 m ρ c (Proc.devRef .tc main_v1_0) : S32768x1.Idx → EReal) (by decide) := by
    show StableHlo.after hostOps1 (W2 m ρ c) (Proc.devRef .tc main_v2) = _
    after_results
    rfl
  rw [e, exit0_sums]
  refine (shapeCast_apply _ _ (ix3 b ch t) (ix2 (Cert.Gate.row b ch t) 0) ?_).trans rfl
  rw [Shape.rowMajor_val_two, Shape.rowMajor_val_three]
  show ((b.val * 256 + ch.val) * 16 + t.val) * 1 + 0 = (b.val * 256 + ch.val) * 16 + t.val
  omega

/-- The same for the row maxima. -/
theorem entry1_maxes (c : Dev nD) (b : Fin 8) (ch : Fin 256) (t : Fin 16) :
    (V3 (F := Ideal) m ρ c main_v3 : S8x256x16.Idx → EReal) (ix3 b ch t)
      = Cert.Gate.rowMax (Cert.Gate.flat (m ((c : Thread nD τ).loc main_arg0))) (Cert.Gate.row b ch t) := by
  have e : (V3 (F := Ideal) m ρ c main_v3 : S8x256x16.Idx → EReal)
      = shapeCast S8x256x16 (W2 m ρ c (Proc.devRef .tc main_v1_1) : S32768x1.Idx → EReal) (by decide) := by
    show StableHlo.after hostOps1 (W2 m ρ c) (Proc.devRef .tc main_v3) = _
    after_results
    rfl
  rw [e, exit0_maxes]
  refine (shapeCast_apply _ _ (ix3 b ch t) (ix2 (Cert.Gate.row b ch t) 0) ?_).trans rfl
  rw [Shape.rowMajor_val_two, Shape.rowMajor_val_three]
  show ((b.val * 256 + ch.val) * 16 + t.val) * 1 + 0 = (b.val * 256 + ch.val) * 16 + t.val
  omega

/-- The weight array `main_arg1` reaches the gate region as launched: no host operation and no region writes it. -/
theorem entry1_arg1 (c : Dev nD) : V3 (F := Ideal) m ρ c main_arg1 = (m ((c : Thread nD τ).loc main_arg1)) := by
  show StableHlo.after hostOps1 (W2 m ρ c) (Proc.devRef .tc main_arg1) = _
  after_results
  refine (W2_of_ne m ρ c main_arg1 (by decide)).trans ?_
  show StableHlo.after hostOps0 (W0 m ρ c) (Proc.devRef .tc main_arg1) = _
  after_results

/-- The weight array `main_arg2` reaches the gate region as launched: no host operation and no region writes it. -/
theorem entry1_arg2 (c : Dev nD) : V3 (F := Ideal) m ρ c main_arg2 = (m ((c : Thread nD τ).loc main_arg2)) := by
  show StableHlo.after hostOps1 (W2 m ρ c) (Proc.devRef .tc main_arg2) = _
  after_results
  refine (W2_of_ne m ρ c main_arg2 (by decide)).trans ?_
  show StableHlo.after hostOps0 (W0 m ρ c) (Proc.devRef .tc main_arg2) = _
  after_results

/-- The weight array `main_arg3` reaches the gate region as launched: no host operation and no region writes it. -/
theorem entry1_arg3 (c : Dev nD) : V3 (F := Ideal) m ρ c main_arg3 = (m ((c : Thread nD τ).loc main_arg3)) := by
  show StableHlo.after hostOps1 (W2 m ρ c) (Proc.devRef .tc main_arg3) = _
  after_results
  refine (W2_of_ne m ρ c main_arg3 (by decide)).trans ?_
  show StableHlo.after hostOps0 (W0 m ρ c) (Proc.devRef .tc main_arg3) = _
  after_results

/-- The weight array `main_arg4` reaches the gate region as launched: no host operation and no region writes it. -/
theorem entry1_arg4 (c : Dev nD) : V3 (F := Ideal) m ρ c main_arg4 = (m ((c : Thread nD τ).loc main_arg4)) := by
  show StableHlo.after hostOps1 (W2 m ρ c) (Proc.devRef .tc main_arg4) = _
  after_results
  refine (W2_of_ne m ρ c main_arg4 (by decide)).trans ?_
  show StableHlo.after hostOps0 (W0 m ρ c) (Proc.devRef .tc main_arg4) = _
  after_results

/-- The first weights of gate 2 reach the gate region transposed back by the host: entry (p, q) is the launched array's (q, p). -/
theorem entry1_v4 (c : Dev nD) (p : Fin 16) (q : Fin 8) :
    (V3 (F := Ideal) m ρ c main_v4 : S16x8.Idx → EReal) (ix2 p q) = ((m ((c : Thread nD τ).loc main_arg5)) : S8x16.Idx → EReal) (ix2 q p) := by
  have e : (V3 (F := Ideal) m ρ c main_v4 : S16x8.Idx → EReal)
      = transpose S16x8 [1, 0] (W2 m ρ c (Proc.devRef .tc main_arg5) : S8x16.Idx → EReal) (by decide) := by
    show StableHlo.after hostOps1 (W2 m ρ c) (Proc.devRef .tc main_v4) = _
    after_results
  have e' : (W2 (F := Ideal) m ρ c (Proc.devRef .tc main_arg5) : S8x16.Idx → EReal) = (m ((c : Thread nD τ).loc main_arg5)) := by
    refine (W2_of_ne m ρ c main_arg5 (by decide)).trans ?_
    show StableHlo.after hostOps0 (W0 m ρ c) (Proc.devRef .tc main_arg5) = _
    after_results
  rw [e, e']
  exact transpose_ix2_apply _ _ p q

/-- The first bias of gate 2 reach the gate region transposed back by the host: entry (p, q) is the launched array's (q, p). -/
theorem entry1_v5 (c : Dev nD) (p : Fin 1) (q : Fin 8) :
    (V3 (F := Ideal) m ρ c main_v5 : S1x8.Idx → EReal) (ix2 p q) = ((m ((c : Thread nD τ).loc main_arg6)) : S8x1.Idx → EReal) (ix2 q p) := by
  have e : (V3 (F := Ideal) m ρ c main_v5 : S1x8.Idx → EReal)
      = transpose S1x8 [1, 0] (W2 m ρ c (Proc.devRef .tc main_arg6) : S8x1.Idx → EReal) (by decide) := by
    show StableHlo.after hostOps1 (W2 m ρ c) (Proc.devRef .tc main_v5) = _
    after_results
  have e' : (W2 (F := Ideal) m ρ c (Proc.devRef .tc main_arg6) : S8x1.Idx → EReal) = (m ((c : Thread nD τ).loc main_arg6)) := by
    refine (W2_of_ne m ρ c main_arg6 (by decide)).trans ?_
    show StableHlo.after hostOps0 (W0 m ρ c) (Proc.devRef .tc main_arg6) = _
    after_results
  rw [e, e']
  exact transpose_ix2_apply _ _ p q

/-- The second weights of gate 2 reach the gate region transposed back by the host: entry (p, q) is the launched array's (q, p). -/
theorem entry1_v6 (c : Dev nD) (p : Fin 8) (q : Fin 16) :
    (V3 (F := Ideal) m ρ c main_v6 : S8x16.Idx → EReal) (ix2 p q) = ((m ((c : Thread nD τ).loc main_arg7)) : S16x8.Idx → EReal) (ix2 q p) := by
  have e : (V3 (F := Ideal) m ρ c main_v6 : S8x16.Idx → EReal)
      = transpose S8x16 [1, 0] (W2 m ρ c (Proc.devRef .tc main_arg7) : S16x8.Idx → EReal) (by decide) := by
    show StableHlo.after hostOps1 (W2 m ρ c) (Proc.devRef .tc main_v6) = _
    after_results
  have e' : (W2 (F := Ideal) m ρ c (Proc.devRef .tc main_arg7) : S16x8.Idx → EReal) = (m ((c : Thread nD τ).loc main_arg7)) := by
    refine (W2_of_ne m ρ c main_arg7 (by decide)).trans ?_
    show StableHlo.after hostOps0 (W0 m ρ c) (Proc.devRef .tc main_arg7) = _
    after_results
  rw [e, e']
  exact transpose_ix2_apply _ _ p q

/-- The second bias of gate 2 reach the gate region transposed back by the host: entry (p, q) is the launched array's (q, p). -/
theorem entry1_v7 (c : Dev nD) (p : Fin 1) (q : Fin 16) :
    (V3 (F := Ideal) m ρ c main_v7 : S1x16.Idx → EReal) (ix2 p q) = ((m ((c : Thread nD τ).loc main_arg8)) : S16x1.Idx → EReal) (ix2 q p) := by
  have e : (V3 (F := Ideal) m ρ c main_v7 : S1x16.Idx → EReal)
      = transpose S1x16 [1, 0] (W2 m ρ c (Proc.devRef .tc main_arg8) : S16x1.Idx → EReal) (by decide) := by
    show StableHlo.after hostOps1 (W2 m ρ c) (Proc.devRef .tc main_v7) = _
    after_results
  have e' : (W2 (F := Ideal) m ρ c (Proc.devRef .tc main_arg8) : S16x1.Idx → EReal) = (m ((c : Thread nD τ).loc main_arg8)) := by
    refine (W2_of_ne m ρ c main_arg8 (by decide)).trans ?_
    show StableHlo.after hostOps0 (W0 m ρ c) (Proc.devRef .tc main_arg8) = _
    after_results
  rw [e, e']
  exact transpose_ix2_apply _ _ p q

/-- The result array at the last boundary is the stacked spelling of the gates of the argument arrays as launched. -/
theorem result_eq (c : Dev nD) :
    (W4 (F := Ideal) m ρ c (Proc.devRef .tc main_v8) : S8x16.Idx → EReal)
      = fun i : S8x16.Idx => Cert.Gate.gateR
          (Cert.Gate.weights (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
          (Cert.Gate.sums (Cert.Gate.flat (m ((c : Thread nD τ).loc main_arg0))))
          (Cert.Gate.maxes (Cert.Gate.flat (m ((c : Thread nD τ).loc main_arg0)))) (i 0) (i 1) := by
  have e4 : (W4 (F := Ideal) m ρ c (Proc.devRef .tc main_v8) : S8x16.Idx → EReal) = _ :=
    (W4_arr m ρ c 10).trans (Cert.ReferenceIdeal.GateRegion.arr_gate (V3 m ρ) c)
  -- the weights the region finds are the launched arrays', gate 2's transposed back
  have hP : Cert.ReferenceIdeal.GateRegion.weightsAt (V3 (F := Ideal) m ρ) c
      = Cert.Gate.weights (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
    unfold Cert.ReferenceIdeal.GateRegion.weightsAt Cert.Gate.weights
    rw [Cert.Gate.Weights.mk.injEq]
    refine ⟨?_, ?_, ?_, ?_, ?_, ?_, ?_, ?_⟩
    · funext ch j; exact congrFun (entry1_arg1 m ρ c) (ix2 ch j)
    · funext j; exact congrFun (entry1_arg2 m ρ c) (ix2 0 j)
    · funext j ch; exact congrFun (entry1_arg3 m ρ c) (ix2 j ch)
    · funext ch; exact congrFun (entry1_arg4 m ρ c) (ix2 0 ch)
    · funext t j; exact entry1_v4 m ρ c t j
    · funext j; exact entry1_v5 m ρ c 0 j
    · funext j t; exact entry1_v6 m ρ c j t
    · funext t; exact entry1_v7 m ρ c 0 t
  -- the two [8, 256, 16] arrays are the plane sums and maxima
  have hS : (fun (b : Fin 8) (ch : Fin 256) (t : Fin 16) => (V3 (F := Ideal) m ρ c main_v2 : S8x256x16.Idx → EReal) (ix3 b ch t))
      = Cert.Gate.sums (Cert.Gate.flat (m ((c : Thread nD τ).loc main_arg0))) := by
    funext b ch t
    exact entry1_sums m ρ c b ch t
  have hM : (fun (b : Fin 8) (ch : Fin 256) (t : Fin 16) => (V3 (F := Ideal) m ρ c main_v3 : S8x256x16.Idx → EReal) (ix3 b ch t))
      = Cert.Gate.maxes (Cert.Gate.flat (m ((c : Thread nD τ).loc main_arg0))) := by
    funext b ch t
    exact entry1_maxes m ρ c b ch t
  rw [e4, hP, hS, hM]

end Cert.ReferenceIdeal.Result

end
-- ==== Proof.lean ====
/-
  The certificate: the kernel's program and its reference compute the same [8, 16] temporal gate of a video tensor.

  Both programs take, over the input viewed as 32768 rows of 784 entries, every row's sum and maximum in a first kernel
  region (tiled differently, which at the extended reals changes nothing), and in a second region run the two channel
  gates on those. They spell the gates differently: one folds gate 1's average pool into the first matrix product
  and adds each bias once, doubled, batch by batch over a grid; the other pools first, stacks the average rows over the
  maximum rows and adds the two halves of each perceptron's output, all batches in one invocation. Each program's result
  array is read back through its run to one function of the argument arrays (`Gate.result`, and the stacked spelling
  `Gate.gateR`), and the two are one value for finite inputs (`Gate.gateR_eq_gateK`: distributivity across the pool,
  which is where finiteness of the input and of gate 1's first weights is used).

  The three frames are the generated frame certificates; the idealization rewrote nothing, so `preserves` has nothing to say.
-/
import proofs.«158407_g2000003629944382_pallasbulk_706_9_alg».proof.Defs
import proofs.«158407_g2000003629944382_pallasbulk_706_9_alg».proof.Proof.Gen.Kernel.Frame
import proofs.«158407_g2000003629944382_pallasbulk_706_9_alg».proof.Proof.Gen.KernelIdeal.Frame
import proofs.«158407_g2000003629944382_pallasbulk_706_9_alg».proof.Proof.Gen.ReferenceIdeal.Frame
import proofs.«158407_g2000003629944382_pallasbulk_706_9_alg».proof.Proof.Gen.Pre_finite_inputs
import proofs.«158407_g2000003629944382_pallasbulk_706_9_alg».proof.Proof.Spec
import proofs.«158407_g2000003629944382_pallasbulk_706_9_alg».proof.Proof.Finite
import proofs.«158407_g2000003629944382_pallasbulk_706_9_alg».proof.Proof.KRun
import proofs.«158407_g2000003629944382_pallasbulk_706_9_alg».proof.Proof.RRun
import proofs.«158407_g2000003629944382_pallasbulk_706_9_alg».proof.Proof.KValue
import proofs.«158407_g2000003629944382_pallasbulk_706_9_alg».proof.Proof.RValue

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote no operation. -/
theorem preserves : Cert.preserves_Kernel_KernelIdeal := trivial

/-- Both runs end with the result array at `Gate.result` of the arguments: the kernel's by its run read back, the
    reference's by its run read back to the stacked spelling, which for finite inputs is the same value. -/
theorem algebraic : Cert.algebraic_KernelIdeal_ReferenceIdeal := by
  intro m ρ m' ρ' hpre hagree
  refine ⟨fun c => Cert.Gate.result (Cert.Gate.flat (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Named.run_named (F := Ideal) m ρ)
    exact ⟨(h c).1.trans (Cert.KernelIdeal.Result.result_eq m ρ c), (h c).2⟩
  · refine (θ_run Cert.ReferenceIdeal.defs _ _).mono (fun r h c => ?_) (Cert.ReferenceIdeal.Named.run_named (F := Ideal) m' ρ')
    refine ⟨(h c).1.trans ?_, (h c).2⟩
    rw [Cert.ReferenceIdeal.Result.result_eq m' ρ' c]
    obtain ⟨e0, e1, e2, e3, e4, e5, e6, e7, e8⟩ := hagree c
    rw [e0, e1, e2, e3, e4, e5, e6, e7, e8]
    funext i
    exact Cert.Gate.gateR_eq_gateK _ _ _
      (Cert.Gate.sums_real _ (Cert.Finite.real_x _ _ _ _ _ _ _ _ _ (hpre c)))
      (fun ch j => Cert.Finite.real_w1 _ _ _ _ _ _ _ _ _ (hpre c) (Idealize.ShloMosaic.ValueIdx.ix2 ch j)) (i 0) (i 1)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
